-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x32 : Shape := ⟨2, ![32, 32]⟩
abbrev S4x32x32 : Shape := ⟨3, ![4, 32, 32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x32 : S_.BroadcastsInDim S32x32 (![] : Fin 0 → Fin S32x32.rank)
  reducesTo_S32x32_S_d0_1 : S32x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_

variable [Facts]

def fn_part1 {F : FTy → Type} [FloatOps F] (main_arg4 : FVec F S4x32x32 .f32) (main_v13 : IVec S_ 1) (main_v16 : IVec S4x32x32 1) : IVec S_ 1 :=
  let main_c_5 : IVec S_ 1 := constantI S_ 1 1#1
  let main_v17 : IVec S_ 1 := (fun x v => Host.reduce IntOp.andi x v reducesTo_S4x32x32_S_d0_1_2 h_S_) main_v16 main_c_5
  let main_v18 : IVec S_ 1 := andi main_v13 main_v17
  let main_v19 : FVec F S4x32x32 .f32 := Host.absf main_arg4
  let main_cst_6 : FVec F S_ .f32 := constant S_ .f32 0x7F800000#32
  let main_v20 : FVec F S4x32x32 .f32 := broadcastInDim S4x32x32 ![] bcast_S_S4x32x32 main_cst_6
  let main_v21 : IVec S4x32x32 1 := cmpf .olt main_v19 main_v20
  let main_c_7 : IVec S_ 1 := constantI S_ 1 1#1
  let main_v22 : IVec S_ 1 := (fun x v => Host.reduce IntOp.andi x v reducesTo_S4x32x32_S_d0_1_2 h_S_) main_v21 main_c_7
  let main_v23 : IVec S_ 1 := andi main_v18 main_v22
  main_v23

def fn {F : FTy → Type} [FloatOps F] (main_arg0 : FVec F S8192x32 .f32) (main_arg1 : FVec F S8192x8192 .f32) (main_arg2 : FVec F S32x32 .f32) (main_arg3 : FVec F S4x32x32 .f32) (main_arg4 : FVec F S4x32x32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S4x32x32 .f32 := Host.absf main_arg3
  let main_cst_4 : FVec F S_ .f32 := constant S_ .f32 0x7F800000#32
  let main_v15 : FVec F S4x32x32 .f32 := broadcastInDim S4x32x32 ![] bcast_S_S4x32x32 main_cst_4
  let main_v16 : IVec S4x32x32 1 := cmpf .olt main_v14 main_v15
  fn_part1 (F := F) main_arg4 main_v13 main_v16
-- ==== Kernel.lean ====
abbrev S8192x32 : Shape := ⟨2, ![8192, 32]⟩
abbrev S8192x8192 : Shape := ⟨2, ![8192, 8192]⟩
abbrev S32x32 : Shape := ⟨2, ![32, 32]⟩
abbrev S4x32x32 : Shape := ⟨3, ![4, 32, 32]⟩
abbrev S1024x2048 : Shape := ⟨2, ![1024, 2048]⟩
abbrev S2048x32 : Shape := ⟨2, ![2048, 32]⟩
abbrev S1024x32 : Shape := ⟨2, ![1024, 32]⟩
abbrev S1x32x32 : Shape := ⟨3, ![1, 32, 32]⟩
abbrev S_ : Shape := ⟨0, ![]⟩
abbrev S32x8192 : Shape := ⟨2, ![32, 8192]⟩

abbrev nBuf : Space → Nat
  | .hbm => 64
  | .vmem => 21
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S32x32, .f32⟩
  | .hbm, ⟨3, _⟩ => ⟨S4x32x32, .f32⟩
  | .hbm, ⟨4, _⟩ => ⟨S4x32x32, .f32⟩
  | .hbm, ⟨5, _⟩ => ⟨S8192x32, .f32⟩
  | .hbm, ⟨6, _⟩ => ⟨S1x32x32, .f32⟩
  | .hbm, ⟨7, _⟩ => ⟨S32x32, .f32⟩
  | .hbm, ⟨8, _⟩ => ⟨S8192x32, .f32⟩
  | .hbm, ⟨9, _⟩ => ⟨S1x32x32, .f32⟩
  | .hbm, ⟨10, _⟩ => ⟨S32x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S1x32x32, .f32⟩
  | .hbm, ⟨19, _⟩ => ⟨S32x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S_, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S1x32x32, .f32⟩
  | .hbm, ⟨28, _⟩ => ⟨S32x32, .f32⟩
  | .hbm, ⟨29, _⟩ => ⟨S8192x32, .f32⟩
  | .hbm, ⟨30, _⟩ => ⟨S8192x32, .f32⟩
  | .hbm, ⟨31, _⟩ => ⟨S32x8192, .f32⟩
  | .hbm, ⟨32, _⟩ => ⟨S32x32, .f32⟩
  | .hbm, ⟨33, _⟩ => ⟨S32x32, .f32⟩
  | .hbm, ⟨34, _⟩ => ⟨S8192x32, .f32⟩
  | .hbm, ⟨35, _⟩ => ⟨S1x32x32, .f32⟩
  | .hbm, ⟨36, _⟩ => ⟨S32x32, .f32⟩
  | .hbm, ⟨37, _⟩ => ⟨S8192x32, .f32⟩
  | .hbm, ⟨38, _⟩ => ⟨S8192x32, .f32⟩
  | .hbm, ⟨39, _⟩ => ⟨S32x8192, .f32⟩
  | .hbm, ⟨40, _⟩ => ⟨S32x32, .f32⟩
  | .hbm, ⟨41, _⟩ => ⟨S32x32, .f32⟩
  | .hbm, ⟨42, _⟩ => ⟨S8192x32, .f32⟩
  | .hbm, ⟨43, _⟩ => ⟨S_, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S1x32x32, .f32⟩
  | .hbm, ⟨48, _⟩ => ⟨S32x32, .f32⟩
  | .hbm, ⟨49, _⟩ => ⟨S8192x32, .f32⟩
  | .hbm, ⟨50, _⟩ => ⟨S8192x32, .f32⟩
  | .hbm, ⟨51, _⟩ => ⟨S32x8192, .f32⟩
  | .hbm, ⟨52, _⟩ => ⟨S32x32, .f32⟩
  | .hbm, ⟨53, _⟩ => ⟨S32x32, .f32⟩
  | .hbm, ⟨54, _⟩ => ⟨S8192x32, .f32⟩
  | .hbm, ⟨55, _⟩ => ⟨S_, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S1x32x32, .f32⟩
  | .hbm, ⟨60, _⟩ => ⟨S32x32, .f32⟩
  | .hbm, ⟨61, _⟩ => ⟨S8192x32, .f32⟩
  | .hbm, ⟨62, _⟩ => ⟨S8192x32, .f32⟩
  | .hbm, ⟨63, _⟩ => ⟨S8192x32, .f32⟩
  | .local _ .vmem, ⟨0, _⟩ => ⟨S1024x2048, .f32⟩
  | .local _ .vmem, ⟨1, _⟩ => ⟨S1024x2048, .f32⟩
  | .local _ .vmem, ⟨2, _⟩ => ⟨S2048x32, .f32⟩
  | .local _ .vmem, ⟨3, _⟩ => ⟨S2048x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x2048, .f32⟩
  | .local _ .vmem, ⟨8, _⟩ => ⟨S1024x2048, .f32⟩
  | .local _ .vmem, ⟨9, _⟩ => ⟨S2048x32, .f32⟩
  | .local _ .vmem, ⟨10, _⟩ => ⟨S2048x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x2048, .f32⟩
  | .local _ .vmem, ⟨15, _⟩ => ⟨S1024x2048, .f32⟩
  | .local _ .vmem, ⟨16, _⟩ => ⟨S2048x32, .f32⟩
  | .local _ .vmem, ⟨17, _⟩ => ⟨S2048x32, .f32⟩
  | .local _ .vmem, ⟨18, _⟩ => ⟨S1024x32, .f32⟩
  | .local _ .vmem, ⟨19, _⟩ => ⟨S1024x32, .f32⟩
  | .local _ .vmem, ⟨20, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_2 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  slices_S4x32x32_S1x32x32_0_0_0 : S4x32x32.Slices ![0, 0, 0] S1x32x32
  shapeCasts_S1x32x32_S32x32 : S1x32x32.ShapeCasts S32x32
  slices_S4x32x32_S1x32x32_1_0_0 : S4x32x32.Slices ![1, 0, 0] S1x32x32
  shapeCasts_S2048x32_S2048x32 : S2048x32.ShapeCasts S2048x32
  bcast_S_S8192x32 : S_.BroadcastsInDim S8192x32 (![] : Fin 0 → Fin S8192x32.rank)
  slices_S4x32x32_S1x32x32_2_0_0 : S4x32x32.Slices ![2, 0, 0] S1x32x32
  slices_S4x32x32_S1x32x32_3_0_0 : S4x32x32.Slices ![3, 0, 0] S1x32x32
  transposes_S8192x32_S32x8192_1_0 : S8192x32.Transposes [1, 0] S32x8192
  dot_S1024x2048_S2048x32_S1024x32_1_0_0_1_n_n_wf : DotDims.WF S1024x2048 S2048x32 S1024x32 [1] [0] [0] [1] [] []
  dot_S8192x32_S32x32_S8192x32_1_0_0_1_n_n_wf : DotDims.WF S8192x32 S32x32 S8192x32 [1] [0] [0] [1] [] []
  dot_S32x8192_S8192x32_S32x32_1_0_0_1_n_n_wf : DotDims.WF S32x8192 S8192x32 S32x32 [1] [0] [0] [1] [] []
  dot_S32x32_S32x32_S32x32_1_0_0_1_n_n_wf : DotDims.WF S32x32 S32x32 S32x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S8192x32.size a
  hwx0_1 : ∀ i : grid0.Coords, EltTy.bits .f32 = 32 ∨ (Rect.block (s := S8192x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S8192x32.size a
  hwx1_1 : ∀ i : grid1.Coords, EltTy.bits .f32 = 32 ∨ (Rect.block (s := S8192x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x32.size a ≤ S8192x32.size a
  hwx2_1 : ∀ i : grid2.Coords, EltTy.bits .f32 = 32 ∨ (Rect.block (s := S8192x32) S2048x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S8192x32.size a
  hwx2_2 : ∀ i : grid2.Coords, EltTy.bits .f32 = 32 ∨ (Rect.block (s := S8192x32) S1024x32.size (cc2_transform_2 i) (hinb2_2 i)).WholeWords (EltTy.packing .f32)

variable [Facts₀]

def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S32x8192_S8192x32_S32x32_1_0_0_1_n_n : DotDims S32x8192 S8192x32 S32x32 where
  lhsContracting := [1]
  rhsContracting := [0]
  lhsNonContracting := [0]
  rhsNonContracting := [1]
  lhsBatch := []
  rhsBatch := []
  wf := dot_S32x8192_S8192x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2048x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1024x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S32x32 : Shape := ⟨2, ![32, 32]⟩
abbrev S4x32x32 : Shape := ⟨3, ![4, 32, 32]⟩
abbrev S1x32x32 : Shape := ⟨3, ![1, 32, 32]⟩
abbrev S_ : Shape := ⟨0, ![]⟩
abbrev S32x8192 : Shape := ⟨2, ![32, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S32x32, .f32⟩
  | .hbm, ⟨3, _⟩ => ⟨S4x32x32, .f32⟩
  | .hbm, ⟨4, _⟩ => ⟨S4x32x32, .f32⟩
  | .hbm, ⟨5, _⟩ => ⟨S8192x32, .f32⟩
  | .hbm, ⟨6, _⟩ => ⟨S1x32x32, .f32⟩
  | .hbm, ⟨7, _⟩ => ⟨S32x32, .f32⟩
  | .hbm, ⟨8, _⟩ => ⟨S8192x32, .f32⟩
  | .hbm, ⟨9, _⟩ => ⟨S1x32x32, .f32⟩
  | .hbm, ⟨10, _⟩ => ⟨S32x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S1x32x32, .f32⟩
  | .hbm, ⟨19, _⟩ => ⟨S32x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S_, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S1x32x32, .f32⟩
  | .hbm, ⟨28, _⟩ => ⟨S32x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S32x8192, .f32⟩
  | .hbm, ⟨33, _⟩ => ⟨S8192x8192, .f32⟩
  | .hbm, ⟨34, _⟩ => ⟨S8192x32, .f32⟩
  | .hbm, ⟨35, _⟩ => ⟨S1x32x32, .f32⟩
  | .hbm, ⟨36, _⟩ => ⟨S32x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S1x32x32, .f32⟩
  | .hbm, ⟨45, _⟩ => ⟨S32x32, .f32⟩
  | .hbm, ⟨46, _⟩ => ⟨S8192x32, .f32⟩
  | .hbm, ⟨47, _⟩ => ⟨S8192x32, .f32⟩
  | .hbm, ⟨48, _⟩ => ⟨S8192x32, .f32⟩
  | .hbm, ⟨49, _⟩ => ⟨S_, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S1x32x32, .f32⟩
  | .hbm, ⟨54, _⟩ => ⟨S32x32, .f32⟩
  | .hbm, ⟨55, _⟩ => ⟨S8192x32, .f32⟩
  | .hbm, ⟨56, _⟩ => ⟨S8192x32, .f32⟩
  | .hbm, ⟨57, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]

class Facts₀ : Prop where
  slices_S4x32x32_S1x32x32_0_0_0 : S4x32x32.Slices ![0, 0, 0] S1x32x32
  shapeCasts_S1x32x32_S32x32 : S1x32x32.ShapeCasts S32x32
  slices_S4x32x32_S1x32x32_1_0_0 : S4x32x32.Slices ![1, 0, 0] S1x32x32
  bcast_S_S8192x32 : S_.BroadcastsInDim S8192x32 (![] : Fin 0 → Fin S8192x32.rank)
  slices_S4x32x32_S1x32x32_2_0_0 : S4x32x32.Slices ![2, 0, 0] S1x32x32
  slices_S4x32x32_S1x32x32_3_0_0 : S4x32x32.Slices ![3, 0, 0] S1x32x32
  transposes_S8192x32_S32x8192_1_0 : S8192x32.Transposes [1, 0] S32x8192
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []
  dot_S8192x32_S32x8192_S8192x8192_1_0_0_1_n_n_wf : DotDims.WF S8192x32 S32x8192 S8192x8192 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.Kernel.Region0.lean ====
import proofs.«135434_j28647431864612_1_alg».proof.Proof.Gen.Kernel.Launch
import proofs.«135434_j28647431864612_1_alg».proof.Proof.Gen.Kernel.Skeleton
import proofs.«135434_j28647431864612_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one pallas_call of the tiled matrix product

The grid is 8 row tiles by 4 reduction tiles, the reduction coordinate running fastest. At a point (i, j) the body adds the
product of the (i, j) tile of the left operand and the j-th row tile of the right operand into a scratch accumulator, which
it first zeroes when j = 0, and copies the accumulator to the output block when j = 3. The accumulator is carried from a
point to the next, so the region's invariant names its contents after every point. -/

theorem offs_zero0 : (![0, 0] : Fin 2 → Nat) = fun _ => 0 := by funext a; fin_cases a <;> rfl

/-- An access through the whole buffer holds every index. -/
theorem mem_whole_rect0 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last is through the whole buffer covers the buffer. -/
theorem cover_whole_head0 {Val : EltTy → Type} {S : Shape} {e : EltTy} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.Mem.head _, mem_whole_rect0 h inb y⟩

/-- The body's first conditional: the reduction coordinate is 0 (the accumulator is zeroed). -/
abbrev first0 (i : grid0.Coords) : Prop := (Scalar.cmpi .ne (Scalar.extui (Scalar.cmpi .eq (BitVec.ofNat 32 (i 1).val) 0#32)) 0#32) = 1#1
/-- The body's last conditional: the reduction coordinate is 3 (the accumulator is written out). -/
abbrev last0 (i : grid0.Coords) : Prop := k0_cond2 i = 1#1

/-- In the grid's linear order the reduction coordinate is the position modulo 4. -/
theorem hfirst0 : ∀ t : Fin cfg0.N, first0 (grid0.coords t) ↔ t.val % 4 = 0 :=
  (by decide +kernel : ∀ t : Fin grid0.N, first0 (grid0.coords t) ↔ t.val % 4 = 0)
theorem hlast0 : ∀ t : Fin cfg0.N, last0 (grid0.coords t) ↔ t.val % 4 = 3 :=
  (by decide +kernel : ∀ t : Fin grid0.N, last0 (grid0.coords t) ↔ t.val % 4 = 3)

/-- The inputs' windows are never idle; the output's is idle, and not written back, away from the last reduction step. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem liveAt0_2 : ∀ t : Fin cfg0.N, last0 (grid0.coords t) → cfg0.idle 2 (grid0.coords t) = false := by decide +kernel

/-! ## The body on whole memrefs, case by case -/

set_option maxHeartbeats 1000000 in
/-- A middle reduction step: the accumulator takes the tiles' product added to what it held; the output block is untouched. -/
theorem sound_mid0 (c : Dev nD) (i : grid0.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first0 i) (hl : ¬last0 i)
    (x0 : Vec F S1024x2048 .f32) (x1 : Vec F S2048x32 .f32) (xi xs : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__mm_kernel i arg2 harg2 arg3 harg3 arg4 harg4 arg5 harg5) K := by
  simp only [cc0__mm_kernel_eq_skeleton]; unfold cc0__mm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head0 offs_zero0 _ _ _)).trans ?_
  rw [View.canon_unit_zero offs_zero0]
  simp only [View.readAt_eq_ld, harg2.read_unread, harg3.read_unread, harg5.read_unread, View.ld_unit_zero (S := S1024x2048) offs_zero0, View.ld_unit_zero (S := S2048x32) offs_zero0, View.ld_unit_zero (S := S1024x32) offs_zero0]

set_option maxHeartbeats 1000000 in
/-- The first reduction step: the accumulator, whatever it held, is zeroed and then takes the tiles' product. -/
theorem sound_first0 (c : Dev nD) (i : grid0.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : first0 i) (hl : ¬last0 i)
    (x0 : Vec F S1024x2048 .f32) (x1 : Vec F S2048x32 .f32) (xi : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 k0_pay1)) -∗ K ⟨⟩))
      ⊢ wp frame (wpE (defs₀ (F := F)) Variants.none c none) E (cc0__mm_kernel i arg2 harg2 arg3 harg3 arg4 harg4 arg5 harg5) K := by
  simp only [cc0__mm_kernel_eq_skeleton]; unfold cc0__mm_kernel_skel
  unfold owns
  iintro ⟨⟨%f0, %hf0, H0⟩, ⟨%f1, %hf1, H1⟩, ⟨%f2, %hf2, H2⟩, ⟨%xs, %fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head0 offs_zero0 _ _ _)).trans ?_
  rw [View.canon_cons_unit_zero offs_zero0]
  simp only [View.readAt_eq_ld, harg2.read_unread, harg3.read_unread, View.ld_unit_zero (S := S1024x2048) offs_zero0, View.ld_unit_zero (S := S2048x32) offs_zero0, View.readCov_unit_zero (S := S1024x32) _ offs_zero0]

set_option maxHeartbeats 1000000 in
/-- The last reduction step: the accumulator takes the tiles' product added to what it held, and the output block takes the
    accumulator. -/
theorem sound_last0 (c : Dev nD) (i : grid0.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first0 i) (hl : last0 i)
    (x0 : Vec F S1024x2048 .f32) (x1 : Vec F S2048x32 .f32) (xs : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__mm_kernel i arg2 harg2 arg3 harg3 arg4 harg4 arg5 harg5) K := by
  simp only [cc0__mm_kernel_eq_skeleton]; unfold cc0__mm_kernel_skel
  unfold owns
  iintro ⟨⟨%f0, %hf0, H0⟩, ⟨%f1, %hf1, H1⟩, ⟨%xi, %f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (View.read_writes_eq_canon _ _ _ (cover_whole_head0 offs_zero0 _ _ _)).trans ?_
    rw [View.canon_unit_zero offs_zero0]
    simp only [View.readAt_eq_ld, harg2.read_unread, harg3.read_unread, harg5.read_unread, View.ld_unit_zero (S := S1024x2048) offs_zero0, View.ld_unit_zero (S := S2048x32) offs_zero0, View.ld_unit_zero (S := S1024x32) offs_zero0, View.readCov_unit_zero (S := S1024x32) _ offs_zero0]
  iexists _; isplitr
  swap; · iexact HS
  ipureintro
  sl_unfold_run_names
  refine (View.read_writes_eq_canon _ _ _ (cover_whole_head0 offs_zero0 _ _ _)).trans ?_
  rw [View.canon_unit_zero offs_zero0]
  simp only [View.readAt_eq_ld, harg2.read_unread, harg3.read_unread, harg5.read_unread, View.ld_unit_zero (S := S1024x2048) offs_zero0, View.ld_unit_zero (S := S2048x32) offs_zero0, View.ld_unit_zero (S := S1024x32) offs_zero0]

/-! ## The region at its entry contents -/

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scratch accumulator, whole. -/
abbrev scM0 : Memref sig .tc .vmem S1024x32 .f32 := Memref.whole cc0_scratch0

/-- THE ACCUMULATION. What the scratch accumulator holds after the body at position `n`: at a first reduction step the
    product of the point's tiles over the zero fill, otherwise that product added to what the point before left. -/
def acc0 (c : Dev nD) : (n : ℕ) → n < cfg0.N → Vec F S1024x32 .f32
  | 0, hn => k0_pay2 (iblk0 V c 0 ⟨0, hn⟩) (iblk0 V c 1 ⟨0, hn⟩) k0_pay1
  | n + 1, hn =>
    if (n + 1) % 4 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = k0_pay2 (iblk0 V c 0 t) (iblk0 V c 1 t) k0_pay1 := by
  obtain ⟨n, hn⟩ := t
  cases n with
  | zero => rfl
  | succ n => exact if_pos h

theorem acc0_next (c : Dev nD) (t : Fin cfg0.N) (h : ¬t.val % 4 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than this pallas_call's staging buffers and its accumulator, each whole at some
    contents: they ride through the region untouched. -/
def others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class's invariant with the accumulator set apart, as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA Pipeline.scopedRest others0
  rw [bigSep_erase (i := cc0_scratch0) (by decide)]
  simp only [scM0, owns_whole]
  try rfl

/-- The region's invariant before position `n`: before the first point the class's (every scoped buffer that is no
    staging buffer at anything); afterwards the accumulator at what the point before left in it, the other scoped buffers
    at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ others0 c) ∗ (∃ r, prngReg c r)) := by
  cases n with
  | zero => exact absurd rfl hz
  | succ n => rfl

/-- Before any point the accumulator is owned at SOME contents: all a first reduction step asks. -/
theorem PhiS0_any (c : Dev nD) (n : ℕ) (h : n ≤ cfg0.N) :
    PhiS0 V c n h ⊢ iprop(((∃ d, owns (c : Thread nD τ) scM0 fullShare d) ∗ others0 c) ∗ (∃ r, prngReg c r)) := by
  cases n with
  | zero => rw [PhiS0_zero V c 0 h rfl, PhiA0_eq]
  | succ n =>
    rw [PhiS0_succ]
    iintro ⟨⟨HS, Ho⟩, Hg⟩
    isplitr [Hg]
    · isplitl [HS]; · iexists _; iexact HS
      iexact Ho
    iexact Hg

/-! ## The proof data -/

/-- The proof data of this pallas_call on core `c`: the arrays as the region finds them; after the body at point `t` each
    input's buffer at its block and the output's at the accumulator's contents there (consulted only at the last
    reduction steps, where the body stores it and the pipeline writes it back); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The position modulo 4 says which reduction step it is; the inputs' memrefs hold their blocks; the
    invariant hands the body the accumulator at what the point before left (at anything before a first step) and takes it
    back at this point's contents; the output's buffer passes through untouched except at a last step, where it takes
    the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  by_cases h0 : t.val % 4 = 0
  · -- a first reduction step
    have hl : ¬last0 (grid0.coords t) := fun h => by have := (hlast0 t).mp h; omega
    rw [Dat.leavesExact_idle (dat0 V c) 2 t (idleAt0_2 t hl) (noFlush0_2 t hl)]
    rw [acc0_first V c t h0, Phi0_castSucc V c t]
    iintro ⟨HΦ, Ho, ⟨%d0, H0⟩, ⟨%d1, H1⟩, ⟨%d2, H2⟩⟩
    ihave HΦ' := (PhiS0_any V c _ _) $$ HΦ
    icases HΦ' with ⟨⟨HS, Hot⟩, Hg⟩
    iapply (sound_first0 c (grid0.coords t) _ _ _ _ _ _ _ _ ((hfirst0 t).mpr h0) hl (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS Hot Hg]
    · isplitr [Hg]
      · isplitl [HS]; · iexact HS
        iexact Hot
      iexact Hg
    isplitl [Ho]; · iexact Ho
    isplitl [H0]; · iexact H0
    isplitl [H1]; · iexact H1
    iexists _; iexact H2
  · have hz : t.val ≠ 0 := fun h => h0 (by rw [h])
    rw [acc0_next V c t h0, Phi0_castSucc V c t, PhiS0_pos V c _ _ hz]
    by_cases h3 : t.val % 4 = 3
    · -- a last reduction step
      rw [show (dat0 V c).leavesExact 2 t = owns (c : Thread nD τ) (st0_2 t) fullShare ((dat0 V c).after 2 t) from by
        unfold Dat.leavesExact; rw [liveAt0_2 t ((hlast0 t).mpr h3)], after0_2, acc0_next V c t h0]
      iintro ⟨⟨⟨HS, Hot⟩, Hg⟩, Ho, ⟨%d0, H0⟩, ⟨%d1, H1⟩, ⟨%d2, H2⟩⟩
      iapply (sound_last0 c (grid0.coords t) _ _ _ _ _ _ _ _ (fun h => h0 ((hfirst0 t).mp h)) ((hlast0 t).mpr h3) (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexact H2
    · -- a middle reduction step
      have hl : ¬last0 (grid0.coords t) := fun h => h3 ((hlast0 t).mp h)
      rw [Dat.leavesExact_idle (dat0 V c) 2 t (idleAt0_2 t hl) (noFlush0_2 t hl)]
      iintro ⟨⟨⟨HS, Hot⟩, Hg⟩, Ho, ⟨%d0, H0⟩, ⟨%d1, H1⟩, ⟨%d2, H2⟩⟩
      iapply (sound_mid0 c (grid0.coords t) _ _ _ _ _ _ _ _ (fun h => h0 ((hfirst0 t).mp h)) hl (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

end Region0

end Cert.Kernel.Hand

end
-- ==== Proof.Kernel.Region1.lean ====
import proofs.«135434_j28647431864612_1_alg».proof.Proof.Gen.Kernel.Launch
import proofs.«135434_j28647431864612_1_alg».proof.Proof.Gen.Kernel.Skeleton
import proofs.«135434_j28647431864612_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one pallas_call of the tiled matrix product

The grid is 8 row tiles by 4 reduction tiles, the reduction coordinate running fastest. At a point (i, j) the body adds the
product of the (i, j) tile of the left operand and the j-th row tile of the right operand into a scratch accumulator, which
it first zeroes when j = 0, and copies the accumulator to the output block when j = 3. The accumulator is carried from a
point to the next, so the region's invariant names its contents after every point. -/

theorem offs_zero1 : (![0, 0] : Fin 2 → Nat) = fun _ => 0 := by funext a; fin_cases a <;> rfl

/-- An access through the whole buffer holds every index. -/
theorem mem_whole_rect1 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last is through the whole buffer covers the buffer. -/
theorem cover_whole_head1 {Val : EltTy → Type} {S : Shape} {e : EltTy} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.Mem.head _, mem_whole_rect1 h inb y⟩

/-- The body's first conditional: the reduction coordinate is 0 (the accumulator is zeroed). -/
abbrev first1 (i : grid1.Coords) : Prop := (Scalar.cmpi .ne (Scalar.extui (Scalar.cmpi .eq (BitVec.ofNat 32 (i 1).val) 0#32)) 0#32) = 1#1
/-- The body's last conditional: the reduction coordinate is 3 (the accumulator is written out). -/
abbrev last1 (i : grid1.Coords) : Prop := k1_cond2 i = 1#1

/-- In the grid's linear order the reduction coordinate is the position modulo 4. -/
theorem hfirst1 : ∀ t : Fin cfg1.N, first1 (grid1.coords t) ↔ t.val % 4 = 0 :=
  (by decide +kernel : ∀ t : Fin grid1.N, first1 (grid1.coords t) ↔ t.val % 4 = 0)
theorem hlast1 : ∀ t : Fin cfg1.N, last1 (grid1.coords t) ↔ t.val % 4 = 3 :=
  (by decide +kernel : ∀ t : Fin grid1.N, last1 (grid1.coords t) ↔ t.val % 4 = 3)

/-- The inputs' windows are never idle; the output's is idle, and not written back, away from the last reduction step. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem liveAt1_2 : ∀ t : Fin cfg1.N, last1 (grid1.coords t) → cfg1.idle 2 (grid1.coords t) = false := by decide +kernel

/-! ## The body on whole memrefs, case by case -/

set_option maxHeartbeats 1000000 in
/-- A middle reduction step: the accumulator takes the tiles' product added to what it held; the output block is untouched. -/
theorem sound_mid1 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first1 i) (hl : ¬last1 i)
    (x0 : Vec F S1024x2048 .f32) (x1 : Vec F S2048x32 .f32) (xi xs : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__mm_kernel i arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head1 offs_zero1 _ _ _)).trans ?_
  rw [View.canon_unit_zero offs_zero1]
  simp only [View.readAt_eq_ld, harg2.read_unread, harg3.read_unread, harg5.read_unread, View.ld_unit_zero (S := S1024x2048) offs_zero1, View.ld_unit_zero (S := S2048x32) offs_zero1, View.ld_unit_zero (S := S1024x32) offs_zero1]

set_option maxHeartbeats 1000000 in
/-- The first reduction step: the accumulator, whatever it held, is zeroed and then takes the tiles' product. -/
theorem sound_first1 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : first1 i) (hl : ¬last1 i)
    (x0 : Vec F S1024x2048 .f32) (x1 : Vec F S2048x32 .f32) (xi : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 k1_pay1)) -∗ K ⟨⟩))
      ⊢ wp frame (wpE (defs₀ (F := F)) Variants.none c none) E (cc1__mm_kernel i arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%f2, %hf2, H2⟩, ⟨%xs, %fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head1 offs_zero1 _ _ _)).trans ?_
  rw [View.canon_cons_unit_zero offs_zero1]
  simp only [View.readAt_eq_ld, harg2.read_unread, harg3.read_unread, View.ld_unit_zero (S := S1024x2048) offs_zero1, View.ld_unit_zero (S := S2048x32) offs_zero1, View.readCov_unit_zero (S := S1024x32) _ offs_zero1]

set_option maxHeartbeats 1000000 in
/-- The last reduction step: the accumulator takes the tiles' product added to what it held, and the output block takes the
    accumulator. -/
theorem sound_last1 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first1 i) (hl : last1 i)
    (x0 : Vec F S1024x2048 .f32) (x1 : Vec F S2048x32 .f32) (xs : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__mm_kernel i arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%xi, %f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (View.read_writes_eq_canon _ _ _ (cover_whole_head1 offs_zero1 _ _ _)).trans ?_
    rw [View.canon_unit_zero offs_zero1]
    simp only [View.readAt_eq_ld, harg2.read_unread, harg3.read_unread, harg5.read_unread, View.ld_unit_zero (S := S1024x2048) offs_zero1, View.ld_unit_zero (S := S2048x32) offs_zero1, View.ld_unit_zero (S := S1024x32) offs_zero1, View.readCov_unit_zero (S := S1024x32) _ offs_zero1]
  iexists _; isplitr
  swap; · iexact HS
  ipureintro
  sl_unfold_run_names
  refine (View.read_writes_eq_canon _ _ _ (cover_whole_head1 offs_zero1 _ _ _)).trans ?_
  rw [View.canon_unit_zero offs_zero1]
  simp only [View.readAt_eq_ld, harg2.read_unread, harg3.read_unread, harg5.read_unread, View.ld_unit_zero (S := S1024x2048) offs_zero1, View.ld_unit_zero (S := S2048x32) offs_zero1, View.ld_unit_zero (S := S1024x32) offs_zero1]

/-! ## The region at its entry contents -/

section Region1

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scratch accumulator, whole. -/
abbrev scM1 : Memref sig .tc .vmem S1024x32 .f32 := Memref.whole cc1_scratch0

/-- THE ACCUMULATION. What the scratch accumulator holds after the body at position `n`: at a first reduction step the
    product of the point's tiles over the zero fill, otherwise that product added to what the point before left. -/
def acc1 (c : Dev nD) : (n : ℕ) → n < cfg1.N → Vec F S1024x32 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact if_pos h

theorem acc1_next (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than this pallas_call's staging buffers and its accumulator, each whole at some
    contents: they ride through the region untouched. -/
def others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class's invariant with the accumulator set apart, as a memref owned at some contents. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA Pipeline.scopedRest others1
  rw [bigSep_erase (i := cc1_scratch0) (by decide)]
  simp only [scM1, owns_whole]
  try rfl

/-- The region's invariant before position `n`: before the first point the class's (every scoped buffer that is no
    staging buffer at anything); afterwards the accumulator at what the point before left in it, the other scoped buffers
    at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ others1 c) ∗ (∃ r, prngReg c r)) := by
  cases n with
  | zero => exact absurd rfl hz
  | succ n => rfl

/-- Before any point the accumulator is owned at SOME contents: all a first reduction step asks. -/
theorem PhiS1_any (c : Dev nD) (n : ℕ) (h : n ≤ cfg1.N) :
    PhiS1 V c n h ⊢ iprop(((∃ d, owns (c : Thread nD τ) scM1 fullShare d) ∗ others1 c) ∗ (∃ r, prngReg c r)) := by
  cases n with
  | zero => rw [PhiS1_zero V c 0 h rfl, PhiA1_eq]
  | succ n =>
    rw [PhiS1_succ]
    iintro ⟨⟨HS, Ho⟩, Hg⟩
    isplitr [Hg]
    · isplitl [HS]; · iexists _; iexact HS
      iexact Ho
    iexact Hg

/-! ## The proof data -/

/-- The proof data of this pallas_call on core `c`: the arrays as the region finds them; after the body at point `t` each
    input's buffer at its block and the output's at the accumulator's contents there (consulted only at the last
    reduction steps, where the body stores it and the pipeline writes it back); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The position modulo 4 says which reduction step it is; the inputs' memrefs hold their blocks; the
    invariant hands the body the accumulator at what the point before left (at anything before a first step) and takes it
    back at this point's contents; the output's buffer passes through untouched except at a last step, where it takes
    the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 4 = 0
  · -- a first reduction step
    have hl : ¬last1 (grid1.coords t) := fun h => by have := (hlast1 t).mp h; omega
    rw [Dat.leavesExact_idle (dat1 V c) 2 t (idleAt1_2 t hl) (noFlush1_2 t hl)]
    rw [acc1_first V c t h0, Phi1_castSucc V c t]
    iintro ⟨HΦ, Ho, ⟨%d0, H0⟩, ⟨%d1, H1⟩, ⟨%d2, H2⟩⟩
    ihave HΦ' := (PhiS1_any V c _ _) $$ HΦ
    icases HΦ' with ⟨⟨HS, Hot⟩, Hg⟩
    iapply (sound_first1 c (grid1.coords t) _ _ _ _ _ _ _ _ ((hfirst1 t).mpr h0) hl (iblk1 V c 0 t) (iblk1 V c 1 t) _ Set.univ _)
    isplitl [H0]; · iexact H0
    isplitl [H1]; · iexact H1
    isplitl [H2]; · iexact H2
    isplitl [HS]; · iexact HS
    iintro ⟨H0, H1, H2, HS⟩
    isplitl [HS Hot Hg]
    · isplitr [Hg]
      · isplitl [HS]; · iexact HS
        iexact Hot
      iexact Hg
    isplitl [Ho]; · iexact Ho
    isplitl [H0]; · iexact H0
    isplitl [H1]; · iexact H1
    iexists _; iexact H2
  · have hz : t.val ≠ 0 := fun h => h0 (by rw [h])
    rw [acc1_next V c t h0, Phi1_castSucc V c t, PhiS1_pos V c _ _ hz]
    by_cases h3 : t.val % 4 = 3
    · -- a last reduction step
      rw [show (dat1 V c).leavesExact 2 t = owns (c : Thread nD τ) (st1_2 t) fullShare ((dat1 V c).after 2 t) from by
        unfold Dat.leavesExact; rw [liveAt1_2 t ((hlast1 t).mpr h3)], after1_2, acc1_next V c t h0]
      iintro ⟨⟨⟨HS, Hot⟩, Hg⟩, Ho, ⟨%d0, H0⟩, ⟨%d1, H1⟩, ⟨%d2, H2⟩⟩
      iapply (sound_last1 c (grid1.coords t) _ _ _ _ _ _ _ _ (fun h => h0 ((hfirst1 t).mp h)) ((hlast1 t).mpr h3) (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexact H2
    · -- a middle reduction step
      have hl : ¬last1 (grid1.coords t) := fun h => h3 ((hlast1 t).mp h)
      rw [Dat.leavesExact_idle (dat1 V c) 2 t (idleAt1_2 t hl) (noFlush1_2 t hl)]
      iintro ⟨⟨⟨HS, Hot⟩, Hg⟩, Ho, ⟨%d0, H0⟩, ⟨%d1, H1⟩, ⟨%d2, H2⟩⟩
      iapply (sound_mid1 c (grid1.coords t) _ _ _ _ _ _ _ _ (fun h => h0 ((hfirst1 t).mp h)) hl (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Region1

end Cert.Kernel.Hand

end
-- ==== Proof.Kernel.Region2.lean ====
import proofs.«135434_j28647431864612_1_alg».proof.Proof.Gen.Kernel.Launch
import proofs.«135434_j28647431864612_1_alg».proof.Proof.Gen.Kernel.Skeleton
import proofs.«135434_j28647431864612_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one pallas_call of the tiled matrix product

The grid is 8 row tiles by 4 reduction tiles, the reduction coordinate running fastest. At a point (i, j) the body adds the
product of the (i, j) tile of the left operand and the j-th row tile of the right operand into a scratch accumulator, which
it first zeroes when j = 0, and copies the accumulator to the output block when j = 3. The accumulator is carried from a
point to the next, so the region's invariant names its contents after every point. -/

theorem offs_zero2 : (![0, 0] : Fin 2 → Nat) = fun _ => 0 := by funext a; fin_cases a <;> rfl

/-- An access through the whole buffer holds every index. -/
theorem mem_whole_rect2 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last is through the whole buffer covers the buffer. -/
theorem cover_whole_head2 {Val : EltTy → Type} {S : Shape} {e : EltTy} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.Mem.head _, mem_whole_rect2 h inb y⟩

/-- The body's first conditional: the reduction coordinate is 0 (the accumulator is zeroed). -/
abbrev first2 (i : grid2.Coords) : Prop := (Scalar.cmpi .ne (Scalar.extui (Scalar.cmpi .eq (BitVec.ofNat 32 (i 1).val) 0#32)) 0#32) = 1#1
/-- The body's last conditional: the reduction coordinate is 3 (the accumulator is written out). -/
abbrev last2 (i : grid2.Coords) : Prop := k2_cond2 i = 1#1

/-- In the grid's linear order the reduction coordinate is the position modulo 4. -/
theorem hfirst2 : ∀ t : Fin cfg2.N, first2 (grid2.coords t) ↔ t.val % 4 = 0 :=
  (by decide +kernel : ∀ t : Fin grid2.N, first2 (grid2.coords t) ↔ t.val % 4 = 0)
theorem hlast2 : ∀ t : Fin cfg2.N, last2 (grid2.coords t) ↔ t.val % 4 = 3 :=
  (by decide +kernel : ∀ t : Fin grid2.N, last2 (grid2.coords t) ↔ t.val % 4 = 3)

/-- The inputs' windows are never idle; the output's is idle, and not written back, away from the last reduction step. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem liveAt2_2 : ∀ t : Fin cfg2.N, last2 (grid2.coords t) → cfg2.idle 2 (grid2.coords t) = false := by decide +kernel

/-! ## The body on whole memrefs, case by case -/

set_option maxHeartbeats 1000000 in
/-- A middle reduction step: the accumulator takes the tiles' product added to what it held; the output block is untouched. -/
theorem sound_mid2 (c : Dev nD) (i : grid2.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first2 i) (hl : ¬last2 i)
    (x0 : Vec F S1024x2048 .f32) (x1 : Vec F S2048x32 .f32) (xi xs : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k2_pay2 x0 x1 xs)) -∗ K ⟨⟩))
      ⊢ wp frame (wpE (defs₀ (F := F)) Variants.none c none) E (cc2__mm_kernel i arg2 harg2 arg3 harg3 arg4 harg4 arg5 harg5) K := by
  simp only [cc2__mm_kernel_eq_skeleton]; unfold cc2__mm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head2 offs_zero2 _ _ _)).trans ?_
  rw [View.canon_unit_zero offs_zero2]
  simp only [View.readAt_eq_ld, harg2.read_unread, harg3.read_unread, harg5.read_unread, View.ld_unit_zero (S := S1024x2048) offs_zero2, View.ld_unit_zero (S := S2048x32) offs_zero2, View.ld_unit_zero (S := S1024x32) offs_zero2]

set_option maxHeartbeats 1000000 in
/-- The first reduction step: the accumulator, whatever it held, is zeroed and then takes the tiles' product. -/
theorem sound_first2 (c : Dev nD) (i : grid2.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : first2 i) (hl : ¬last2 i)
    (x0 : Vec F S1024x2048 .f32) (x1 : Vec F S2048x32 .f32) (xi : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k2_pay2 x0 x1 k2_pay1)) -∗ K ⟨⟩))
      ⊢ wp frame (wpE (defs₀ (F := F)) Variants.none c none) E (cc2__mm_kernel i arg2 harg2 arg3 harg3 arg4 harg4 arg5 harg5) K := by
  simp only [cc2__mm_kernel_eq_skeleton]; unfold cc2__mm_kernel_skel
  unfold owns
  iintro ⟨⟨%f0, %hf0, H0⟩, ⟨%f1, %hf1, H1⟩, ⟨%f2, %hf2, H2⟩, ⟨%xs, %fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head2 offs_zero2 _ _ _)).trans ?_
  rw [View.canon_cons_unit_zero offs_zero2]
  simp only [View.readAt_eq_ld, harg2.read_unread, harg3.read_unread, View.ld_unit_zero (S := S1024x2048) offs_zero2, View.ld_unit_zero (S := S2048x32) offs_zero2, View.readCov_unit_zero (S := S1024x32) _ offs_zero2]

set_option maxHeartbeats 1000000 in
/-- The last reduction step: the accumulator takes the tiles' product added to what it held, and the output block takes the
    accumulator. -/
theorem sound_last2 (c : Dev nD) (i : grid2.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first2 i) (hl : last2 i)
    (x0 : Vec F S1024x2048 .f32) (x1 : Vec F S2048x32 .f32) (xs : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k2_pay2 x0 x1 xs) ∗ owns (c : Thread nD τ) arg5 fullShare (k2_pay2 x0 x1 xs)) -∗ K ⟨⟩))
      ⊢ wp frame (wpE (defs₀ (F := F)) Variants.none c none) E (cc2__mm_kernel i arg2 harg2 arg3 harg3 arg4 harg4 arg5 harg5) K := by
  simp only [cc2__mm_kernel_eq_skeleton]; unfold cc2__mm_kernel_skel
  unfold owns
  iintro ⟨⟨%f0, %hf0, H0⟩, ⟨%f1, %hf1, H1⟩, ⟨%xi, %f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (View.read_writes_eq_canon _ _ _ (cover_whole_head2 offs_zero2 _ _ _)).trans ?_
    rw [View.canon_unit_zero offs_zero2]
    simp only [View.readAt_eq_ld, harg2.read_unread, harg3.read_unread, harg5.read_unread, View.ld_unit_zero (S := S1024x2048) offs_zero2, View.ld_unit_zero (S := S2048x32) offs_zero2, View.ld_unit_zero (S := S1024x32) offs_zero2, View.readCov_unit_zero (S := S1024x32) _ offs_zero2]
  iexists _; isplitr
  swap; · iexact HS
  ipureintro
  sl_unfold_run_names
  refine (View.read_writes_eq_canon _ _ _ (cover_whole_head2 offs_zero2 _ _ _)).trans ?_
  rw [View.canon_unit_zero offs_zero2]
  simp only [View.readAt_eq_ld, harg2.read_unread, harg3.read_unread, harg5.read_unread, View.ld_unit_zero (S := S1024x2048) offs_zero2, View.ld_unit_zero (S := S2048x32) offs_zero2, View.ld_unit_zero (S := S1024x32) offs_zero2]

/-! ## The region at its entry contents -/

section Region2

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The scratch accumulator, whole. -/
abbrev scM2 : Memref sig .tc .vmem S1024x32 .f32 := Memref.whole cc2_scratch0

/-- THE ACCUMULATION. What the scratch accumulator holds after the body at position `n`: at a first reduction step the
    product of the point's tiles over the zero fill, otherwise that product added to what the point before left. -/
def acc2 (c : Dev nD) : (n : ℕ) → n < cfg2.N → Vec F S1024x32 .f32
  | 0, hn => k2_pay2 (iblk2 V c 0 ⟨0, hn⟩) (iblk2 V c 1 ⟨0, hn⟩) k2_pay1
  | n + 1, hn =>
    if (n + 1) % 4 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (acc2 c n (Nat.lt_of_succ_lt hn))

theorem acc2_first (c : Dev nD) (t : Fin cfg2.N) (h : t.val % 4 = 0) :
    acc2 V c t.val t.isLt = k2_pay2 (iblk2 V c 0 t) (iblk2 V c 1 t) k2_pay1 := by
  obtain ⟨n, hn⟩ := t
  cases n with
  | zero => rfl
  | succ n => exact if_pos h

theorem acc2_next (c : Dev nD) (t : Fin cfg2.N) (h : ¬t.val % 4 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than this pallas_call's staging buffers and its accumulator, each whole at some
    contents: they ride through the region untouched. -/
def others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The class's invariant with the accumulator set apart, as a memref owned at some contents. -/
theorem PhiA2_eq (c : Dev nD) :
    (Pipeline.ΦA spec2 c : sProp 𝕄)
      = iprop(((∃ d, owns (c : Thread nD τ) scM2 fullShare d) ∗ others2 c) ∗ (∃ r, prngReg c r)) := by
  unfold Pipeline.ΦA Pipeline.scopedRest others2
  rw [bigSep_erase (i := cc2_scratch0) (by decide)]
  simp only [scM2, owns_whole]
  try rfl

/-- The region's invariant before position `n`: before the first point the class's (every scoped buffer that is no
    staging buffer at anything); afterwards the accumulator at what the point before left in it, the other scoped buffers
    at anything, the generator register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ others2 c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ others2 c) ∗ (∃ r, prngReg c r)) := by
  cases n with
  | zero => exact absurd rfl hz
  | succ n => rfl

/-- Before any point the accumulator is owned at SOME contents: all a first reduction step asks. -/
theorem PhiS2_any (c : Dev nD) (n : ℕ) (h : n ≤ cfg2.N) :
    PhiS2 V c n h ⊢ iprop(((∃ d, owns (c : Thread nD τ) scM2 fullShare d) ∗ others2 c) ∗ (∃ r, prngReg c r)) := by
  cases n with
  | zero => rw [PhiS2_zero V c 0 h rfl, PhiA2_eq]
  | succ n =>
    rw [PhiS2_succ]
    iintro ⟨⟨HS, Ho⟩, Hg⟩
    isplitr [Hg]
    · isplitl [HS]; · iexists _; iexact HS
      iexact Ho
    iexact Hg

/-! ## The proof data -/

/-- The proof data of this pallas_call on core `c`: the arrays as the region finds them; after the body at point `t` each
    input's buffer at its block and the output's at the accumulator's contents there (consulted only at the last
    reduction steps, where the body stores it and the pipeline writes it back); the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point. The position modulo 4 says which reduction step it is; the inputs' memrefs hold their blocks; the
    invariant hands the body the accumulator at what the point before left (at anything before a first step) and takes it
    back at this point's contents; the output's buffer passes through untouched except at a last step, where it takes
    the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  by_cases h0 : t.val % 4 = 0
  · -- a first reduction step
    have hl : ¬last2 (grid2.coords t) := fun h => by have := (hlast2 t).mp h; omega
    rw [Dat.leavesExact_idle (dat2 V c) 2 t (idleAt2_2 t hl) (noFlush2_2 t hl)]
    rw [acc2_first V c t h0, Phi2_castSucc V c t]
    iintro ⟨HΦ, Ho, ⟨%d0, H0⟩, ⟨%d1, H1⟩, ⟨%d2, H2⟩⟩
    ihave HΦ' := (PhiS2_any V c _ _) $$ HΦ
    icases HΦ' with ⟨⟨HS, Hot⟩, Hg⟩
    iapply (sound_first2 c (grid2.coords t) _ _ _ _ _ _ _ _ ((hfirst2 t).mpr h0) hl (iblk2 V c 0 t) (iblk2 V c 1 t) _ Set.univ _)
    isplitl [H0]; · iexact H0
    isplitl [H1]; · iexact H1
    isplitl [H2]; · iexact H2
    isplitl [HS]; · iexact HS
    iintro ⟨H0, H1, H2, HS⟩
    isplitl [HS Hot Hg]
    · isplitr [Hg]
      · isplitl [HS]; · iexact HS
        iexact Hot
      iexact Hg
    isplitl [Ho]; · iexact Ho
    isplitl [H0]; · iexact H0
    isplitl [H1]; · iexact H1
    iexists _; iexact H2
  · have hz : t.val ≠ 0 := fun h => h0 (by rw [h])
    rw [acc2_next V c t h0, Phi2_castSucc V c t, PhiS2_pos V c _ _ hz]
    by_cases h3 : t.val % 4 = 3
    · -- a last reduction step
      rw [show (dat2 V c).leavesExact 2 t = owns (c : Thread nD τ) (st2_2 t) fullShare ((dat2 V c).after 2 t) from by
        unfold Dat.leavesExact; rw [liveAt2_2 t ((hlast2 t).mpr h3)], after2_2, acc2_next V c t h0]
      iintro ⟨⟨⟨HS, Hot⟩, Hg⟩, Ho, ⟨%d0, H0⟩, ⟨%d1, H1⟩, ⟨%d2, H2⟩⟩
      iapply (sound_last2 c (grid2.coords t) _ _ _ _ _ _ _ _ (fun h => h0 ((hfirst2 t).mp h)) ((hlast2 t).mpr h3) (iblk2 V c 0 t) (iblk2 V c 1 t) _ Set.univ _)
      isplitl [H0]; · iexact H0
      isplitl [H1]; · iexact H1
      isplitl [H2]; · iexists _; iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexact H2
    · -- a middle reduction step
      have hl : ¬last2 (grid2.coords t) := fun h => h3 ((hlast2 t).mp h)
      rw [Dat.leavesExact_idle (dat2 V c) 2 t (idleAt2_2 t hl) (noFlush2_2 t hl)]
      iintro ⟨⟨⟨HS, Hot⟩, Hg⟩, Ho, ⟨%d0, H0⟩, ⟨%d1, H1⟩, ⟨%d2, H2⟩⟩
      iapply (sound_mid2 c (grid2.coords t) _ _ _ _ _ _ _ _ (fun h => h0 ((hfirst2 t).mp h)) hl (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Region2

end Cert.Kernel.Hand

end
-- ==== Proof.Kernel.Run.lean ====
import proofs.«135434_j28647431864612_1_alg».proof.Proof.Gen.Kernel.Launch
import proofs.«135434_j28647431864612_1_alg».proof.Proof.Gen.Kernel.Skeleton
import proofs.«135434_j28647431864612_1_alg».proof.Proof.Gen.Kernel.Points
import proofs.«135434_j28647431864612_1_alg».proof.Proof.Gen.Kernel.Regions
import proofs.«135434_j28647431864612_1_alg».proof.Proof.Kernel.Region0
import proofs.«135434_j28647431864612_1_alg».proof.Proof.Kernel.Region1
import proofs.«135434_j28647431864612_1_alg».proof.Proof.Kernel.Region2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's six items from the launch to the return

@main is three pallas_calls, each followed by a stretch of host operations. The buffers' contents at each boundary are a
fold from the launch memory: a stretch applies its operations; a region leaves its arrays at what its write-backs leave. -/

variable (m : (ℓ : Loc nD τ sig) → Buf (Elt F) ℓ) (ρ : Dev nD → PrngReg)

/-- Core `c`'s buffers at launch: region 0's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, the output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch: region 1's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the inputs as entered, the output's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the last host stretch: the return. -/
abbrev W6 : Dev nD → Valuation τ sig (Elt F) := fun c => StableHlo.after hostOps3 (W5 m ρ c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W0`, left at `W1`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds each unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      (show (iprop(StableHlo.held (c : Thread nD τ) (Pipeline.ucRefs τ sig) (W6 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The argument arrays end as launched -/

theorem W2_keep (c : Dev nD) (r : Ref sig .tc) (h : r ∉ hostOps1_W) : W2 m ρ c r = W1 m ρ c r :=
  StableHlo.after_of_writes_sub hostOps1 _ hostOps1_writes h
theorem W4_keep (c : Dev nD) (r : Ref sig .tc) (h : r ∉ hostOps2_W) : W4 m ρ c r = W3 m ρ c r :=
  StableHlo.after_of_writes_sub hostOps2 _ hostOps2_writes h
theorem W6_keep (c : Dev nD) (r : Ref sig .tc) (h : r ∉ hostOps3_W) : W6 m ρ c r = W5 m ρ c r :=
  StableHlo.after_of_writes_sub hostOps3 _ hostOps3_writes h
/-- A region leaves an input window's array as it found it. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))

theorem W6_main_arg0 (c : Dev nD) : W6 m ρ c main_arg0 = m ((c : Thread nD τ).loc main_arg0) :=
  (W6_keep m ρ c main_arg0 (by decide)).trans <| (W5_of_ne m ρ c main_arg0 (by decide)).trans <| (W4_keep m ρ c main_arg0 (by decide)).trans <|
    (W3_of_ne m ρ c main_arg0 (by decide)).trans <| (W2_keep m ρ c main_arg0 (by decide)).trans <| (W1_in m ρ c 1 rfl).trans rfl
theorem W6_main_arg1 (c : Dev nD) : W6 m ρ c main_arg1 = m ((c : Thread nD τ).loc main_arg1) :=
  (W6_keep m ρ c main_arg1 (by decide)).trans <| (W5_in m ρ c 0 rfl).trans <| (W4_keep m ρ c main_arg1 (by decide)).trans <|
    (W3_in m ρ c 0 rfl).trans <| (W2_keep m ρ c main_arg1 (by decide)).trans <| (W1_in m ρ c 0 rfl).trans rfl
theorem W6_main_arg2 (c : Dev nD) : W6 m ρ c main_arg2 = m ((c : Thread nD τ).loc main_arg2) :=
  (W6_keep m ρ c main_arg2 (by decide)).trans <| (W5_of_ne m ρ c main_arg2 (by decide)).trans <| (W4_keep m ρ c main_arg2 (by decide)).trans <|
    (W3_of_ne m ρ c main_arg2 (by decide)).trans <| (W2_keep m ρ c main_arg2 (by decide)).trans <| (W1_of_ne m ρ c main_arg2 (by decide)).trans rfl
theorem W6_main_arg3 (c : Dev nD) : W6 m ρ c main_arg3 = m ((c : Thread nD τ).loc main_arg3) :=
  (W6_keep m ρ c main_arg3 (by decide)).trans <| (W5_of_ne m ρ c main_arg3 (by decide)).trans <| (W4_keep m ρ c main_arg3 (by decide)).trans <|
    (W3_of_ne m ρ c main_arg3 (by decide)).trans <| (W2_keep m ρ c main_arg3 (by decide)).trans <| (W1_of_ne m ρ c main_arg3 (by decide)).trans rfl
theorem W6_main_arg4 (c : Dev nD) : W6 m ρ c main_arg4 = m ((c : Thread nD τ).loc main_arg4) :=
  (W6_keep m ρ c main_arg4 (by decide)).trans <| (W5_of_ne m ρ c main_arg4 (by decide)).trans <| (W4_keep m ρ c main_arg4 (by decide)).trans <|
    (W3_of_ne m ρ c main_arg4 (by decide)).trans <| (W2_keep m ρ c main_arg4 (by decide)).trans <| (W1_of_ne m ρ c main_arg4 (by decide)).trans rfl

/-- THE FRAME: every weakly fair execution of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.Kernel.Hand

end
-- ==== Proof.KernelIdeal.Region0.lean ====
import proofs.«135434_j28647431864612_1_alg».proof.Proof.Gen.KernelIdeal.Launch
import proofs.«135434_j28647431864612_1_alg».proof.Proof.Gen.KernelIdeal.Skeleton
import proofs.«135434_j28647431864612_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one pallas_call of the tiled matrix product

The grid is 8 row tiles by 4 reduction tiles, the reduction coordinate running fastest. At a point (i, j) the body adds the
product of the (i, j) tile of the left operand and the j-th row tile of the right operand into a scratch accumulator, which
it first zeroes when j = 0, and copies the accumulator to the output block when j = 3. The accumulator is carried from a
point to the next, so the region's invariant names its contents after every point. -/

theorem offs_zero0 : (![0, 0] : Fin 2 → Nat) = fun _ => 0 := by funext a; fin_cases a <;> rfl

/-- An access through the whole buffer holds every index. -/
theorem mem_whole_rect0 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last is through the whole buffer covers the buffer. -/
theorem cover_whole_head0 {Val : EltTy → Type} {S : Shape} {e : EltTy} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.Mem.head _, mem_whole_rect0 h inb y⟩

/-- The body's first conditional: the reduction coordinate is 0 (the accumulator is zeroed). -/
abbrev first0 (i : grid0.Coords) : Prop := (Scalar.cmpi .ne (Scalar.extui (Scalar.cmpi .eq (BitVec.ofNat 32 (i 1).val) 0#32)) 0#32) = 1#1
/-- The body's last conditional: the reduction coordinate is 3 (the accumulator is written out). -/
abbrev last0 (i : grid0.Coords) : Prop := k0_cond2 i = 1#1

/-- In the grid's linear order the reduction coordinate is the position modulo 4. -/
theorem hfirst0 : ∀ t : Fin cfg0.N, first0 (grid0.coords t) ↔ t.val % 4 = 0 :=
  (by decide +kernel : ∀ t : Fin grid0.N, first0 (grid0.coords t) ↔ t.val % 4 = 0)
theorem hlast0 : ∀ t : Fin cfg0.N, last0 (grid0.coords t) ↔ t.val % 4 = 3 :=
  (by decide +kernel : ∀ t : Fin grid0.N, last0 (grid0.coords t) ↔ t.val % 4 = 3)

/-- The inputs' windows are never idle; the output's is idle, and not written back, away from the last reduction step. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem liveAt0_2 : ∀ t : Fin cfg0.N, last0 (grid0.coords t) → cfg0.idle 2 (grid0.coords t) = false := by decide +kernel

/-! ## The body on whole memrefs, case by case -/

set_option maxHeartbeats 1000000 in
/-- A middle reduction step: the accumulator takes the tiles' product added to what it held; the output block is untouched. -/
theorem sound_mid0 (c : Dev nD) (i : grid0.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first0 i) (hl : ¬last0 i)
    (x0 : Vec F S1024x2048 .f32) (x1 : Vec F S2048x32 .f32) (xi xs : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__mm_kernel i arg2 harg2 arg3 harg3 arg4 harg4 arg5 harg5) K := by
  simp only [cc0__mm_kernel_eq_skeleton]; unfold cc0__mm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head0 offs_zero0 _ _ _)).trans ?_
  rw [View.canon_unit_zero offs_zero0]
  simp only [View.readAt_eq_ld, harg2.read_unread, harg3.read_unread, harg5.read_unread, View.ld_unit_zero (S := S1024x2048) offs_zero0, View.ld_unit_zero (S := S2048x32) offs_zero0, View.ld_unit_zero (S := S1024x32) offs_zero0]

set_option maxHeartbeats 1000000 in
/-- The first reduction step: the accumulator, whatever it held, is zeroed and then takes the tiles' product. -/
theorem sound_first0 (c : Dev nD) (i : grid0.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : first0 i) (hl : ¬last0 i)
    (x0 : Vec F S1024x2048 .f32) (x1 : Vec F S2048x32 .f32) (xi : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 k0_pay1)) -∗ K ⟨⟩))
      ⊢ wp frame (wpE (defs₀ (F := F)) Variants.none c none) E (cc0__mm_kernel i arg2 harg2 arg3 harg3 arg4 harg4 arg5 harg5) K := by
  simp only [cc0__mm_kernel_eq_skeleton]; unfold cc0__mm_kernel_skel
  unfold owns
  iintro ⟨⟨%f0, %hf0, H0⟩, ⟨%f1, %hf1, H1⟩, ⟨%f2, %hf2, H2⟩, ⟨%xs, %fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head0 offs_zero0 _ _ _)).trans ?_
  rw [View.canon_cons_unit_zero offs_zero0]
  simp only [View.readAt_eq_ld, harg2.read_unread, harg3.read_unread, View.ld_unit_zero (S := S1024x2048) offs_zero0, View.ld_unit_zero (S := S2048x32) offs_zero0, View.readCov_unit_zero (S := S1024x32) _ offs_zero0]

set_option maxHeartbeats 1000000 in
/-- The last reduction step: the accumulator takes the tiles' product added to what it held, and the output block takes the
    accumulator. -/
theorem sound_last0 (c : Dev nD) (i : grid0.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first0 i) (hl : last0 i)
    (x0 : Vec F S1024x2048 .f32) (x1 : Vec F S2048x32 .f32) (xs : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__mm_kernel i arg2 harg2 arg3 harg3 arg4 harg4 arg5 harg5) K := by
  simp only [cc0__mm_kernel_eq_skeleton]; unfold cc0__mm_kernel_skel
  unfold owns
  iintro ⟨⟨%f0, %hf0, H0⟩, ⟨%f1, %hf1, H1⟩, ⟨%xi, %f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (View.read_writes_eq_canon _ _ _ (cover_whole_head0 offs_zero0 _ _ _)).trans ?_
    rw [View.canon_unit_zero offs_zero0]
    simp only [View.readAt_eq_ld, harg2.read_unread, harg3.read_unread, harg5.read_unread, View.ld_unit_zero (S := S1024x2048) offs_zero0, View.ld_unit_zero (S := S2048x32) offs_zero0, View.ld_unit_zero (S := S1024x32) offs_zero0, View.readCov_unit_zero (S := S1024x32) _ offs_zero0]
  iexists _; isplitr
  swap; · iexact HS
  ipureintro
  sl_unfold_run_names
  refine (View.read_writes_eq_canon _ _ _ (cover_whole_head0 offs_zero0 _ _ _)).trans ?_
  rw [View.canon_unit_zero offs_zero0]
  simp only [View.readAt_eq_ld, harg2.read_unread, harg3.read_unread, harg5.read_unread, View.ld_unit_zero (S := S1024x2048) offs_zero0, View.ld_unit_zero (S := S2048x32) offs_zero0, View.ld_unit_zero (S := S1024x32) offs_zero0]

/-! ## The region at its entry contents -/

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scratch accumulator, whole. -/
abbrev scM0 : Memref sig .tc .vmem S1024x32 .f32 := Memref.whole cc0_scratch0

/-- THE ACCUMULATION. What the scratch accumulator holds after the body at position `n`: at a first reduction step the
    product of the point's tiles over the zero fill, otherwise that product added to what the point before left. -/
def acc0 (c : Dev nD) : (n : ℕ) → n < cfg0.N → Vec F S1024x32 .f32
  | 0, hn => k0_pay2 (iblk0 V c 0 ⟨0, hn⟩) (iblk0 V c 1 ⟨0, hn⟩) k0_pay1
  | n + 1, hn =>
    if (n + 1) % 4 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = k0_pay2 (iblk0 V c 0 t) (iblk0 V c 1 t) k0_pay1 := by
  obtain ⟨n, hn⟩ := t
  cases n with
  | zero => rfl
  | succ n => exact if_pos h

theorem acc0_next (c : Dev nD) (t : Fin cfg0.N) (h : ¬t.val % 4 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than this pallas_call's staging buffers and its accumulator, each whole at some
    contents: they ride through the region untouched. -/
def others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class's invariant with the accumulator set apart, as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA Pipeline.scopedRest others0
  rw [bigSep_erase (i := cc0_scratch0) (by decide)]
  simp only [scM0, owns_whole]
  try rfl

/-- The region's invariant before position `n`: before the first point the class's (every scoped buffer that is no
    staging buffer at anything); afterwards the accumulator at what the point before left in it, the other scoped buffers
    at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ others0 c) ∗ (∃ r, prngReg c r)) := by
  cases n with
  | zero => exact absurd rfl hz
  | succ n => rfl

/-- Before any point the accumulator is owned at SOME contents: all a first reduction step asks. -/
theorem PhiS0_any (c : Dev nD) (n : ℕ) (h : n ≤ cfg0.N) :
    PhiS0 V c n h ⊢ iprop(((∃ d, owns (c : Thread nD τ) scM0 fullShare d) ∗ others0 c) ∗ (∃ r, prngReg c r)) := by
  cases n with
  | zero => rw [PhiS0_zero V c 0 h rfl, PhiA0_eq]
  | succ n =>
    rw [PhiS0_succ]
    iintro ⟨⟨HS, Ho⟩, Hg⟩
    isplitr [Hg]
    · isplitl [HS]; · iexists _; iexact HS
      iexact Ho
    iexact Hg

/-! ## The proof data -/

/-- The proof data of this pallas_call on core `c`: the arrays as the region finds them; after the body at point `t` each
    input's buffer at its block and the output's at the accumulator's contents there (consulted only at the last
    reduction steps, where the body stores it and the pipeline writes it back); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The position modulo 4 says which reduction step it is; the inputs' memrefs hold their blocks; the
    invariant hands the body the accumulator at what the point before left (at anything before a first step) and takes it
    back at this point's contents; the output's buffer passes through untouched except at a last step, where it takes
    the accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  by_cases h0 : t.val % 4 = 0
  · -- a first reduction step
    have hl : ¬last0 (grid0.coords t) := fun h => by have := (hlast0 t).mp h; omega
    rw [Dat.leavesExact_idle (dat0 V c) 2 t (idleAt0_2 t hl) (noFlush0_2 t hl)]
    rw [acc0_first V c t h0, Phi0_castSucc V c t]
    iintro ⟨HΦ, Ho, ⟨%d0, H0⟩, ⟨%d1, H1⟩, ⟨%d2, H2⟩⟩
    ihave HΦ' := (PhiS0_any V c _ _) $$ HΦ
    icases HΦ' with ⟨⟨HS, Hot⟩, Hg⟩
    iapply (sound_first0 c (grid0.coords t) _ _ _ _ _ _ _ _ ((hfirst0 t).mpr h0) hl (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS Hot Hg]
    · isplitr [Hg]
      · isplitl [HS]; · iexact HS
        iexact Hot
      iexact Hg
    isplitl [Ho]; · iexact Ho
    isplitl [H0]; · iexact H0
    isplitl [H1]; · iexact H1
    iexists _; iexact H2
  · have hz : t.val ≠ 0 := fun h => h0 (by rw [h])
    rw [acc0_next V c t h0, Phi0_castSucc V c t, PhiS0_pos V c _ _ hz]
    by_cases h3 : t.val % 4 = 3
    · -- a last reduction step
      rw [show (dat0 V c).leavesExact 2 t = owns (c : Thread nD τ) (st0_2 t) fullShare ((dat0 V c).after 2 t) from by
        unfold Dat.leavesExact; rw [liveAt0_2 t ((hlast0 t).mpr h3)], after0_2, acc0_next V c t h0]
      iintro ⟨⟨⟨HS, Hot⟩, Hg⟩, Ho, ⟨%d0, H0⟩, ⟨%d1, H1⟩, ⟨%d2, H2⟩⟩
      iapply (sound_last0 c (grid0.coords t) _ _ _ _ _ _ _ _ (fun h => h0 ((hfirst0 t).mp h)) ((hlast0 t).mpr h3) (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexact H2
    · -- a middle reduction step
      have hl : ¬last0 (grid0.coords t) := fun h => h3 ((hlast0 t).mp h)
      rw [Dat.leavesExact_idle (dat0 V c) 2 t (idleAt0_2 t hl) (noFlush0_2 t hl)]
      iintro ⟨⟨⟨HS, Hot⟩, Hg⟩, Ho, ⟨%d0, H0⟩, ⟨%d1, H1⟩, ⟨%d2, H2⟩⟩
      iapply (sound_mid0 c (grid0.coords t) _ _ _ _ _ _ _ _ (fun h => h0 ((hfirst0 t).mp h)) hl (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

end Region0

end Cert.KernelIdeal.Hand

end
-- ==== Proof.KernelIdeal.Region1.lean ====
import proofs.«135434_j28647431864612_1_alg».proof.Proof.Gen.KernelIdeal.Launch
import proofs.«135434_j28647431864612_1_alg».proof.Proof.Gen.KernelIdeal.Skeleton
import proofs.«135434_j28647431864612_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one pallas_call of the tiled matrix product

The grid is 8 row tiles by 4 reduction tiles, the reduction coordinate running fastest. At a point (i, j) the body adds the
product of the (i, j) tile of the left operand and the j-th row tile of the right operand into a scratch accumulator, which
it first zeroes when j = 0, and copies the accumulator to the output block when j = 3. The accumulator is carried from a
point to the next, so the region's invariant names its contents after every point. -/

theorem offs_zero1 : (![0, 0] : Fin 2 → Nat) = fun _ => 0 := by funext a; fin_cases a <;> rfl

/-- An access through the whole buffer holds every index. -/
theorem mem_whole_rect1 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last is through the whole buffer covers the buffer. -/
theorem cover_whole_head1 {Val : EltTy → Type} {S : Shape} {e : EltTy} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.Mem.head _, mem_whole_rect1 h inb y⟩

/-- The body's first conditional: the reduction coordinate is 0 (the accumulator is zeroed). -/
abbrev first1 (i : grid1.Coords) : Prop := (Scalar.cmpi .ne (Scalar.extui (Scalar.cmpi .eq (BitVec.ofNat 32 (i 1).val) 0#32)) 0#32) = 1#1
/-- The body's last conditional: the reduction coordinate is 3 (the accumulator is written out). -/
abbrev last1 (i : grid1.Coords) : Prop := k1_cond2 i = 1#1

/-- In the grid's linear order the reduction coordinate is the position modulo 4. -/
theorem hfirst1 : ∀ t : Fin cfg1.N, first1 (grid1.coords t) ↔ t.val % 4 = 0 :=
  (by decide +kernel : ∀ t : Fin grid1.N, first1 (grid1.coords t) ↔ t.val % 4 = 0)
theorem hlast1 : ∀ t : Fin cfg1.N, last1 (grid1.coords t) ↔ t.val % 4 = 3 :=
  (by decide +kernel : ∀ t : Fin grid1.N, last1 (grid1.coords t) ↔ t.val % 4 = 3)

/-- The inputs' windows are never idle; the output's is idle, and not written back, away from the last reduction step. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem liveAt1_2 : ∀ t : Fin cfg1.N, last1 (grid1.coords t) → cfg1.idle 2 (grid1.coords t) = false := by decide +kernel

/-! ## The body on whole memrefs, case by case -/

set_option maxHeartbeats 1000000 in
/-- A middle reduction step: the accumulator takes the tiles' product added to what it held; the output block is untouched. -/
theorem sound_mid1 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first1 i) (hl : ¬last1 i)
    (x0 : Vec F S1024x2048 .f32) (x1 : Vec F S2048x32 .f32) (xi xs : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__mm_kernel i arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head1 offs_zero1 _ _ _)).trans ?_
  rw [View.canon_unit_zero offs_zero1]
  simp only [View.readAt_eq_ld, harg2.read_unread, harg3.read_unread, harg5.read_unread, View.ld_unit_zero (S := S1024x2048) offs_zero1, View.ld_unit_zero (S := S2048x32) offs_zero1, View.ld_unit_zero (S := S1024x32) offs_zero1]

set_option maxHeartbeats 1000000 in
/-- The first reduction step: the accumulator, whatever it held, is zeroed and then takes the tiles' product. -/
theorem sound_first1 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : first1 i) (hl : ¬last1 i)
    (x0 : Vec F S1024x2048 .f32) (x1 : Vec F S2048x32 .f32) (xi : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 k1_pay1)) -∗ K ⟨⟩))
      ⊢ wp frame (wpE (defs₀ (F := F)) Variants.none c none) E (cc1__mm_kernel i arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%f2, %hf2, H2⟩, ⟨%xs, %fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head1 offs_zero1 _ _ _)).trans ?_
  rw [View.canon_cons_unit_zero offs_zero1]
  simp only [View.readAt_eq_ld, harg2.read_unread, harg3.read_unread, View.ld_unit_zero (S := S1024x2048) offs_zero1, View.ld_unit_zero (S := S2048x32) offs_zero1, View.readCov_unit_zero (S := S1024x32) _ offs_zero1]

set_option maxHeartbeats 1000000 in
/-- The last reduction step: the accumulator takes the tiles' product added to what it held, and the output block takes the
    accumulator. -/
theorem sound_last1 (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first1 i) (hl : last1 i)
    (x0 : Vec F S1024x2048 .f32) (x1 : Vec F S2048x32 .f32) (xs : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__mm_kernel i arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%xi, %f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (View.read_writes_eq_canon _ _ _ (cover_whole_head1 offs_zero1 _ _ _)).trans ?_
    rw [View.canon_unit_zero offs_zero1]
    simp only [View.readAt_eq_ld, harg2.read_unread, harg3.read_unread, harg5.read_unread, View.ld_unit_zero (S := S1024x2048) offs_zero1, View.ld_unit_zero (S := S2048x32) offs_zero1, View.ld_unit_zero (S := S1024x32) offs_zero1, View.readCov_unit_zero (S := S1024x32) _ offs_zero1]
  iexists _; isplitr
  swap; · iexact HS
  ipureintro
  sl_unfold_run_names
  refine (View.read_writes_eq_canon _ _ _ (cover_whole_head1 offs_zero1 _ _ _)).trans ?_
  rw [View.canon_unit_zero offs_zero1]
  simp only [View.readAt_eq_ld, harg2.read_unread, harg3.read_unread, harg5.read_unread, View.ld_unit_zero (S := S1024x2048) offs_zero1, View.ld_unit_zero (S := S2048x32) offs_zero1, View.ld_unit_zero (S := S1024x32) offs_zero1]

/-! ## The region at its entry contents -/

section Region1

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scratch accumulator, whole. -/
abbrev scM1 : Memref sig .tc .vmem S1024x32 .f32 := Memref.whole cc1_scratch0

/-- THE ACCUMULATION. What the scratch accumulator holds after the body at position `n`: at a first reduction step the
    product of the point's tiles over the zero fill, otherwise that product added to what the point before left. -/
def acc1 (c : Dev nD) : (n : ℕ) → n < cfg1.N → Vec F S1024x32 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact if_pos h

theorem acc1_next (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than this pallas_call's staging buffers and its accumulator, each whole at some
    contents: they ride through the region untouched. -/
def others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class's invariant with the accumulator set apart, as a memref owned at some contents. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA Pipeline.scopedRest others1
  rw [bigSep_erase (i := cc1_scratch0) (by decide)]
  simp only [scM1, owns_whole]
  try rfl

/-- The region's invariant before position `n`: before the first point the class's (every scoped buffer that is no
    staging buffer at anything); afterwards the accumulator at what the point before left in it, the other scoped buffers
    at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ others1 c) ∗ (∃ r, prngReg c r)) := by
  cases n with
  | zero => exact absurd rfl hz
  | succ n => rfl

/-- Before any point the accumulator is owned at SOME contents: all a first reduction step asks. -/
theorem PhiS1_any (c : Dev nD) (n : ℕ) (h : n ≤ cfg1.N) :
    PhiS1 V c n h ⊢ iprop(((∃ d, owns (c : Thread nD τ) scM1 fullShare d) ∗ others1 c) ∗ (∃ r, prngReg c r)) := by
  cases n with
  | zero => rw [PhiS1_zero V c 0 h rfl, PhiA1_eq]
  | succ n =>
    rw [PhiS1_succ]
    iintro ⟨⟨HS, Ho⟩, Hg⟩
    isplitr [Hg]
    · isplitl [HS]; · iexists _; iexact HS
      iexact Ho
    iexact Hg

/-! ## The proof data -/

/-- The proof data of this pallas_call on core `c`: the arrays as the region finds them; after the body at point `t` each
    input's buffer at its block and the output's at the accumulator's contents there (consulted only at the last
    reduction steps, where the body stores it and the pipeline writes it back); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The position modulo 4 says which reduction step it is; the inputs' memrefs hold their blocks; the
    invariant hands the body the accumulator at what the point before left (at anything before a first step) and takes it
    back at this point's contents; the output's buffer passes through untouched except at a last step, where it takes
    the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 4 = 0
  · -- a first reduction step
    have hl : ¬last1 (grid1.coords t) := fun h => by have := (hlast1 t).mp h; omega
    rw [Dat.leavesExact_idle (dat1 V c) 2 t (idleAt1_2 t hl) (noFlush1_2 t hl)]
    rw [acc1_first V c t h0, Phi1_castSucc V c t]
    iintro ⟨HΦ, Ho, ⟨%d0, H0⟩, ⟨%d1, H1⟩, ⟨%d2, H2⟩⟩
    ihave HΦ' := (PhiS1_any V c _ _) $$ HΦ
    icases HΦ' with ⟨⟨HS, Hot⟩, Hg⟩
    iapply (sound_first1 c (grid1.coords t) _ _ _ _ _ _ _ _ ((hfirst1 t).mpr h0) hl (iblk1 V c 0 t) (iblk1 V c 1 t) _ Set.univ _)
    isplitl [H0]; · iexact H0
    isplitl [H1]; · iexact H1
    isplitl [H2]; · iexact H2
    isplitl [HS]; · iexact HS
    iintro ⟨H0, H1, H2, HS⟩
    isplitl [HS Hot Hg]
    · isplitr [Hg]
      · isplitl [HS]; · iexact HS
        iexact Hot
      iexact Hg
    isplitl [Ho]; · iexact Ho
    isplitl [H0]; · iexact H0
    isplitl [H1]; · iexact H1
    iexists _; iexact H2
  · have hz : t.val ≠ 0 := fun h => h0 (by rw [h])
    rw [acc1_next V c t h0, Phi1_castSucc V c t, PhiS1_pos V c _ _ hz]
    by_cases h3 : t.val % 4 = 3
    · -- a last reduction step
      rw [show (dat1 V c).leavesExact 2 t = owns (c : Thread nD τ) (st1_2 t) fullShare ((dat1 V c).after 2 t) from by
        unfold Dat.leavesExact; rw [liveAt1_2 t ((hlast1 t).mpr h3)], after1_2, acc1_next V c t h0]
      iintro ⟨⟨⟨HS, Hot⟩, Hg⟩, Ho, ⟨%d0, H0⟩, ⟨%d1, H1⟩, ⟨%d2, H2⟩⟩
      iapply (sound_last1 c (grid1.coords t) _ _ _ _ _ _ _ _ (fun h => h0 ((hfirst1 t).mp h)) ((hlast1 t).mpr h3) (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexact H2
    · -- a middle reduction step
      have hl : ¬last1 (grid1.coords t) := fun h => h3 ((hlast1 t).mp h)
      rw [Dat.leavesExact_idle (dat1 V c) 2 t (idleAt1_2 t hl) (noFlush1_2 t hl)]
      iintro ⟨⟨⟨HS, Hot⟩, Hg⟩, Ho, ⟨%d0, H0⟩, ⟨%d1, H1⟩, ⟨%d2, H2⟩⟩
      iapply (sound_mid1 c (grid1.coords t) _ _ _ _ _ _ _ _ (fun h => h0 ((hfirst1 t).mp h)) hl (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Region1

end Cert.KernelIdeal.Hand

end
-- ==== Proof.KernelIdeal.Region2.lean ====
import proofs.«135434_j28647431864612_1_alg».proof.Proof.Gen.KernelIdeal.Launch
import proofs.«135434_j28647431864612_1_alg».proof.Proof.Gen.KernelIdeal.Skeleton
import proofs.«135434_j28647431864612_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one pallas_call of the tiled matrix product

The grid is 8 row tiles by 4 reduction tiles, the reduction coordinate running fastest. At a point (i, j) the body adds the
product of the (i, j) tile of the left operand and the j-th row tile of the right operand into a scratch accumulator, which
it first zeroes when j = 0, and copies the accumulator to the output block when j = 3. The accumulator is carried from a
point to the next, so the region's invariant names its contents after every point. -/

theorem offs_zero2 : (![0, 0] : Fin 2 → Nat) = fun _ => 0 := by funext a; fin_cases a <;> rfl

/-- An access through the whole buffer holds every index. -/
theorem mem_whole_rect2 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose last is through the whole buffer covers the buffer. -/
theorem cover_whole_head2 {Val : EltTy → Type} {S : Shape} {e : EltTy} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.Mem.head _, mem_whole_rect2 h inb y⟩

/-- The body's first conditional: the reduction coordinate is 0 (the accumulator is zeroed). -/
abbrev first2 (i : grid2.Coords) : Prop := (Scalar.cmpi .ne (Scalar.extui (Scalar.cmpi .eq (BitVec.ofNat 32 (i 1).val) 0#32)) 0#32) = 1#1
/-- The body's last conditional: the reduction coordinate is 3 (the accumulator is written out). -/
abbrev last2 (i : grid2.Coords) : Prop := k2_cond2 i = 1#1

/-- In the grid's linear order the reduction coordinate is the position modulo 4. -/
theorem hfirst2 : ∀ t : Fin cfg2.N, first2 (grid2.coords t) ↔ t.val % 4 = 0 :=
  (by decide +kernel : ∀ t : Fin grid2.N, first2 (grid2.coords t) ↔ t.val % 4 = 0)
theorem hlast2 : ∀ t : Fin cfg2.N, last2 (grid2.coords t) ↔ t.val % 4 = 3 :=
  (by decide +kernel : ∀ t : Fin grid2.N, last2 (grid2.coords t) ↔ t.val % 4 = 3)

/-- The inputs' windows are never idle; the output's is idle, and not written back, away from the last reduction step. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem liveAt2_2 : ∀ t : Fin cfg2.N, last2 (grid2.coords t) → cfg2.idle 2 (grid2.coords t) = false := by decide +kernel

/-! ## The body on whole memrefs, case by case -/

set_option maxHeartbeats 1000000 in
/-- A middle reduction step: the accumulator takes the tiles' product added to what it held; the output block is untouched. -/
theorem sound_mid2 (c : Dev nD) (i : grid2.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first2 i) (hl : ¬last2 i)
    (x0 : Vec F S1024x2048 .f32) (x1 : Vec F S2048x32 .f32) (xi xs : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k2_pay2 x0 x1 xs)) -∗ K ⟨⟩))
      ⊢ wp frame (wpE (defs₀ (F := F)) Variants.none c none) E (cc2__mm_kernel i arg2 harg2 arg3 harg3 arg4 harg4 arg5 harg5) K := by
  simp only [cc2__mm_kernel_eq_skeleton]; unfold cc2__mm_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head2 offs_zero2 _ _ _)).trans ?_
  rw [View.canon_unit_zero offs_zero2]
  simp only [View.readAt_eq_ld, harg2.read_unread, harg3.read_unread, harg5.read_unread, View.ld_unit_zero (S := S1024x2048) offs_zero2, View.ld_unit_zero (S := S2048x32) offs_zero2, View.ld_unit_zero (S := S1024x32) offs_zero2]

set_option maxHeartbeats 1000000 in
/-- The first reduction step: the accumulator, whatever it held, is zeroed and then takes the tiles' product. -/
theorem sound_first2 (c : Dev nD) (i : grid2.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : first2 i) (hl : ¬last2 i)
    (x0 : Vec F S1024x2048 .f32) (x1 : Vec F S2048x32 .f32) (xi : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k2_pay2 x0 x1 k2_pay1)) -∗ K ⟨⟩))
      ⊢ wp frame (wpE (defs₀ (F := F)) Variants.none c none) E (cc2__mm_kernel i arg2 harg2 arg3 harg3 arg4 harg4 arg5 harg5) K := by
  simp only [cc2__mm_kernel_eq_skeleton]; unfold cc2__mm_kernel_skel
  unfold owns
  iintro ⟨⟨%f0, %hf0, H0⟩, ⟨%f1, %hf1, H1⟩, ⟨%f2, %hf2, H2⟩, ⟨%xs, %fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  refine (View.read_writes_eq_canon _ _ _ (cover_whole_head2 offs_zero2 _ _ _)).trans ?_
  rw [View.canon_cons_unit_zero offs_zero2]
  simp only [View.readAt_eq_ld, harg2.read_unread, harg3.read_unread, View.ld_unit_zero (S := S1024x2048) offs_zero2, View.ld_unit_zero (S := S2048x32) offs_zero2, View.readCov_unit_zero (S := S1024x32) _ offs_zero2]

set_option maxHeartbeats 1000000 in
/-- The last reduction step: the accumulator takes the tiles' product added to what it held, and the output block takes the
    accumulator. -/
theorem sound_last2 (c : Dev nD) (i : grid2.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hf : ¬first2 i) (hl : last2 i)
    (x0 : Vec F S1024x2048 .f32) (x1 : Vec F S2048x32 .f32) (xs : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k2_pay2 x0 x1 xs) ∗ owns (c : Thread nD τ) arg5 fullShare (k2_pay2 x0 x1 xs)) -∗ K ⟨⟩))
      ⊢ wp frame (wpE (defs₀ (F := F)) Variants.none c none) E (cc2__mm_kernel i arg2 harg2 arg3 harg3 arg4 harg4 arg5 harg5) K := by
  simp only [cc2__mm_kernel_eq_skeleton]; unfold cc2__mm_kernel_skel
  unfold owns
  iintro ⟨⟨%f0, %hf0, H0⟩, ⟨%f1, %hf1, H1⟩, ⟨%xi, %f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (View.read_writes_eq_canon _ _ _ (cover_whole_head2 offs_zero2 _ _ _)).trans ?_
    rw [View.canon_unit_zero offs_zero2]
    simp only [View.readAt_eq_ld, harg2.read_unread, harg3.read_unread, harg5.read_unread, View.ld_unit_zero (S := S1024x2048) offs_zero2, View.ld_unit_zero (S := S2048x32) offs_zero2, View.ld_unit_zero (S := S1024x32) offs_zero2, View.readCov_unit_zero (S := S1024x32) _ offs_zero2]
  iexists _; isplitr
  swap; · iexact HS
  ipureintro
  sl_unfold_run_names
  refine (View.read_writes_eq_canon _ _ _ (cover_whole_head2 offs_zero2 _ _ _)).trans ?_
  rw [View.canon_unit_zero offs_zero2]
  simp only [View.readAt_eq_ld, harg2.read_unread, harg3.read_unread, harg5.read_unread, View.ld_unit_zero (S := S1024x2048) offs_zero2, View.ld_unit_zero (S := S2048x32) offs_zero2, View.ld_unit_zero (S := S1024x32) offs_zero2]

/-! ## The region at its entry contents -/

section Region2

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The scratch accumulator, whole. -/
abbrev scM2 : Memref sig .tc .vmem S1024x32 .f32 := Memref.whole cc2_scratch0

/-- THE ACCUMULATION. What the scratch accumulator holds after the body at position `n`: at a first reduction step the
    product of the point's tiles over the zero fill, otherwise that product added to what the point before left. -/
def acc2 (c : Dev nD) : (n : ℕ) → n < cfg2.N → Vec F S1024x32 .f32
  | 0, hn => k2_pay2 (iblk2 V c 0 ⟨0, hn⟩) (iblk2 V c 1 ⟨0, hn⟩) k2_pay1
  | n + 1, hn =>
    if (n + 1) % 4 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (acc2 c n (Nat.lt_of_succ_lt hn))

theorem acc2_first (c : Dev nD) (t : Fin cfg2.N) (h : t.val % 4 = 0) :
    acc2 V c t.val t.isLt = k2_pay2 (iblk2 V c 0 t) (iblk2 V c 1 t) k2_pay1 := by
  obtain ⟨n, hn⟩ := t
  cases n with
  | zero => rfl
  | succ n => exact if_pos h

theorem acc2_next (c : Dev nD) (t : Fin cfg2.N) (h : ¬t.val % 4 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than this pallas_call's staging buffers and its accumulator, each whole at some
    contents: they ride through the region untouched. -/
def others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The class's invariant with the accumulator set apart, as a memref owned at some contents. -/
theorem PhiA2_eq (c : Dev nD) :
    (Pipeline.ΦA spec2 c : sProp 𝕄)
      = iprop(((∃ d, owns (c : Thread nD τ) scM2 fullShare d) ∗ others2 c) ∗ (∃ r, prngReg c r)) := by
  unfold Pipeline.ΦA Pipeline.scopedRest others2
  rw [bigSep_erase (i := cc2_scratch0) (by decide)]
  simp only [scM2, owns_whole]
  try rfl

/-- The region's invariant before position `n`: before the first point the class's (every scoped buffer that is no
    staging buffer at anything); afterwards the accumulator at what the point before left in it, the other scoped buffers
    at anything, the generator register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ others2 c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ others2 c) ∗ (∃ r, prngReg c r)) := by
  cases n with
  | zero => exact absurd rfl hz
  | succ n => rfl

/-- Before any point the accumulator is owned at SOME contents: all a first reduction step asks. -/
theorem PhiS2_any (c : Dev nD) (n : ℕ) (h : n ≤ cfg2.N) :
    PhiS2 V c n h ⊢ iprop(((∃ d, owns (c : Thread nD τ) scM2 fullShare d) ∗ others2 c) ∗ (∃ r, prngReg c r)) := by
  cases n with
  | zero => rw [PhiS2_zero V c 0 h rfl, PhiA2_eq]
  | succ n =>
    rw [PhiS2_succ]
    iintro ⟨⟨HS, Ho⟩, Hg⟩
    isplitr [Hg]
    · isplitl [HS]; · iexists _; iexact HS
      iexact Ho
    iexact Hg

/-! ## The proof data -/

/-- The proof data of this pallas_call on core `c`: the arrays as the region finds them; after the body at point `t` each
    input's buffer at its block and the output's at the accumulator's contents there (consulted only at the last
    reduction steps, where the body stores it and the pipeline writes it back); the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point. The position modulo 4 says which reduction step it is; the inputs' memrefs hold their blocks; the
    invariant hands the body the accumulator at what the point before left (at anything before a first step) and takes it
    back at this point's contents; the output's buffer passes through untouched except at a last step, where it takes
    the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  by_cases h0 : t.val % 4 = 0
  · -- a first reduction step
    have hl : ¬last2 (grid2.coords t) := fun h => by have := (hlast2 t).mp h; omega
    rw [Dat.leavesExact_idle (dat2 V c) 2 t (idleAt2_2 t hl) (noFlush2_2 t hl)]
    rw [acc2_first V c t h0, Phi2_castSucc V c t]
    iintro ⟨HΦ, Ho, ⟨%d0, H0⟩, ⟨%d1, H1⟩, ⟨%d2, H2⟩⟩
    ihave HΦ' := (PhiS2_any V c _ _) $$ HΦ
    icases HΦ' with ⟨⟨HS, Hot⟩, Hg⟩
    iapply (sound_first2 c (grid2.coords t) _ _ _ _ _ _ _ _ ((hfirst2 t).mpr h0) hl (iblk2 V c 0 t) (iblk2 V c 1 t) _ Set.univ _)
    isplitl [H0]; · iexact H0
    isplitl [H1]; · iexact H1
    isplitl [H2]; · iexact H2
    isplitl [HS]; · iexact HS
    iintro ⟨H0, H1, H2, HS⟩
    isplitl [HS Hot Hg]
    · isplitr [Hg]
      · isplitl [HS]; · iexact HS
        iexact Hot
      iexact Hg
    isplitl [Ho]; · iexact Ho
    isplitl [H0]; · iexact H0
    isplitl [H1]; · iexact H1
    iexists _; iexact H2
  · have hz : t.val ≠ 0 := fun h => h0 (by rw [h])
    rw [acc2_next V c t h0, Phi2_castSucc V c t, PhiS2_pos V c _ _ hz]
    by_cases h3 : t.val % 4 = 3
    · -- a last reduction step
      rw [show (dat2 V c).leavesExact 2 t = owns (c : Thread nD τ) (st2_2 t) fullShare ((dat2 V c).after 2 t) from by
        unfold Dat.leavesExact; rw [liveAt2_2 t ((hlast2 t).mpr h3)], after2_2, acc2_next V c t h0]
      iintro ⟨⟨⟨HS, Hot⟩, Hg⟩, Ho, ⟨%d0, H0⟩, ⟨%d1, H1⟩, ⟨%d2, H2⟩⟩
      iapply (sound_last2 c (grid2.coords t) _ _ _ _ _ _ _ _ (fun h => h0 ((hfirst2 t).mp h)) ((hlast2 t).mpr h3) (iblk2 V c 0 t) (iblk2 V c 1 t) _ Set.univ _)
      isplitl [H0]; · iexact H0
      isplitl [H1]; · iexact H1
      isplitl [H2]; · iexists _; iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexact H2
    · -- a middle reduction step
      have hl : ¬last2 (grid2.coords t) := fun h => h3 ((hlast2 t).mp h)
      rw [Dat.leavesExact_idle (dat2 V c) 2 t (idleAt2_2 t hl) (noFlush2_2 t hl)]
      iintro ⟨⟨⟨HS, Hot⟩, Hg⟩, Ho, ⟨%d0, H0⟩, ⟨%d1, H1⟩, ⟨%d2, H2⟩⟩
      iapply (sound_mid2 c (grid2.coords t) _ _ _ _ _ _ _ _ (fun h => h0 ((hfirst2 t).mp h)) hl (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hot Hg]
      · isplitr [Hg]
        · isplitl [HS]; · iexact HS
          iexact Hot
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Region2

end Cert.KernelIdeal.Hand

end
-- ==== Proof.KernelIdeal.Run.lean ====
import proofs.«135434_j28647431864612_1_alg».proof.Proof.Gen.KernelIdeal.Launch
import proofs.«135434_j28647431864612_1_alg».proof.Proof.Gen.KernelIdeal.Skeleton
import proofs.«135434_j28647431864612_1_alg».proof.Proof.Gen.KernelIdeal.Points
import proofs.«135434_j28647431864612_1_alg».proof.Proof.Gen.KernelIdeal.Regions
import proofs.«135434_j28647431864612_1_alg».proof.Proof.KernelIdeal.Region0
import proofs.«135434_j28647431864612_1_alg».proof.Proof.KernelIdeal.Region1
import proofs.«135434_j28647431864612_1_alg».proof.Proof.KernelIdeal.Region2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's six items from the launch to the return

@main is three pallas_calls, each followed by a stretch of host operations. The buffers' contents at each boundary are a
fold from the launch memory: a stretch applies its operations; a region leaves its arrays at what its write-backs leave. -/

variable (m : (ℓ : Loc nD τ sig) → Buf (Elt F) ℓ) (ρ : Dev nD → PrngReg)

/-- Core `c`'s buffers at launch: region 0's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, the output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch: region 1's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the inputs as entered, the output's write-backs folded),
    every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the last host stretch: the return. -/
abbrev W6 : Dev nD → Valuation τ sig (Elt F) := fun c => StableHlo.after hostOps3 (W5 m ρ c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W0`, left at `W1`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds each unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      (show (iprop(StableHlo.held (c : Thread nD τ) (Pipeline.ucRefs τ sig) (W6 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The argument arrays end as launched -/

theorem W2_keep (c : Dev nD) (r : Ref sig .tc) (h : r ∉ hostOps1_W) : W2 m ρ c r = W1 m ρ c r :=
  StableHlo.after_of_writes_sub hostOps1 _ hostOps1_writes h
theorem W4_keep (c : Dev nD) (r : Ref sig .tc) (h : r ∉ hostOps2_W) : W4 m ρ c r = W3 m ρ c r :=
  StableHlo.after_of_writes_sub hostOps2 _ hostOps2_writes h
theorem W6_keep (c : Dev nD) (r : Ref sig .tc) (h : r ∉ hostOps3_W) : W6 m ρ c r = W5 m ρ c r :=
  StableHlo.after_of_writes_sub hostOps3 _ hostOps3_writes h
/-- A region leaves an input window's array as it found it. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))

theorem W6_main_arg0 (c : Dev nD) : W6 m ρ c main_arg0 = m ((c : Thread nD τ).loc main_arg0) :=
  (W6_keep m ρ c main_arg0 (by decide)).trans <| (W5_of_ne m ρ c main_arg0 (by decide)).trans <| (W4_keep m ρ c main_arg0 (by decide)).trans <|
    (W3_of_ne m ρ c main_arg0 (by decide)).trans <| (W2_keep m ρ c main_arg0 (by decide)).trans <| (W1_in m ρ c 1 rfl).trans rfl
theorem W6_main_arg1 (c : Dev nD) : W6 m ρ c main_arg1 = m ((c : Thread nD τ).loc main_arg1) :=
  (W6_keep m ρ c main_arg1 (by decide)).trans <| (W5_in m ρ c 0 rfl).trans <| (W4_keep m ρ c main_arg1 (by decide)).trans <|
    (W3_in m ρ c 0 rfl).trans <| (W2_keep m ρ c main_arg1 (by decide)).trans <| (W1_in m ρ c 0 rfl).trans rfl
theorem W6_main_arg2 (c : Dev nD) : W6 m ρ c main_arg2 = m ((c : Thread nD τ).loc main_arg2) :=
  (W6_keep m ρ c main_arg2 (by decide)).trans <| (W5_of_ne m ρ c main_arg2 (by decide)).trans <| (W4_keep m ρ c main_arg2 (by decide)).trans <|
    (W3_of_ne m ρ c main_arg2 (by decide)).trans <| (W2_keep m ρ c main_arg2 (by decide)).trans <| (W1_of_ne m ρ c main_arg2 (by decide)).trans rfl
theorem W6_main_arg3 (c : Dev nD) : W6 m ρ c main_arg3 = m ((c : Thread nD τ).loc main_arg3) :=
  (W6_keep m ρ c main_arg3 (by decide)).trans <| (W5_of_ne m ρ c main_arg3 (by decide)).trans <| (W4_keep m ρ c main_arg3 (by decide)).trans <|
    (W3_of_ne m ρ c main_arg3 (by decide)).trans <| (W2_keep m ρ c main_arg3 (by decide)).trans <| (W1_of_ne m ρ c main_arg3 (by decide)).trans rfl
theorem W6_main_arg4 (c : Dev nD) : W6 m ρ c main_arg4 = m ((c : Thread nD τ).loc main_arg4) :=
  (W6_keep m ρ c main_arg4 (by decide)).trans <| (W5_of_ne m ρ c main_arg4 (by decide)).trans <| (W4_keep m ρ c main_arg4 (by decide)).trans <|
    (W3_of_ne m ρ c main_arg4 (by decide)).trans <| (W2_keep m ρ c main_arg4 (by decide)).trans <| (W1_of_ne m ρ c main_arg4 (by decide)).trans rfl

/-- THE FRAME: every weakly fair execution of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Hand

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.RealMatrices.lean ====
/-
  Real matrices read as arrays of extended reals, and what the programs' array operations do to them.
  Every input of the two programs is finite, so every array either program computes is a real matrix read entry by
  entry as an extended real; on such arrays a matrix product is the product of the real matrices, a sum the sum, a
  difference the difference, the scaling by the literal 2.0 the scaling by 2, a transposition the transpose, and the
  k-th slice of a stack of matrices its k-th matrix. The two programs then compute two real-matrix expressions that
  differ only in how a product of four matrices is bracketed.
-/
import Mathlib.Data.Matrix.Mul
import Idealize.ShloMosaic.PureOps.Ideal.Laws
import Idealize.ShloMosaic.Lib.ValueIdx
import Idealize.ShloMosaic.Lib.ValueLayout
import Idealize.ShloMosaic.Lib.Pipeline.Value
import proofs.«135434_j28647431864612_1_alg».proof.Proof.LibPlainDot

noncomputable section

namespace Cert.RealMat

open Idealize.ShloMosaic Idealize.ShloMosaic.ValueIdx

/-- A real matrix as an array of extended reals. -/
def emb2 {a b : ℕ} (M : Matrix (Fin a) (Fin b) ℝ) : FVec Ideal ⟨2, ![a, b]⟩ .f32 :=
  fun j => ((M (j 0) (j 1) : ℝ) : EReal)

/-- A stack of real matrices as a rank-3 array of extended reals. -/
def emb3 {n a b : ℕ} (T : Fin n → Matrix (Fin a) (Fin b) ℝ) : FVec Ideal ⟨3, ![n, a, b]⟩ .f32 :=
  fun j => ((T (j 0) (j 1) (j 2) : ℝ) : EReal)

theorem emb2_apply {a b : ℕ} (M : Matrix (Fin a) (Fin b) ℝ) (p : Fin a) (q : Fin b) :
    emb2 M (ix2 p q) = ((M p q : ℝ) : EReal) := rfl

/-- A finite sum of reals read as extended reals is the sum read as an extended real. -/
theorem coe_sum {ι : Type*} (s : Finset ι) (f : ι → ℝ) :
    (∑ k ∈ s, ((f k : ℝ) : EReal)) = ((∑ k ∈ s, f k : ℝ) : EReal) := by
  classical
  refine Finset.induction_on s (by simp) ?_
  intro a s ha ih
  rw [Finset.sum_insert ha, Finset.sum_insert ha, ih, EReal.coe_add]

/-- The word 0x40000000 denotes the real 2: sign 0, exponent 128, fraction 0, so 2^23 · 2^(128 - 127 - 23). -/
theorem ofBits_two : Ideal.ofBits .f32 0x40000000#32 = ((2 : ℝ) : EReal) := by
  simp [Ideal.ofBits, Ideal.ieee, -EReal.coe_mul]; norm_num

/-- The plain sum of products of two embedded matrices is the embedded matrix product. -/
theorem sum_emb2 {R K C : ℕ} (A : Matrix (Fin R) (Fin K) ℝ) (B : Matrix (Fin K) (Fin C) ℝ) (p : Fin R) (q : Fin C) :
    (∑ k : Fin K, emb2 A (ix2 p k) * emb2 B (ix2 k q)) = emb2 (A * B) (ix2 p q) := by
  simp only [emb2_apply, Matrix.mul_apply]
  rw [← coe_sum]
  refine Finset.sum_congr rfl fun k _ => ?_
  rw [EReal.coe_mul]

/-- The host's matrix product of two embedded matrices. -/
theorem dotGeneral_emb2 {R K C : ℕ} {d : DotDims ⟨2, ![R, K]⟩ ⟨2, ![K, C]⟩ ⟨2, ![R, C]⟩} (h : PlainDot.IsPlain d)
    (prec : Option ContractPrecision) (A : Matrix (Fin R) (Fin K) ℝ) (B : Matrix (Fin K) (Fin C) ℝ) :
    Host.dotGeneral (F := Ideal) d prec (emb2 A) (emb2 B) = emb2 (A * B) := by
  funext j
  obtain ⟨p, q, rfl⟩ : ∃ p q, j = ix2 p q := ⟨j 0, j 1, eq_ix2 j⟩
  simp only [Host.dotGeneral]
  rw [PlainDot.dotGeneral_apply h]
  exact sum_emb2 A B p q

theorem addf_emb2 {a b : ℕ} (A B : Matrix (Fin a) (Fin b) ℝ) : addf (emb2 A) (emb2 B) = emb2 (A + B) := by
  funext j
  obtain ⟨p, q, rfl⟩ : ∃ p q, j = ix2 p q := ⟨j 0, j 1, eq_ix2 j⟩
  rw [addf_apply, emb2_apply, emb2_apply, emb2_apply, Matrix.add_apply, EReal.coe_add]

theorem subf_emb2 {a b : ℕ} (A B : Matrix (Fin a) (Fin b) ℝ) : subf (emb2 A) (emb2 B) = emb2 (A - B) := by
  funext j
  obtain ⟨p, q, rfl⟩ : ∃ p q, j = ix2 p q := ⟨j 0, j 1, eq_ix2 j⟩
  rw [subf_apply, emb2_apply, emb2_apply, emb2_apply, Matrix.sub_apply, EReal.coe_sub]

/-- The product with the broadcast literal 2.0 (the word 0x40000000). -/
theorem two_mulf_emb2 {a b : ℕ} (h : (⟨0, ![]⟩ : Shape).BroadcastsInDim ⟨2, ![a, b]⟩ (![] : Fin 0 → Fin 2))
    (A : Matrix (Fin a) (Fin b) ℝ) :
    mulf (broadcastInDim (⟨2, ![a, b]⟩ : Shape) ![] h (constant (F := Ideal) ⟨0, ![]⟩ .f32 0x40000000#32)) (emb2 A)
      = emb2 ((2 : ℝ) • A) := by
  funext j
  obtain ⟨p, q, rfl⟩ : ∃ p q, j = ix2 p q := ⟨j 0, j 1, eq_ix2 j⟩
  rw [mulf_apply, broadcastInDim_apply ![] h _ (ix2 p q) ix0 (fun a => a.elim0), constant_apply, ofBits_two,
    emb2_apply, emb2_apply, Matrix.smul_apply, smul_eq_mul, EReal.coe_mul]

theorem transpose_emb2 {a b : ℕ} (h : (⟨2, ![a, b]⟩ : Shape).Transposes [1, 0] ⟨2, ![b, a]⟩) (A : Matrix (Fin a) (Fin b) ℝ) :
    transpose (⟨2, ![b, a]⟩ : Shape) [1, 0] (emb2 A) h = emb2 A.transpose := by
  funext j
  obtain ⟨p, q, rfl⟩ : ∃ p q, j = ix2 p q := ⟨j 0, j 1, eq_ix2 j⟩
  rw [transpose_apply [1, 0] (emb2 A) h (ix2 p q) (ix2 q p) (fun c => by
    match c with
    | ⟨0, _⟩ => rfl
    | ⟨1, _⟩ => rfl)]
  rfl

/-- The k-th matrix of a stack: the slice [k:k+1, :, :] reshaped to rank 2. -/
theorem slice_emb3 {n a b : ℕ} (k : Fin n) (hs : (⟨3, ![n, a, b]⟩ : Shape).Slices ![k.val, 0, 0] ⟨3, ![1, a, b]⟩)
    (hc : (⟨3, ![1, a, b]⟩ : Shape).ShapeCasts ⟨2, ![a, b]⟩) (T : Fin n → Matrix (Fin a) (Fin b) ℝ) :
    shapeCast (⟨2, ![a, b]⟩ : Shape) (extractStridedSlice (⟨3, ![1, a, b]⟩ : Shape) ![k.val, 0, 0] (emb3 T) hs) hc = emb2 (T k) := by
  funext j
  obtain ⟨p, q, rfl⟩ : ∃ p q, j = ix2 p q := ⟨j 0, j 1, eq_ix2 j⟩
  rw [shapeCast_apply _ hc (ix2 p q) (ix3 (0 : Fin 1) p q) (by
    rw [Shape.rowMajor_val_three, Shape.rowMajor_val_two]
    show ((0 : Fin 1).val * a + p.val) * b + q.val = p.val * b + q.val
    simp)]
  rw [extractStridedSlice_apply ![k.val, 0, 0] (emb3 T) hs (ix3 (0 : Fin 1) p q) (ix3 k p q) (fun c => by
    match c with
    | ⟨0, _⟩ => rfl
    | ⟨1, _⟩ => exact (Nat.zero_add p.val).symm
    | ⟨2, _⟩ => exact (Nat.zero_add q.val).symm)]
  rfl

/-! ## The two programs' results as real-matrix expressions -/

section Spec

variable (X : Matrix (Fin 8192) (Fin 32) ℝ) (Ws : Matrix (Fin 8192) (Fin 8192) ℝ) (Wp : Matrix (Fin 32) (Fin 32) ℝ)
  (Ts Td : Fin 4 → Matrix (Fin 32) (Fin 32) ℝ)

/-- The static branch, shared by both programs: the Chebyshev recurrence y1 = Ws X, y_k = 2 Ws y_{k-1} - y_{k-2}. -/
def y1 : Matrix (Fin 8192) (Fin 32) ℝ := Ws * X
def y2 : Matrix (Fin 8192) (Fin 32) ℝ := (2 : ℝ) • (Ws * y1 X Ws) - X
def y3 : Matrix (Fin 8192) (Fin 32) ℝ := (2 : ℝ) • (Ws * y2 X Ws) - y1 X Ws
def base : Matrix (Fin 8192) (Fin 32) ℝ := X * Ts 0
def outS : Matrix (Fin 8192) (Fin 32) ℝ := ((base X Ts + y1 X Ws * Ts 1) + y2 X Ws * Ts 2) + y3 X Ws * Ts 3

/-- The dynamic operator as the kernel's program applies it: X (Wp (Xᵀ V)). -/
def wdK (V : Matrix (Fin 8192) (Fin 32) ℝ) : Matrix (Fin 8192) (Fin 32) ℝ := X * (Wp * (X.transpose * V))
def z1K : Matrix (Fin 8192) (Fin 32) ℝ := wdK X Wp X
def z2K : Matrix (Fin 8192) (Fin 32) ℝ := (2 : ℝ) • wdK X Wp (z1K X Wp) - X
def z3K : Matrix (Fin 8192) (Fin 32) ℝ := (2 : ℝ) • wdK X Wp (z2K X Wp) - z1K X Wp
def outDK : Matrix (Fin 8192) (Fin 32) ℝ := ((base X Ts + z1K X Wp * Td 1) + z2K X Wp * Td 2) + z3K X Wp * Td 3
def specK : Matrix (Fin 8192) (Fin 32) ℝ := outS X Ws Ts + outDK X Wp Ts Td

/-- The dynamic operator as the reference applies it: ((X Wp) Xᵀ) V. -/
def wdR (V : Matrix (Fin 8192) (Fin 32) ℝ) : Matrix (Fin 8192) (Fin 32) ℝ := ((X * Wp) * X.transpose) * V
def z1R : Matrix (Fin 8192) (Fin 32) ℝ := wdR X Wp X
def z2R : Matrix (Fin 8192) (Fin 32) ℝ := (2 : ℝ) • wdR X Wp (z1R X Wp) - X
def z3R : Matrix (Fin 8192) (Fin 32) ℝ := (2 : ℝ) • wdR X Wp (z2R X Wp) - z1R X Wp
def outDR : Matrix (Fin 8192) (Fin 32) ℝ := ((base X Ts + z1R X Wp * Td 1) + z2R X Wp * Td 2) + z3R X Wp * Td 3
def specR : Matrix (Fin 8192) (Fin 32) ℝ := outS X Ws Ts + outDR X Wp Ts Td

/-- Matrix multiplication is associative: the two bracketings of the dynamic operator agree. -/
theorem wdK_eq_wdR (V : Matrix (Fin 8192) (Fin 32) ℝ) : wdK X Wp V = wdR X Wp V := by
  unfold wdK wdR
  rw [Matrix.mul_assoc, Matrix.mul_assoc]

theorem specK_eq_specR : specK X Ws Wp Ts Td = specR X Ws Wp Ts Td := by
  have h1 : z1K X Wp = z1R X Wp := wdK_eq_wdR X Wp X
  have h2 : z2K X Wp = z2R X Wp := by unfold z2K z2R; rw [h1, wdK_eq_wdR]
  have h3 : z3K X Wp = z3R X Wp := by unfold z3K z3R; rw [h2, h1, wdK_eq_wdR]
  unfold specK specR outDK outDR
  rw [h1, h2, h3]

end Spec

end Cert.RealMat

end
-- ==== Proof.KernelIdeal.RegionValue.lean ====
/-
  The value each of the three pallas_calls of the kernel's program leaves in its output array, over the extended reals.

  Each call runs the same tiled matrix product out = A · B of an [8192, 8192] left operand by an [8192, 32] right operand
  on a grid of 8 row tiles by 4 reduction tiles, the reduction coordinate running fastest: the point at position
  t = 4·i + j reads the (i, j) tile of A ([1024, 2048]) and the j-th row tile of B ([2048, 32]), adds their product into a
  scratch accumulator that it zeroes first when j = 0, and at j = 3 copies the accumulator to the output block, which the
  pipeline then writes back to rows 1024·i … 1024·i + 1023 of the output array.

  Read at an entry (p, q) of the block, the update adds ∑ k < 2048, A(1024 i + p, 2048 j + k) · B(2048 j + k, q) to what the
  accumulator held; after the four steps of a row tile the accumulator holds (((0 + S₀) + S₁) + S₂) + S₃, which is the sum
  over all k < 8192 because addition of extended reals is associative and zero is neutral. When both operands are real
  matrices read entry by entry as extended reals, that sum is the entry of the product matrix, so every write-back writes
  its row tile of the product matrix, the eight write-backs cover the array, and the array ends holding the product.
-/
import proofs.«135434_j28647431864612_1_alg».proof.Proof.KernelIdeal.Region0
import proofs.«135434_j28647431864612_1_alg».proof.Proof.KernelIdeal.Region1
import proofs.«135434_j28647431864612_1_alg».proof.Proof.KernelIdeal.Region2
import proofs.«135434_j28647431864612_1_alg».proof.Proof.RealMatrices
import proofs.«135434_j28647431864612_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.HandValue

open Cert.KernelIdeal Cert.KernelIdeal.Gen Cert.KernelIdeal.Hand Cert.RealMat Idealize.ShloMosaic Idealize.ShloMosaic.TcCoe
open Idealize.ShloMosaic.ValueIdx
open Idealize.ShloMosaic.Pipeline (Dat)

/-! ## A sum over 8192 terms, cut into four runs of 2048 -/

/-- The four runs' sums, added left to right from zero, are the whole sum: addition of extended reals is associative and
    zero is neutral. -/
theorem sum_four_runs (g : Fin 8192 → EReal)
    (h0 : ∀ k : Fin 2048, 2048 * 0 + k.val < 8192) (h1 : ∀ k : Fin 2048, 2048 * 1 + k.val < 8192)
    (h2 : ∀ k : Fin 2048, 2048 * 2 + k.val < 8192) (h3 : ∀ k : Fin 2048, 2048 * 3 + k.val < 8192) :
    (((0 + ∑ k : Fin 2048, g ⟨2048 * 0 + k.val, h0 k⟩) + ∑ k : Fin 2048, g ⟨2048 * 1 + k.val, h1 k⟩)
      + ∑ k : Fin 2048, g ⟨2048 * 2 + k.val, h2 k⟩) + ∑ k : Fin 2048, g ⟨2048 * 3 + k.val, h3 k⟩
      = ∑ k : Fin 8192, g k := by
  rw [zero_add]
  have e : ∑ k : Fin 8192, g k = ∑ j : Fin 4, ∑ k : Fin 2048, g (finProdFinEquiv (j, k)) := by
    rw [← Fintype.sum_prod_type (f := fun x : Fin 4 × Fin 2048 => g (finProdFinEquiv x))]
    exact (Equiv.sum_comp (finProdFinEquiv (m := 4) (n := 2048)) g).symm
  have r : ∀ (j : Fin 4) (j' : ℕ) (_ : j.val = j') (hj : ∀ k : Fin 2048, 2048 * j' + k.val < 8192),
      ∑ k : Fin 2048, g (finProdFinEquiv (j, k)) = ∑ k : Fin 2048, g ⟨2048 * j' + k.val, hj k⟩ :=
    fun j j' ej hj => Finset.sum_congr rfl fun k _ => congrArg g (Fin.ext (by
      show k.val + 2048 * j.val = 2048 * j' + k.val
      rw [ej]; omega))
  rw [e, Fin.sum_univ_four, r 0 0 rfl h0, r 1 1 rfl h1, r 2 2 rfl h2, r 3 3 rfl h3]

/-! ## What the three calls share -/

/-- The dimension numbers of the kernel's matrix product are those of a plain row-by-column product. -/
theorem plain_dims : PlainDot.IsPlain dot_S1024x2048_S2048x32_S1024x32_1_0_0_1_n_n := ⟨rfl, rfl, rfl, rfl, rfl, rfl⟩

/-- The left operand's array as a region finds it: the same argument of the program in all three calls. -/
abbrev lhsArr (V : (c : Dev nD) → (b : Ref sig .tc) → Buf (Elt Ideal) ((c : Thread nD τ).loc b)) (c : Dev nD) :
    Vec Ideal S8192x8192 .f32 := V c main_arg1

/-! # Call 0 -/

/-! ## The body's payloads at an entry -/

/-- The zero fill, at an entry. -/
theorem pay1_0_apply (p : Fin 1024) (q : Fin 32) : (k0_pay1 (F := Ideal)) (ix2 p q) = 0 := by
  unfold k0_pay1
  rw [shapeCast_self]
  exact Ideal.ofBits_zero_f32

/-- The accumulator's update, at an entry: what it held plus the row-by-column sum of the two tiles (a change of float
    format is the identity on extended reals, and so is a shape cast to the same shape). -/
theorem pay2_0_apply (x0 : Vec Ideal S1024x2048 .f32) (x1 : Vec Ideal S2048x32 .f32) (xs : Vec Ideal S1024x32 .f32)
    (p : Fin 1024) (q : Fin 32) :
    k0_pay2 x0 x1 xs (ix2 p q) = xs (ix2 p q) + ∑ k : Fin 2048, x0 (ix2 p k) * x1 (ix2 k q) := by
  unfold k0_pay2
  rw [shapeCast_self]
  refine (addf_apply _ _ _).trans ?_
  refine congrArg (fun z => xs (ix2 p q) + z) ?_
  exact PlainDot.matmul_zero_apply plain_dims none _ _ p q

/-! ## The block indices along the grid -/

/-- At position t = 4·i + j the left operand's block is (i, j), the right operand's (j, 0), the output's (i, 0): decided
    over the 32 grid points. -/
theorem idx_facts0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem N0_eq : cfg0.N = 32 := by decide

section R0

-- the TensorCore's buffer contents when the region is entered
variable (V : (c : Dev nD) → (b : Ref sig .tc) → Buf (Elt Ideal) ((c : Thread nD τ).loc b))

/-- The right operand's array as the region finds it, and the two input blocks at a point, at their literal types. -/
abbrev rhsArr0 (c : Dev nD) : Vec Ideal S8192x32 .f32 := V c main_arg0
abbrev lblk0 (c : Dev nD) (t : Fin cfg0.N) : Vec Ideal S1024x2048 .f32 := iblk0 V c 0 t
abbrev rblk0 (c : Dev nD) (t : Fin cfg0.N) : Vec Ideal S2048x32 .f32 := iblk0 V c 1 t

/-! ## Block reads: a block's coordinate in its array is the block index times the block's size plus the coordinate
inside the block -/

theorem lblk0_apply (c : Dev nD) (t : Fin cfg0.N) (p : Fin 1024) (k : Fin 2048)
    (hp : 1024 * (t.val / 4) + p.val < 8192) (hk : 2048 * (t.val % 4) + k.val < 8192) :
    lblk0 V c t (ix2 p k) = lhsArr V c (ix2 ⟨1024 * (t.val / 4) + p.val, hp⟩ ⟨2048 * (t.val % 4) + k.val, hk⟩) := by
  obtain ⟨e0, e1, -⟩ := idx_facts0 t
  unfold lblk0 iblk0
  rw [View.read_apply]
  show V c main_arg1 _ = V c main_arg1 _
  refine congrArg (V c main_arg1) ?_
  funext a
  apply Fin.ext
  match a with
  | ⟨0, _⟩ => show win0_0.index t (0 : Fin 2) * 1024 + 1 * p.val = 1024 * (t.val / 4) + p.val; rw [e0]; omega
  | ⟨1, _⟩ => show win0_0.index t (1 : Fin 2) * 2048 + 1 * k.val = 2048 * (t.val % 4) + k.val; rw [e1]; omega

theorem rblk0_apply (c : Dev nD) (t : Fin cfg0.N) (k : Fin 2048) (q : Fin 32)
    (hk : 2048 * (t.val % 4) + k.val < 8192) :
    rblk0 V c t (ix2 k q) = rhsArr0 V c (ix2 ⟨2048 * (t.val % 4) + k.val, hk⟩ q) := by
  obtain ⟨-, -, e0, e1, -⟩ := idx_facts0 t
  unfold rblk0 iblk0
  rw [View.read_apply]
  show V c main_arg0 _ = V c main_arg0 _
  refine congrArg (V c main_arg0) ?_
  funext a
  apply Fin.ext
  match a with
  | ⟨0, _⟩ => show win0_1.index t (0 : Fin 2) * 2048 + 1 * k.val = 2048 * (t.val % 4) + k.val; rw [e0]; omega
  | ⟨1, _⟩ => show win0_1.index t (1 : Fin 2) * 32 + 1 * q.val = q.val; rw [e1]; omega

/-! ## The accumulation -/

/-- The product of the two tiles the body reads at point t, at the entry (p, q) of the output block. -/
def tileDot0 (c : Dev nD) (t : Fin cfg0.N) (p : Fin 1024) (q : Fin 32) : EReal :=
  ∑ k : Fin 2048, lblk0 V c t (ix2 p k) * rblk0 V c t (ix2 k q)

/-- A first reduction step leaves zero plus its tiles' product; -/
theorem acc0_first_apply (c : Dev nD) (t : Fin cfg0.N) (h : t.val % 4 = 0) (p : Fin 1024) (q : Fin 32) :
    acc0 V c t.val t.isLt (ix2 p q) = 0 + tileDot0 V c t p q := by
  refine (congrFun (acc0_first V c t h) (ix2 p q)).trans ?_
  refine (pay2_0_apply (lblk0 V c t) (rblk0 V c t) (k0_pay1 (F := Ideal)) p q).trans ?_
  rw [pay1_0_apply]
  rfl

/-- any other step adds its tiles' product to what the point before left. -/
theorem acc0_next_apply (c : Dev nD) (t : Fin cfg0.N) (h : ¬t.val % 4 = 0) (p : Fin 1024) (q : Fin 32) :
    acc0 V c t.val t.isLt (ix2 p q)
      = acc0 V c (t.val - 1) (Nat.lt_of_le_of_lt (Nat.sub_le _ _) t.isLt) (ix2 p q) + tileDot0 V c t p q := by
  refine (congrFun (acc0_next V c t h) (ix2 p q)).trans ?_
  exact pay2_0_apply (lblk0 V c t) (rblk0 V c t) _ p q

/-- The tiles' product at the point (i, j), in the operand arrays' own coordinates. -/
theorem tileDot0_eq (c : Dev nD) (t : Fin cfg0.N) (i j : ℕ) (hi : t.val / 4 = i) (hj : t.val % 4 = j)
    (p : Fin 1024) (q : Fin 32) (hp : 1024 * i + p.val < 8192) (hk : ∀ k : Fin 2048, 2048 * j + k.val < 8192) :
    tileDot0 V c t p q = ∑ k : Fin 2048,
      lhsArr V c (ix2 ⟨1024 * i + p.val, hp⟩ ⟨2048 * j + k.val, hk k⟩) * rhsArr0 V c (ix2 ⟨2048 * j + k.val, hk k⟩ q) := by
  subst hi hj
  unfold tileDot0
  refine Finset.sum_congr rfl fun k _ => ?_
  rw [lblk0_apply V c t p k hp (hk k), rblk0_apply V c t k q (hk k)]

/-- At a last reduction step the accumulator holds the four tiles' products of its row tile, added left to right from zero. -/
theorem acc0_last_apply (c : Dev nD) (t : Fin cfg0.N) (h : t.val % 4 = 3) (p : Fin 1024) (q : Fin 32)
    (lt1 : t.val - 1 < cfg0.N) (lt2 : t.val - 1 - 1 < cfg0.N) (lt3 : t.val - 1 - 1 - 1 < cfg0.N) :
    acc0 V c t.val t.isLt (ix2 p q)
      = (((0 + tileDot0 V c ⟨t.val - 1 - 1 - 1, lt3⟩ p q) + tileDot0 V c ⟨t.val - 1 - 1, lt2⟩ p q)
          + tileDot0 V c ⟨t.val - 1, lt1⟩ p q) + tileDot0 V c t p q := by
  refine (acc0_next_apply V c t (by omega) p q).trans ?_
  refine congrArg (· + tileDot0 V c t p q) ?_
  refine (acc0_next_apply V c ⟨t.val - 1, lt1⟩ (by show ¬(t.val - 1) % 4 = 0; omega) p q).trans ?_
  refine congrArg (· + tileDot0 V c ⟨t.val - 1, lt1⟩ p q) ?_
  refine (acc0_next_apply V c ⟨t.val - 1 - 1, lt2⟩ (by show ¬(t.val - 1 - 1) % 4 = 0; omega) p q).trans ?_
  refine congrArg (· + tileDot0 V c ⟨t.val - 1 - 1, lt2⟩ p q) ?_
  exact acc0_first_apply V c ⟨t.val - 1 - 1 - 1, lt3⟩ (by show (t.val - 1 - 1 - 1) % 4 = 0; omega) p q

/-- With the operands real matrices, the accumulator at a last reduction step holds its row tile of the product matrix. -/
theorem acc0_last_emb (c : Dev nD) (Ws : Matrix (Fin 8192) (Fin 8192) ℝ) (B : Matrix (Fin 8192) (Fin 32) ℝ)
    (hl : V c main_arg1 = emb2 Ws) (hr : V c main_arg0 = emb2 B)
    (t : Fin cfg0.N) (h : t.val % 4 = 3) (p : Fin 1024) (q : Fin 32) (hp : 1024 * (t.val / 4) + p.val < 8192) :
    acc0 V c t.val t.isLt (ix2 p q) = emb2 (Ws * B) (ix2 ⟨1024 * (t.val / 4) + p.val, hp⟩ q) := by
  have hN : cfg0.N = 32 := N0_eq
  have ht := t.isLt
  have lt1 : t.val - 1 < cfg0.N := by omega
  have lt2 : t.val - 1 - 1 < cfg0.N := by omega
  have lt3 : t.val - 1 - 1 - 1 < cfg0.N := by omega
  rw [acc0_last_apply V c t h p q lt1 lt2 lt3,
    tileDot0_eq V c ⟨t.val - 1 - 1 - 1, lt3⟩ (t.val / 4) 0 (by show (t.val - 1 - 1 - 1) / 4 = t.val / 4; omega)
      (by show (t.val - 1 - 1 - 1) % 4 = 0; omega) p q hp (fun k => by have := k.isLt; omega),
    tileDot0_eq V c ⟨t.val - 1 - 1, lt2⟩ (t.val / 4) 1 (by show (t.val - 1 - 1) / 4 = t.val / 4; omega)
      (by show (t.val - 1 - 1) % 4 = 1; omega) p q hp (fun k => by have := k.isLt; omega),
    tileDot0_eq V c ⟨t.val - 1, lt1⟩ (t.val / 4) 2 (by show (t.val - 1) / 4 = t.val / 4; omega)
      (by show (t.val - 1) % 4 = 2; omega) p q hp (fun k => by have := k.isLt; omega),
    tileDot0_eq V c t (t.val / 4) 3 rfl h p q hp (fun k => by have := k.isLt; omega)]
  unfold lhsArr rhsArr0
  rw [hl, hr, ← sum_emb2 Ws B ⟨1024 * (t.val / 4) + p.val, hp⟩ q]
  exact sum_four_runs (fun k => emb2 Ws (ix2 ⟨1024 * (t.val / 4) + p.val, hp⟩ k) * emb2 B (ix2 k q)) _ _ _ _

/-! ## From the blocks to the array -/

/-- What a last reduction step writes back is its row tile of the product matrix. -/
theorem flushed0_eq (c : Dev nD) (Ws : Matrix (Fin 8192) (Fin 8192) ℝ) (B : Matrix (Fin 8192) (Fin 32) ℝ)
    (hl : V c main_arg1 = emb2 Ws) (hr : V c main_arg0 = emb2 B)
    (t : Fin cfg0.N) (hf : (cfg0.win 2).flush t = true) :
    (dat0 (F := Ideal) V c).flushed 2 t = ((cfg0.win 2).blk t).view.read (Elt Ideal) (emb2 (Ws * B)) := by
  have h3 : t.val % 4 = 3 := (flush0_2 t).mp hf
  have hN : cfg0.N = 32 := N0_eq
  have ht := t.isLt
  obtain ⟨-, -, -, -, e0, e1⟩ := idx_facts0 t
  show (cfg0.win 2).cut (grid0.coords t) ((dat0 (F := Ideal) V c).after 2 t) = _
  rw [after0_2]
  funext y
  obtain ⟨p, q, rfl⟩ : ∃ (p : Fin 1024) (q : Fin 32), y = ix2 p q := ⟨y 0, y 1, eq_ix2 y⟩
  have hp : 1024 * (t.val / 4) + p.val < 8192 := by have := p.isLt; omega
  show acc0 V c t.val t.isLt (ix2 p q) = emb2 (Ws * B) (((cfg0.win 2).blk t).view.emb (ix2 p q))
  rw [acc0_last_emb V c Ws B hl hr t h3 p q hp]
  refine congrArg (emb2 (Ws * B)) ?_
  funext a
  apply Fin.ext
  match a with
  | ⟨0, _⟩ => show 1024 * (t.val / 4) + p.val = win0_2.index t (0 : Fin 2) * 1024 + 1 * p.val; rw [e0]; omega
  | ⟨1, _⟩ => show q.val = win0_2.index t (1 : Fin 2) * 32 + 1 * q.val; rw [e1]; omega

/-- Every row of the output array lies in the block some last reduction step writes back: row r in that of the row
    tile r / 1024, at position 4 · (r / 1024) + 3. -/
theorem cover0 (i : S8192x32.Idx) :
    ∃ t : Fin cfg0.N, (cfg0.win 2).flush t = true ∧ i ∈ ((cfg0.win 2).blk t).view.set := by
  have hN : cfg0.N = 32 := N0_eq
  have h0 : (i 0 : Nat) < 8192 := (i 0).isLt
  have h1 : (i 1 : Nat) < 32 := (i 1).isLt
  have ht : 4 * ((i 0 : Nat) / 1024) + 3 < cfg0.N := by omega
  obtain ⟨-, -, -, -, e0, e1⟩ := idx_facts0 ⟨4 * ((i 0 : Nat) / 1024) + 3, ht⟩
  have e0' : win0_2.index ⟨4 * ((i 0 : Nat) / 1024) + 3, ht⟩ (0 : Fin 2) = (i 0 : Nat) / 1024 := by
    rw [e0]; show (4 * ((i 0 : Nat) / 1024) + 3) / 4 = _; omega
  refine ⟨⟨4 * ((i 0 : Nat) / 1024) + 3, ht⟩, (flush0_2 _).mpr (by show (4 * ((i 0 : Nat) / 1024) + 3) % 4 = 3; omega), ?_⟩
  show i ∈ ((View.whole main_v0).slice (win0_2.rect ⟨4 * ((i 0 : Nat) / 1024) + 3, ht⟩)).set
  rw [View.set_slice_whole, Rect.mem_set_unit]
  intro a
  match a with
  | ⟨0, _⟩ =>
    show win0_2.index ⟨4 * ((i 0 : Nat) / 1024) + 3, ht⟩ (0 : Fin 2) * 1024 ≤ (i 0 : Nat)
      ∧ (i 0 : Nat) < win0_2.index ⟨4 * ((i 0 : Nat) / 1024) + 3, ht⟩ (0 : Fin 2) * 1024 + 1024
    rw [e0']; omega
  | ⟨1, _⟩ =>
    show win0_2.index ⟨4 * ((i 0 : Nat) / 1024) + 3, ht⟩ (1 : Fin 2) * 32 ≤ (i 1 : Nat)
      ∧ (i 1 : Nat) < win0_2.index ⟨4 * ((i 0 : Nat) / 1024) + 3, ht⟩ (1 : Fin 2) * 32 + 32
    rw [e1]; omega

end R0

/-- THE VALUE OF CALL 0: with the operands real matrices read as extended reals, the output array ends holding their
    product. -/
theorem arrAt0_emb (V : (c : Dev nD) → (b : Ref sig .tc) → Buf (Elt Ideal) ((c : Thread nD τ).loc b)) (c : Dev nD)
    (Ws : Matrix (Fin 8192) (Fin 8192) ℝ) (B : Matrix (Fin 8192) (Fin 32) ℝ)
    (hl : V c main_arg1 = emb2 Ws) (hr : V c main_arg0 = emb2 B) : (dat0 (F := Ideal) V c).arrAt 2 cfg0.N = emb2 (Ws * B) :=
  (dat0 (F := Ideal) V c).arrAt_eq_of_cover 2 (emb2 (Ws * B)) (flushed0_eq V c Ws B hl hr) cover0

/-! # Call 1 -/

/-! ## The body's payloads at an entry -/

/-- The zero fill, at an entry. -/
theorem pay1_1_apply (p : Fin 1024) (q : Fin 32) : (k1_pay1 (F := Ideal)) (ix2 p q) = 0 := by
  unfold k1_pay1
  rw [shapeCast_self]
  exact Ideal.ofBits_zero_f32

/-- The accumulator's update, at an entry: what it held plus the row-by-column sum of the two tiles (a change of float
    format is the identity on extended reals, and so is a shape cast to the same shape). -/
theorem pay2_1_apply (x0 : Vec Ideal S1024x2048 .f32) (x1 : Vec Ideal S2048x32 .f32) (xs : Vec Ideal S1024x32 .f32)
    (p : Fin 1024) (q : Fin 32) :
    k1_pay2 x0 x1 xs (ix2 p q) = xs (ix2 p q) + ∑ k : Fin 2048, x0 (ix2 p k) * x1 (ix2 k q) := by
  unfold k1_pay2
  rw [shapeCast_self, shapeCast_self]
  refine (addf_apply _ _ _).trans ?_
  refine congrArg (fun z => xs (ix2 p q) + z) ?_
  exact PlainDot.matmul_zero_apply plain_dims none _ _ p q

/-! ## The block indices along the grid -/

/-- At position t = 4·i + j the left operand's block is (i, j), the right operand's (j, 0), the output's (i, 0): decided
    over the 32 grid points. -/
theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

theorem N1_eq : cfg1.N = 32 := by decide

section R1

-- the TensorCore's buffer contents when the region is entered
variable (V : (c : Dev nD) → (b : Ref sig .tc) → Buf (Elt Ideal) ((c : Thread nD τ).loc b))

/-- The right operand's array as the region finds it, and the two input blocks at a point, at their literal types. -/
abbrev rhsArr1 (c : Dev nD) : Vec Ideal S8192x32 .f32 := V c main_v0
abbrev lblk1 (c : Dev nD) (t : Fin cfg1.N) : Vec Ideal S1024x2048 .f32 := iblk1 V c 0 t
abbrev rblk1 (c : Dev nD) (t : Fin cfg1.N) : Vec Ideal S2048x32 .f32 := iblk1 V c 1 t

/-! ## Block reads: a block's coordinate in its array is the block index times the block's size plus the coordinate
inside the block -/

theorem lblk1_apply (c : Dev nD) (t : Fin cfg1.N) (p : Fin 1024) (k : Fin 2048)
    (hp : 1024 * (t.val / 4) + p.val < 8192) (hk : 2048 * (t.val % 4) + k.val < 8192) :
    lblk1 V c t (ix2 p k) = lhsArr V c (ix2 ⟨1024 * (t.val / 4) + p.val, hp⟩ ⟨2048 * (t.val % 4) + k.val, hk⟩) := by
  obtain ⟨e0, e1, -⟩ := idx_facts1 t
  unfold lblk1 iblk1
  rw [View.read_apply]
  show V c main_arg1 _ = V c main_arg1 _
  refine congrArg (V c main_arg1) ?_
  funext a
  apply Fin.ext
  match a with
  | ⟨0, _⟩ => show win1_0.index t (0 : Fin 2) * 1024 + 1 * p.val = 1024 * (t.val / 4) + p.val; rw [e0]; omega
  | ⟨1, _⟩ => show win1_0.index t (1 : Fin 2) * 2048 + 1 * k.val = 2048 * (t.val % 4) + k.val; rw [e1]; omega

theorem rblk1_apply (c : Dev nD) (t : Fin cfg1.N) (k : Fin 2048) (q : Fin 32)
    (hk : 2048 * (t.val % 4) + k.val < 8192) :
    rblk1 V c t (ix2 k q) = rhsArr1 V c (ix2 ⟨2048 * (t.val % 4) + k.val, hk⟩ q) := by
  obtain ⟨-, -, e0, e1, -⟩ := idx_facts1 t
  unfold rblk1 iblk1
  rw [View.read_apply]
  show V c main_v0 _ = V c main_v0 _
  refine congrArg (V c main_v0) ?_
  funext a
  apply Fin.ext
  match a with
  | ⟨0, _⟩ => show win1_1.index t (0 : Fin 2) * 2048 + 1 * k.val = 2048 * (t.val % 4) + k.val; rw [e0]; omega
  | ⟨1, _⟩ => show win1_1.index t (1 : Fin 2) * 32 + 1 * q.val = q.val; rw [e1]; omega

/-! ## The accumulation -/

/-- The product of the two tiles the body reads at point t, at the entry (p, q) of the output block. -/
def tileDot1 (c : Dev nD) (t : Fin cfg1.N) (p : Fin 1024) (q : Fin 32) : EReal :=
  ∑ k : Fin 2048, lblk1 V c t (ix2 p k) * rblk1 V c t (ix2 k q)

/-- A first reduction step leaves zero plus its tiles' product; -/
theorem acc1_first_apply (c : Dev nD) (t : Fin cfg1.N) (h : t.val % 4 = 0) (p : Fin 1024) (q : Fin 32) :
    acc1 V c t.val t.isLt (ix2 p q) = 0 + tileDot1 V c t p q := by
  refine (congrFun (acc1_first V c t h) (ix2 p q)).trans ?_
  refine (pay2_1_apply (lblk1 V c t) (rblk1 V c t) (k1_pay1 (F := Ideal)) p q).trans ?_
  rw [pay1_1_apply]
  rfl

/-- any other step adds its tiles' product to what the point before left. -/
theorem acc1_next_apply (c : Dev nD) (t : Fin cfg1.N) (h : ¬t.val % 4 = 0) (p : Fin 1024) (q : Fin 32) :
    acc1 V c t.val t.isLt (ix2 p q)
      = acc1 V c (t.val - 1) (Nat.lt_of_le_of_lt (Nat.sub_le _ _) t.isLt) (ix2 p q) + tileDot1 V c t p q := by
  refine (congrFun (acc1_next V c t h) (ix2 p q)).trans ?_
  exact pay2_1_apply (lblk1 V c t) (rblk1 V c t) _ p q

/-- The tiles' product at the point (i, j), in the operand arrays' own coordinates. -/
theorem tileDot1_eq (c : Dev nD) (t : Fin cfg1.N) (i j : ℕ) (hi : t.val / 4 = i) (hj : t.val % 4 = j)
    (p : Fin 1024) (q : Fin 32) (hp : 1024 * i + p.val < 8192) (hk : ∀ k : Fin 2048, 2048 * j + k.val < 8192) :
    tileDot1 V c t p q = ∑ k : Fin 2048,
      lhsArr V c (ix2 ⟨1024 * i + p.val, hp⟩ ⟨2048 * j + k.val, hk k⟩) * rhsArr1 V c (ix2 ⟨2048 * j + k.val, hk k⟩ q) := by
  subst hi hj
  unfold tileDot1
  refine Finset.sum_congr rfl fun k _ => ?_
  rw [lblk1_apply V c t p k hp (hk k), rblk1_apply V c t k q (hk k)]

/-- At a last reduction step the accumulator holds the four tiles' products of its row tile, added left to right from zero. -/
theorem acc1_last_apply (c : Dev nD) (t : Fin cfg1.N) (h : t.val % 4 = 3) (p : Fin 1024) (q : Fin 32)
    (lt1 : t.val - 1 < cfg1.N) (lt2 : t.val - 1 - 1 < cfg1.N) (lt3 : t.val - 1 - 1 - 1 < cfg1.N) :
    acc1 V c t.val t.isLt (ix2 p q)
      = (((0 + tileDot1 V c ⟨t.val - 1 - 1 - 1, lt3⟩ p q) + tileDot1 V c ⟨t.val - 1 - 1, lt2⟩ p q)
          + tileDot1 V c ⟨t.val - 1, lt1⟩ p q) + tileDot1 V c t p q := by
  refine (acc1_next_apply V c t (by omega) p q).trans ?_
  refine congrArg (· + tileDot1 V c t p q) ?_
  refine (acc1_next_apply V c ⟨t.val - 1, lt1⟩ (by show ¬(t.val - 1) % 4 = 0; omega) p q).trans ?_
  refine congrArg (· + tileDot1 V c ⟨t.val - 1, lt1⟩ p q) ?_
  refine (acc1_next_apply V c ⟨t.val - 1 - 1, lt2⟩ (by show ¬(t.val - 1 - 1) % 4 = 0; omega) p q).trans ?_
  refine congrArg (· + tileDot1 V c ⟨t.val - 1 - 1, lt2⟩ p q) ?_
  exact acc1_first_apply V c ⟨t.val - 1 - 1 - 1, lt3⟩ (by show (t.val - 1 - 1 - 1) % 4 = 0; omega) p q

/-- With the operands real matrices, the accumulator at a last reduction step holds its row tile of the product matrix. -/
theorem acc1_last_emb (c : Dev nD) (Ws : Matrix (Fin 8192) (Fin 8192) ℝ) (B : Matrix (Fin 8192) (Fin 32) ℝ)
    (hl : V c main_arg1 = emb2 Ws) (hr : V c main_v0 = emb2 B)
    (t : Fin cfg1.N) (h : t.val % 4 = 3) (p : Fin 1024) (q : Fin 32) (hp : 1024 * (t.val / 4) + p.val < 8192) :
    acc1 V c t.val t.isLt (ix2 p q) = emb2 (Ws * B) (ix2 ⟨1024 * (t.val / 4) + p.val, hp⟩ q) := by
  have hN : cfg1.N = 32 := N1_eq
  have ht := t.isLt
  have lt1 : t.val - 1 < cfg1.N := by omega
  have lt2 : t.val - 1 - 1 < cfg1.N := by omega
  have lt3 : t.val - 1 - 1 - 1 < cfg1.N := by omega
  rw [acc1_last_apply V c t h p q lt1 lt2 lt3,
    tileDot1_eq V c ⟨t.val - 1 - 1 - 1, lt3⟩ (t.val / 4) 0 (by show (t.val - 1 - 1 - 1) / 4 = t.val / 4; omega)
      (by show (t.val - 1 - 1 - 1) % 4 = 0; omega) p q hp (fun k => by have := k.isLt; omega),
    tileDot1_eq V c ⟨t.val - 1 - 1, lt2⟩ (t.val / 4) 1 (by show (t.val - 1 - 1) / 4 = t.val / 4; omega)
      (by show (t.val - 1 - 1) % 4 = 1; omega) p q hp (fun k => by have := k.isLt; omega),
    tileDot1_eq V c ⟨t.val - 1, lt1⟩ (t.val / 4) 2 (by show (t.val - 1) / 4 = t.val / 4; omega)
      (by show (t.val - 1) % 4 = 2; omega) p q hp (fun k => by have := k.isLt; omega),
    tileDot1_eq V c t (t.val / 4) 3 rfl h p q hp (fun k => by have := k.isLt; omega)]
  unfold lhsArr rhsArr1
  rw [hl, hr, ← sum_emb2 Ws B ⟨1024 * (t.val / 4) + p.val, hp⟩ q]
  exact sum_four_runs (fun k => emb2 Ws (ix2 ⟨1024 * (t.val / 4) + p.val, hp⟩ k) * emb2 B (ix2 k q)) _ _ _ _

/-! ## From the blocks to the array -/

/-- What a last reduction step writes back is its row tile of the product matrix. -/
theorem flushed1_eq (c : Dev nD) (Ws : Matrix (Fin 8192) (Fin 8192) ℝ) (B : Matrix (Fin 8192) (Fin 32) ℝ)
    (hl : V c main_arg1 = emb2 Ws) (hr : V c main_v0 = emb2 B)
    (t : Fin cfg1.N) (hf : (cfg1.win 2).flush t = true) :
    (dat1 (F := Ideal) V c).flushed 2 t = ((cfg1.win 2).blk t).view.read (Elt Ideal) (emb2 (Ws * B)) := by
  have h3 : t.val % 4 = 3 := (flush1_2 t).mp hf
  have hN : cfg1.N = 32 := N1_eq
  have ht := t.isLt
  obtain ⟨-, -, -, -, e0, e1⟩ := idx_facts1 t
  show (cfg1.win 2).cut (grid1.coords t) ((dat1 (F := Ideal) V c).after 2 t) = _
  rw [after1_2]
  funext y
  obtain ⟨p, q, rfl⟩ : ∃ (p : Fin 1024) (q : Fin 32), y = ix2 p q := ⟨y 0, y 1, eq_ix2 y⟩
  have hp : 1024 * (t.val / 4) + p.val < 8192 := by have := p.isLt; omega
  show acc1 V c t.val t.isLt (ix2 p q) = emb2 (Ws * B) (((cfg1.win 2).blk t).view.emb (ix2 p q))
  rw [acc1_last_emb V c Ws B hl hr t h3 p q hp]
  refine congrArg (emb2 (Ws * B)) ?_
  funext a
  apply Fin.ext
  match a with
  | ⟨0, _⟩ => show 1024 * (t.val / 4) + p.val = win1_2.index t (0 : Fin 2) * 1024 + 1 * p.val; rw [e0]; omega
  | ⟨1, _⟩ => show q.val = win1_2.index t (1 : Fin 2) * 32 + 1 * q.val; rw [e1]; omega

/-- Every row of the output array lies in the block some last reduction step writes back: row r in that of the row
    tile r / 1024, at position 4 · (r / 1024) + 3. -/
theorem cover1 (i : S8192x32.Idx) :
    ∃ t : Fin cfg1.N, (cfg1.win 2).flush t = true ∧ i ∈ ((cfg1.win 2).blk t).view.set := by
  have hN : cfg1.N = 32 := N1_eq
  have h0 : (i 0 : Nat) < 8192 := (i 0).isLt
  have h1 : (i 1 : Nat) < 32 := (i 1).isLt
  have ht : 4 * ((i 0 : Nat) / 1024) + 3 < cfg1.N := by omega
  obtain ⟨-, -, -, -, e0, e1⟩ := idx_facts1 ⟨4 * ((i 0 : Nat) / 1024) + 3, ht⟩
  have e0' : win1_2.index ⟨4 * ((i 0 : Nat) / 1024) + 3, ht⟩ (0 : Fin 2) = (i 0 : Nat) / 1024 := by
    rw [e0]; show (4 * ((i 0 : Nat) / 1024) + 3) / 4 = _; omega
  refine ⟨⟨4 * ((i 0 : Nat) / 1024) + 3, ht⟩, (flush1_2 _).mpr (by show (4 * ((i 0 : Nat) / 1024) + 3) % 4 = 3; omega), ?_⟩
  show i ∈ ((View.whole main_v8).slice (win1_2.rect ⟨4 * ((i 0 : Nat) / 1024) + 3, ht⟩)).set
  rw [View.set_slice_whole, Rect.mem_set_unit]
  intro a
  match a with
  | ⟨0, _⟩ =>
    show win1_2.index ⟨4 * ((i 0 : Nat) / 1024) + 3, ht⟩ (0 : Fin 2) * 1024 ≤ (i 0 : Nat)
      ∧ (i 0 : Nat) < win1_2.index ⟨4 * ((i 0 : Nat) / 1024) + 3, ht⟩ (0 : Fin 2) * 1024 + 1024
    rw [e0']; omega
  | ⟨1, _⟩ =>
    show win1_2.index ⟨4 * ((i 0 : Nat) / 1024) + 3, ht⟩ (1 : Fin 2) * 32 ≤ (i 1 : Nat)
      ∧ (i 1 : Nat) < win1_2.index ⟨4 * ((i 0 : Nat) / 1024) + 3, ht⟩ (1 : Fin 2) * 32 + 32
    rw [e1]; omega

end R1

/-- THE VALUE OF CALL 1: with the operands real matrices read as extended reals, the output array ends holding their
    product. -/
theorem arrAt1_emb (V : (c : Dev nD) → (b : Ref sig .tc) → Buf (Elt Ideal) ((c : Thread nD τ).loc b)) (c : Dev nD)
    (Ws : Matrix (Fin 8192) (Fin 8192) ℝ) (B : Matrix (Fin 8192) (Fin 32) ℝ)
    (hl : V c main_arg1 = emb2 Ws) (hr : V c main_v0 = emb2 B) : (dat1 (F := Ideal) V c).arrAt 2 cfg1.N = emb2 (Ws * B) :=
  (dat1 (F := Ideal) V c).arrAt_eq_of_cover 2 (emb2 (Ws * B)) (flushed1_eq V c Ws B hl hr) cover1

/-! # Call 2 -/

/-! ## The body's payloads at an entry -/

/-- The zero fill, at an entry. -/
theorem pay1_2_apply (p : Fin 1024) (q : Fin 32) : (k2_pay1 (F := Ideal)) (ix2 p q) = 0 := by
  unfold k2_pay1
  rw [shapeCast_self]
  exact Ideal.ofBits_zero_f32

/-- The accumulator's update, at an entry: what it held plus the row-by-column sum of the two tiles (a change of float
    format is the identity on extended reals, and so is a shape cast to the same shape). -/
theorem pay2_2_apply (x0 : Vec Ideal S1024x2048 .f32) (x1 : Vec Ideal S2048x32 .f32) (xs : Vec Ideal S1024x32 .f32)
    (p : Fin 1024) (q : Fin 32) :
    k2_pay2 x0 x1 xs (ix2 p q) = xs (ix2 p q) + ∑ k : Fin 2048, x0 (ix2 p k) * x1 (ix2 k q) := by
  unfold k2_pay2
  rw [shapeCast_self, shapeCast_self]
  refine (addf_apply _ _ _).trans ?_
  refine congrArg (fun z => xs (ix2 p q) + z) ?_
  exact PlainDot.matmul_zero_apply plain_dims none _ _ p q

/-! ## The block indices along the grid -/

/-- At position t = 4·i + j the left operand's block is (i, j), the right operand's (j, 0), the output's (i, 0): decided
    over the 32 grid points. -/
theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

theorem N2_eq : cfg2.N = 32 := by decide

section R2

-- the TensorCore's buffer contents when the region is entered
variable (V : (c : Dev nD) → (b : Ref sig .tc) → Buf (Elt Ideal) ((c : Thread nD τ).loc b))

/-- The right operand's array as the region finds it, and the two input blocks at a point, at their literal types. -/
abbrev rhsArr2 (c : Dev nD) : Vec Ideal S8192x32 .f32 := V c main_v11
abbrev lblk2 (c : Dev nD) (t : Fin cfg2.N) : Vec Ideal S1024x2048 .f32 := iblk2 V c 0 t
abbrev rblk2 (c : Dev nD) (t : Fin cfg2.N) : Vec Ideal S2048x32 .f32 := iblk2 V c 1 t

/-! ## Block reads: a block's coordinate in its array is the block index times the block's size plus the coordinate
inside the block -/

theorem lblk2_apply (c : Dev nD) (t : Fin cfg2.N) (p : Fin 1024) (k : Fin 2048)
    (hp : 1024 * (t.val / 4) + p.val < 8192) (hk : 2048 * (t.val % 4) + k.val < 8192) :
    lblk2 V c t (ix2 p k) = lhsArr V c (ix2 ⟨1024 * (t.val / 4) + p.val, hp⟩ ⟨2048 * (t.val % 4) + k.val, hk⟩) := by
  obtain ⟨e0, e1, -⟩ := idx_facts2 t
  unfold lblk2 iblk2
  rw [View.read_apply]
  show V c main_arg1 _ = V c main_arg1 _
  refine congrArg (V c main_arg1) ?_
  funext a
  apply Fin.ext
  match a with
  | ⟨0, _⟩ => show win2_0.index t (0 : Fin 2) * 1024 + 1 * p.val = 1024 * (t.val / 4) + p.val; rw [e0]; omega
  | ⟨1, _⟩ => show win2_0.index t (1 : Fin 2) * 2048 + 1 * k.val = 2048 * (t.val % 4) + k.val; rw [e1]; omega

theorem rblk2_apply (c : Dev nD) (t : Fin cfg2.N) (k : Fin 2048) (q : Fin 32)
    (hk : 2048 * (t.val % 4) + k.val < 8192) :
    rblk2 V c t (ix2 k q) = rhsArr2 V c (ix2 ⟨2048 * (t.val % 4) + k.val, hk⟩ q) := by
  obtain ⟨-, -, e0, e1, -⟩ := idx_facts2 t
  unfold rblk2 iblk2
  rw [View.read_apply]
  show V c main_v11 _ = V c main_v11 _
  refine congrArg (V c main_v11) ?_
  funext a
  apply Fin.ext
  match a with
  | ⟨0, _⟩ => show win2_1.index t (0 : Fin 2) * 2048 + 1 * k.val = 2048 * (t.val % 4) + k.val; rw [e0]; omega
  | ⟨1, _⟩ => show win2_1.index t (1 : Fin 2) * 32 + 1 * q.val = q.val; rw [e1]; omega

/-! ## The accumulation -/

/-- The product of the two tiles the body reads at point t, at the entry (p, q) of the output block. -/
def tileDot2 (c : Dev nD) (t : Fin cfg2.N) (p : Fin 1024) (q : Fin 32) : EReal :=
  ∑ k : Fin 2048, lblk2 V c t (ix2 p k) * rblk2 V c t (ix2 k q)

/-- A first reduction step leaves zero plus its tiles' product; -/
theorem acc2_first_apply (c : Dev nD) (t : Fin cfg2.N) (h : t.val % 4 = 0) (p : Fin 1024) (q : Fin 32) :
    acc2 V c t.val t.isLt (ix2 p q) = 0 + tileDot2 V c t p q := by
  refine (congrFun (acc2_first V c t h) (ix2 p q)).trans ?_
  refine (pay2_2_apply (lblk2 V c t) (rblk2 V c t) (k2_pay1 (F := Ideal)) p q).trans ?_
  rw [pay1_2_apply]
  rfl

/-- any other step adds its tiles' product to what the point before left. -/
theorem acc2_next_apply (c : Dev nD) (t : Fin cfg2.N) (h : ¬t.val % 4 = 0) (p : Fin 1024) (q : Fin 32) :
    acc2 V c t.val t.isLt (ix2 p q)
      = acc2 V c (t.val - 1) (Nat.lt_of_le_of_lt (Nat.sub_le _ _) t.isLt) (ix2 p q) + tileDot2 V c t p q := by
  refine (congrFun (acc2_next V c t h) (ix2 p q)).trans ?_
  exact pay2_2_apply (lblk2 V c t) (rblk2 V c t) _ p q

/-- The tiles' product at the point (i, j), in the operand arrays' own coordinates. -/
theorem tileDot2_eq (c : Dev nD) (t : Fin cfg2.N) (i j : ℕ) (hi : t.val / 4 = i) (hj : t.val % 4 = j)
    (p : Fin 1024) (q : Fin 32) (hp : 1024 * i + p.val < 8192) (hk : ∀ k : Fin 2048, 2048 * j + k.val < 8192) :
    tileDot2 V c t p q = ∑ k : Fin 2048,
      lhsArr V c (ix2 ⟨1024 * i + p.val, hp⟩ ⟨2048 * j + k.val, hk k⟩) * rhsArr2 V c (ix2 ⟨2048 * j + k.val, hk k⟩ q) := by
  subst hi hj
  unfold tileDot2
  refine Finset.sum_congr rfl fun k _ => ?_
  rw [lblk2_apply V c t p k hp (hk k), rblk2_apply V c t k q (hk k)]

/-- At a last reduction step the accumulator holds the four tiles' products of its row tile, added left to right from zero. -/
theorem acc2_last_apply (c : Dev nD) (t : Fin cfg2.N) (h : t.val % 4 = 3) (p : Fin 1024) (q : Fin 32)
    (lt1 : t.val - 1 < cfg2.N) (lt2 : t.val - 1 - 1 < cfg2.N) (lt3 : t.val - 1 - 1 - 1 < cfg2.N) :
    acc2 V c t.val t.isLt (ix2 p q)
      = (((0 + tileDot2 V c ⟨t.val - 1 - 1 - 1, lt3⟩ p q) + tileDot2 V c ⟨t.val - 1 - 1, lt2⟩ p q)
          + tileDot2 V c ⟨t.val - 1, lt1⟩ p q) + tileDot2 V c t p q := by
  refine (acc2_next_apply V c t (by omega) p q).trans ?_
  refine congrArg (· + tileDot2 V c t p q) ?_
  refine (acc2_next_apply V c ⟨t.val - 1, lt1⟩ (by show ¬(t.val - 1) % 4 = 0; omega) p q).trans ?_
  refine congrArg (· + tileDot2 V c ⟨t.val - 1, lt1⟩ p q) ?_
  refine (acc2_next_apply V c ⟨t.val - 1 - 1, lt2⟩ (by show ¬(t.val - 1 - 1) % 4 = 0; omega) p q).trans ?_
  refine congrArg (· + tileDot2 V c ⟨t.val - 1 - 1, lt2⟩ p q) ?_
  exact acc2_first_apply V c ⟨t.val - 1 - 1 - 1, lt3⟩ (by show (t.val - 1 - 1 - 1) % 4 = 0; omega) p q

/-- With the operands real matrices, the accumulator at a last reduction step holds its row tile of the product matrix. -/
theorem acc2_last_emb (c : Dev nD) (Ws : Matrix (Fin 8192) (Fin 8192) ℝ) (B : Matrix (Fin 8192) (Fin 32) ℝ)
    (hl : V c main_arg1 = emb2 Ws) (hr : V c main_v11 = emb2 B)
    (t : Fin cfg2.N) (h : t.val % 4 = 3) (p : Fin 1024) (q : Fin 32) (hp : 1024 * (t.val / 4) + p.val < 8192) :
    acc2 V c t.val t.isLt (ix2 p q) = emb2 (Ws * B) (ix2 ⟨1024 * (t.val / 4) + p.val, hp⟩ q) := by
  have hN : cfg2.N = 32 := N2_eq
  have ht := t.isLt
  have lt1 : t.val - 1 < cfg2.N := by omega
  have lt2 : t.val - 1 - 1 < cfg2.N := by omega
  have lt3 : t.val - 1 - 1 - 1 < cfg2.N := by omega
  rw [acc2_last_apply V c t h p q lt1 lt2 lt3,
    tileDot2_eq V c ⟨t.val - 1 - 1 - 1, lt3⟩ (t.val / 4) 0 (by show (t.val - 1 - 1 - 1) / 4 = t.val / 4; omega)
      (by show (t.val - 1 - 1 - 1) % 4 = 0; omega) p q hp (fun k => by have := k.isLt; omega),
    tileDot2_eq V c ⟨t.val - 1 - 1, lt2⟩ (t.val / 4) 1 (by show (t.val - 1 - 1) / 4 = t.val / 4; omega)
      (by show (t.val - 1 - 1) % 4 = 1; omega) p q hp (fun k => by have := k.isLt; omega),
    tileDot2_eq V c ⟨t.val - 1, lt1⟩ (t.val / 4) 2 (by show (t.val - 1) / 4 = t.val / 4; omega)
      (by show (t.val - 1) % 4 = 2; omega) p q hp (fun k => by have := k.isLt; omega),
    tileDot2_eq V c t (t.val / 4) 3 rfl h p q hp (fun k => by have := k.isLt; omega)]
  unfold lhsArr rhsArr2
  rw [hl, hr, ← sum_emb2 Ws B ⟨1024 * (t.val / 4) + p.val, hp⟩ q]
  exact sum_four_runs (fun k => emb2 Ws (ix2 ⟨1024 * (t.val / 4) + p.val, hp⟩ k) * emb2 B (ix2 k q)) _ _ _ _

/-! ## From the blocks to the array -/

/-- What a last reduction step writes back is its row tile of the product matrix. -/
theorem flushed2_eq (c : Dev nD) (Ws : Matrix (Fin 8192) (Fin 8192) ℝ) (B : Matrix (Fin 8192) (Fin 32) ℝ)
    (hl : V c main_arg1 = emb2 Ws) (hr : V c main_v11 = emb2 B)
    (t : Fin cfg2.N) (hf : (cfg2.win 2).flush t = true) :
    (dat2 (F := Ideal) V c).flushed 2 t = ((cfg2.win 2).blk t).view.read (Elt Ideal) (emb2 (Ws * B)) := by
  have h3 : t.val % 4 = 3 := (flush2_2 t).mp hf
  have hN : cfg2.N = 32 := N2_eq
  have ht := t.isLt
  obtain ⟨-, -, -, -, e0, e1⟩ := idx_facts2 t
  show (cfg2.win 2).cut (grid2.coords t) ((dat2 (F := Ideal) V c).after 2 t) = _
  rw [after2_2]
  funext y
  obtain ⟨p, q, rfl⟩ : ∃ (p : Fin 1024) (q : Fin 32), y = ix2 p q := ⟨y 0, y 1, eq_ix2 y⟩
  have hp : 1024 * (t.val / 4) + p.val < 8192 := by have := p.isLt; omega
  show acc2 V c t.val t.isLt (ix2 p q) = emb2 (Ws * B) (((cfg2.win 2).blk t).view.emb (ix2 p q))
  rw [acc2_last_emb V c Ws B hl hr t h3 p q hp]
  refine congrArg (emb2 (Ws * B)) ?_
  funext a
  apply Fin.ext
  match a with
  | ⟨0, _⟩ => show 1024 * (t.val / 4) + p.val = win2_2.index t (0 : Fin 2) * 1024 + 1 * p.val; rw [e0]; omega
  | ⟨1, _⟩ => show q.val = win2_2.index t (1 : Fin 2) * 32 + 1 * q.val; rw [e1]; omega

/-- Every row of the output array lies in the block some last reduction step writes back: row r in that of the row
    tile r / 1024, at position 4 · (r / 1024) + 3. -/
theorem cover2 (i : S8192x32.Idx) :
    ∃ t : Fin cfg2.N, (cfg2.win 2).flush t = true ∧ i ∈ ((cfg2.win 2).blk t).view.set := by
  have hN : cfg2.N = 32 := N2_eq
  have h0 : (i 0 : Nat) < 8192 := (i 0).isLt
  have h1 : (i 1 : Nat) < 32 := (i 1).isLt
  have ht : 4 * ((i 0 : Nat) / 1024) + 3 < cfg2.N := by omega
  obtain ⟨-, -, -, -, e0, e1⟩ := idx_facts2 ⟨4 * ((i 0 : Nat) / 1024) + 3, ht⟩
  have e0' : win2_2.index ⟨4 * ((i 0 : Nat) / 1024) + 3, ht⟩ (0 : Fin 2) = (i 0 : Nat) / 1024 := by
    rw [e0]; show (4 * ((i 0 : Nat) / 1024) + 3) / 4 = _; omega
  refine ⟨⟨4 * ((i 0 : Nat) / 1024) + 3, ht⟩, (flush2_2 _).mpr (by show (4 * ((i 0 : Nat) / 1024) + 3) % 4 = 3; omega), ?_⟩
  show i ∈ ((View.whole main_v16).slice (win2_2.rect ⟨4 * ((i 0 : Nat) / 1024) + 3, ht⟩)).set
  rw [View.set_slice_whole, Rect.mem_set_unit]
  intro a
  match a with
  | ⟨0, _⟩ =>
    show win2_2.index ⟨4 * ((i 0 : Nat) / 1024) + 3, ht⟩ (0 : Fin 2) * 1024 ≤ (i 0 : Nat)
      ∧ (i 0 : Nat) < win2_2.index ⟨4 * ((i 0 : Nat) / 1024) + 3, ht⟩ (0 : Fin 2) * 1024 + 1024
    rw [e0']; omega
  | ⟨1, _⟩ =>
    show win2_2.index ⟨4 * ((i 0 : Nat) / 1024) + 3, ht⟩ (1 : Fin 2) * 32 ≤ (i 1 : Nat)
      ∧ (i 1 : Nat) < win2_2.index ⟨4 * ((i 0 : Nat) / 1024) + 3, ht⟩ (1 : Fin 2) * 32 + 32
    rw [e1]; omega

end R2

/-- THE VALUE OF CALL 2: with the operands real matrices read as extended reals, the output array ends holding their
    product. -/
theorem arrAt2_emb (V : (c : Dev nD) → (b : Ref sig .tc) → Buf (Elt Ideal) ((c : Thread nD τ).loc b)) (c : Dev nD)
    (Ws : Matrix (Fin 8192) (Fin 8192) ℝ) (B : Matrix (Fin 8192) (Fin 32) ℝ)
    (hl : V c main_arg1 = emb2 Ws) (hr : V c main_v11 = emb2 B) : (dat2 (F := Ideal) V c).arrAt 2 cfg2.N = emb2 (Ws * B) :=
  (dat2 (F := Ideal) V c).arrAt_eq_of_cover 2 (emb2 (Ws * B)) (flushed2_eq V c Ws B hl hr) cover2

end Cert.KernelIdeal.HandValue

end
-- ==== Proof.KernelHostValue.lean ====
/-
  The host operations of the kernel's program between and after its three pallas_calls, on real matrices: each stretch,
  applied to buffers that hold real matrices read as extended reals, leaves real-matrix expressions of them.
-/
import proofs.«135434_j28647431864612_1_alg».proof.Proof.Gen.KernelIdeal.Regions
import proofs.«135434_j28647431864612_1_alg».proof.Proof.RealMatrices
import Idealize.ShloMosaic.Lib.StableHlo.Run
import Mathlib.Tactic.DefEqTransformations

noncomputable section

namespace Cert.KernelIdeal.HostValue

open Cert.KernelIdeal Cert.KernelIdeal.Gen Cert.RealMat
open Idealize.ShloMosaic Idealize.ShloMosaic.TcCoe Idealize.SL.Sem

variable (X : Matrix (Fin 8192) (Fin 32) ℝ) (Wp : Matrix (Fin 32) (Fin 32) ℝ) (Ts Td : Fin 4 → Matrix (Fin 32) (Fin 32) ℝ)

/-! ## The matrix products of the kernel's program are plain row-by-column products -/

theorem plain_tall_small : PlainDot.IsPlain (R := 8192) (K := 32) (C := 32) dot_S8192x32_S32x32_S8192x32_1_0_0_1_n_n :=
  ⟨rfl, rfl, rfl, rfl, rfl, rfl⟩

theorem plain_wide_tall : PlainDot.IsPlain (R := 32) (K := 8192) (C := 32) dot_S32x8192_S8192x32_S32x32_1_0_0_1_n_n :=
  ⟨rfl, rfl, rfl, rfl, rfl, rfl⟩

theorem plain_small_small : PlainDot.IsPlain (R := 32) (K := 32) (C := 32) dot_S32x32_S32x32_S32x32_1_0_0_1_n_n :=
  ⟨rfl, rfl, rfl, rfl, rfl, rfl⟩

/-- An [8192, 32] matrix times a [32, 32] matrix. -/
theorem dot_tall_small (A : Matrix (Fin 8192) (Fin 32) ℝ) (B : Matrix (Fin 32) (Fin 32) ℝ) :
    Host.dotGeneral (F := Ideal) dot_S8192x32_S32x32_S8192x32_1_0_0_1_n_n none (emb2 A) (emb2 B) = emb2 (A * B) :=
  dotGeneral_emb2 plain_tall_small none A B

/-- A [32, 8192] matrix times an [8192, 32] matrix. -/
theorem dot_wide_tall (A : Matrix (Fin 32) (Fin 8192) ℝ) (B : Matrix (Fin 8192) (Fin 32) ℝ) :
    Host.dotGeneral (F := Ideal) dot_S32x8192_S8192x32_S32x32_1_0_0_1_n_n none (emb2 A) (emb2 B) = emb2 (A * B) :=
  dotGeneral_emb2 plain_wide_tall none A B

/-- A [32, 32] matrix times a [32, 32] matrix. -/
theorem dot_small_small (A : Matrix (Fin 32) (Fin 32) ℝ) (B : Matrix (Fin 32) (Fin 32) ℝ) :
    Host.dotGeneral (F := Ideal) dot_S32x32_S32x32_S32x32_1_0_0_1_n_n none (emb2 A) (emb2 B) = emb2 (A * B) :=
  dotGeneral_emb2 plain_small_small none A B

/-! ## The slices of a stack of four matrices -/

theorem slice0 (T : Fin 4 → Matrix (Fin 32) (Fin 32) ℝ) :
    shapeCast S32x32 (extractStridedSlice S1x32x32 ![0, 0, 0] (emb3 T) slices_S4x32x32_S1x32x32_0_0_0) shapeCasts_S1x32x32_S32x32
      = emb2 (T 0) :=
  slice_emb3 (0 : Fin 4) slices_S4x32x32_S1x32x32_0_0_0 shapeCasts_S1x32x32_S32x32 T

theorem slice1 (T : Fin 4 → Matrix (Fin 32) (Fin 32) ℝ) :
    shapeCast S32x32 (extractStridedSlice S1x32x32 ![1, 0, 0] (emb3 T) slices_S4x32x32_S1x32x32_1_0_0) shapeCasts_S1x32x32_S32x32
      = emb2 (T 1) :=
  slice_emb3 (1 : Fin 4) slices_S4x32x32_S1x32x32_1_0_0 shapeCasts_S1x32x32_S32x32 T

theorem slice2 (T : Fin 4 → Matrix (Fin 32) (Fin 32) ℝ) :
    shapeCast S32x32 (extractStridedSlice S1x32x32 ![2, 0, 0] (emb3 T) slices_S4x32x32_S1x32x32_2_0_0) shapeCasts_S1x32x32_S32x32
      = emb2 (T 2) :=
  slice_emb3 (2 : Fin 4) slices_S4x32x32_S1x32x32_2_0_0 shapeCasts_S1x32x32_S32x32 T

theorem slice3 (T : Fin 4 → Matrix (Fin 32) (Fin 32) ℝ) :
    shapeCast S32x32 (extractStridedSlice S1x32x32 ![3, 0, 0] (emb3 T) slices_S4x32x32_S1x32x32_3_0_0) shapeCasts_S1x32x32_S32x32
      = emb2 (T 3) :=
  slice_emb3 (3 : Fin 4) slices_S4x32x32_S1x32x32_3_0_0 shapeCasts_S1x32x32_S32x32 T

/-! ## Scaling by 2 and transposition at the program's shapes -/

/-- The product with the broadcast literal 2.0, the empty list of broadcast axes read as a function into Fin 2. -/
theorem two_mul_tall (A : Matrix (Fin 8192) (Fin 32) ℝ) :
    mulf (broadcastInDim S8192x32 (![] : Fin 0 → Fin 2) bcast_S_S8192x32 (constant (F := Ideal) S_ .f32 0x40000000#32)) (emb2 A)
      = emb2 ((2 : ℝ) • A) :=
  two_mulf_emb2 bcast_S_S8192x32 A

/-- The same, the empty list of broadcast axes read as a function into Fin (rank of the [8192, 32] shape). -/
theorem two_mul_tall_rank (A : Matrix (Fin 8192) (Fin 32) ℝ) :
    mulf (broadcastInDim S8192x32 ![] bcast_S_S8192x32 (constant (F := Ideal) S_ .f32 0x40000000#32)) (emb2 A)
      = emb2 ((2 : ℝ) • A) :=
  two_mulf_emb2 bcast_S_S8192x32 A

theorem transpose_tall (A : Matrix (Fin 8192) (Fin 32) ℝ) :
    transpose S32x8192 [1, 0] (emb2 A) transposes_S8192x32_S32x8192_1_0 = emb2 A.transpose :=
  transpose_emb2 transposes_S8192x32_S32x8192_1_0 A

/-- The first stretch (after the first pallas_call left Y1 = Ws X in main_v0): main_v3 = X Ts₀, main_v7 = X Ts₀ + Y1 Ts₁. -/
theorem stretch1 (W : Valuation τ sig (Elt Ideal)) (Y1 : Matrix (Fin 8192) (Fin 32) ℝ)
    (h0 : W main_arg0 = emb2 X) (h3 : W main_arg3 = emb3 Ts) (hv0 : W main_v0 = emb2 Y1) :
    StableHlo.after (hostOps1 (F := Ideal)) W main_v3 = emb2 (X * Ts 0)
    ∧ StableHlo.after (hostOps1 (F := Ideal)) W main_v7 = emb2 (X * Ts 0 + Y1 * Ts 1) := by
  have e2 : ∀ (v : FVec Ideal S1x32x32 .f32), shapeCast main_v2.ty.shape v shapeCasts_S1x32x32_S32x32 = shapeCast S32x32 v shapeCasts_S1x32x32_S32x32 := fun _ => rfl
  have e5 : ∀ (v : FVec Ideal S1x32x32 .f32), shapeCast main_v5.ty.shape v shapeCasts_S1x32x32_S32x32 = shapeCast S32x32 v shapeCasts_S1x32x32_S32x32 := fun _ => rfl
  constructor
  · show StableHlo.after (hostOps1 (F := Ideal)) W (Proc.devRef .tc main_v3) = _
    after_results
    simp only [h0, h3, hv0, e2, e5]
    eta_reduce
    simp only [slice0, slice1, dot_tall_small, addf_emb2]
  · show StableHlo.after (hostOps1 (F := Ideal)) W (Proc.devRef .tc main_v7) = _
    after_results
    simp only [h0, h3, hv0, e2, e5]
    eta_reduce
    simp only [slice0, slice1, dot_tall_small, addf_emb2]

/-- The second stretch (after the second pallas_call left P = Ws Y1 in main_v8): main_v11 = 2 P - X,
    main_v15 = S7 + (2 P - X) Ts₂. -/
theorem stretch2 (W : Valuation τ sig (Elt Ideal)) (P S7 : Matrix (Fin 8192) (Fin 32) ℝ)
    (h0 : W main_arg0 = emb2 X) (h3 : W main_arg3 = emb3 Ts) (hv8 : W main_v8 = emb2 P) (hv7 : W main_v7 = emb2 S7) :
    StableHlo.after (hostOps2 (F := Ideal)) W main_v11 = emb2 ((2 : ℝ) • P - X)
    ∧ StableHlo.after (hostOps2 (F := Ideal)) W main_v15 = emb2 (S7 + ((2 : ℝ) • P - X) * Ts 2) := by
  have e13 : ∀ (v : FVec Ideal S1x32x32 .f32), shapeCast main_v13.ty.shape v shapeCasts_S1x32x32_S32x32 = shapeCast S32x32 v shapeCasts_S1x32x32_S32x32 := fun _ => rfl
  constructor
  · show StableHlo.after (hostOps2 (F := Ideal)) W (Proc.devRef .tc main_v11) = _
    after_results
    simp only [h0, h3, hv8, hv7, e13]
    simp only [slice2, dot_tall_small, addf_emb2, subf_emb2, two_mul_tall, two_mul_tall_rank]
  · show StableHlo.after (hostOps2 (F := Ideal)) W (Proc.devRef .tc main_v15) = _
    after_results
    simp only [h0, h3, hv8, hv7, e13]
    eta_reduce
    simp only [slice2, dot_tall_small, addf_emb2, subf_emb2, two_mul_tall, two_mul_tall_rank]

set_option maxRecDepth 8192 in
set_option maxHeartbeats 2000000 in
/-- The last stretch (after the third pallas_call left Q = Ws Y2 in main_v16): the static branch is closed with
    Y3 = 2 Q - Y1, the dynamic branch is computed whole, and the two are added. -/
theorem stretch3 (W : Valuation τ sig (Elt Ideal)) (Q Y1 S15 B0 : Matrix (Fin 8192) (Fin 32) ℝ)
    (h0 : W main_arg0 = emb2 X) (h2 : W main_arg2 = emb2 Wp) (h3 : W main_arg3 = emb3 Ts) (h4 : W main_arg4 = emb3 Td)
    (hv16 : W main_v16 = emb2 Q) (hv0 : W main_v0 = emb2 Y1) (hv15 : W main_v15 = emb2 S15) (hv3 : W main_v3 = emb2 B0) :
    StableHlo.after (hostOps3 (F := Ideal)) W main_v54
      = emb2 ((S15 + ((2 : ℝ) • Q - Y1) * Ts 3)
          + (((B0 + z1K X Wp * Td 1) + z2K X Wp * Td 2) + z3K X Wp * Td 3)) := by
  -- the reshaped slices, their result shape read off the buffer's type, are the reshapes to [32, 32]
  have e21 : ∀ (v : FVec Ideal S1x32x32 .f32), shapeCast main_v21.ty.shape v shapeCasts_S1x32x32_S32x32 = shapeCast S32x32 v shapeCasts_S1x32x32_S32x32 := fun _ => rfl
  have e29 : ∀ (v : FVec Ideal S1x32x32 .f32), shapeCast main_v29.ty.shape v shapeCasts_S1x32x32_S32x32 = shapeCast S32x32 v shapeCasts_S1x32x32_S32x32 := fun _ => rfl
  have e40 : ∀ (v : FVec Ideal S1x32x32 .f32), shapeCast main_v40.ty.shape v shapeCasts_S1x32x32_S32x32 = shapeCast S32x32 v shapeCasts_S1x32x32_S32x32 := fun _ => rfl
  have e51 : ∀ (v : FVec Ideal S1x32x32 .f32), shapeCast main_v51.ty.shape v shapeCasts_S1x32x32_S32x32 = shapeCast S32x32 v shapeCasts_S1x32x32_S32x32 := fun _ => rfl
  -- the transposed first input is the transpose of X
  have hT : transpose S32x8192 [1, 0] (W (Proc.devRef .tc main_arg0)) transposes_S8192x32_S32x8192_1_0 = emb2 X.transpose := by
    rw [h0]; exact transpose_tall X
  show StableHlo.after (hostOps3 (F := Ideal)) W (Proc.devRef .tc main_v54) = _
  -- the result buffer holds the operations' composed term of the buffers the stretch reads
  after_results_simp
  simp only [hT]
  simp only [h0, h2, h3, h4, hv16, hv0, hv15, hv3, e21, e29, e40, e51]
  eta_reduce
  -- every operation, innermost first, maps real matrices read as extended reals to such
  simp only [slice1, slice2, slice3, dot_tall_small, dot_wide_tall, dot_small_small, addf_emb2, subf_emb2,
    two_mul_tall, two_mul_tall_rank]
  -- both sides are the same real-matrix expression once the abbreviations z₁, z₂, z₃ are opened
  unfold z3K z2K z1K wdK
  rfl

end Cert.KernelIdeal.HostValue

end
-- ==== Proof.KernelValue.lean ====
/-
  The kernel's program at Ideal on real inputs. Its three pallas_calls each leave the product of the operator matrix Ws
  with the current Chebyshev iterate; the host stretches between them form the static branch's recurrence and, in the
  last stretch, the whole dynamic branch as X (Wp (Xᵀ V)). Followed boundary by boundary from the launch memory, the
  result array is the real-matrix expression specK read as extended reals.
-/
import proofs.«135434_j28647431864612_1_alg».proof.Proof.KernelIdeal.Run
import proofs.«135434_j28647431864612_1_alg».proof.Proof.KernelIdeal.RegionValue
import proofs.«135434_j28647431864612_1_alg».proof.Proof.KernelHostValue

set_option maxRecDepth 16384

noncomputable section

namespace Cert.KernelIdeal.HandValue

open Cert.KernelIdeal Cert.KernelIdeal.Gen Cert.KernelIdeal.Hand Cert.KernelIdeal.HostValue Cert.RealMat
open Idealize.ShloMosaic Idealize.ShloMosaic.TcCoe Idealize.SL.Sem

/-- The result array at the return, on real inputs. -/
theorem result_value (m : (ℓ : Loc nD τ sig) → Buf (Elt Ideal) ℓ) (ρ : Dev nD → PrngReg) (c : Dev nD)
    (X : Matrix (Fin 8192) (Fin 32) ℝ) (Ws : Matrix (Fin 8192) (Fin 8192) ℝ) (Wp : Matrix (Fin 32) (Fin 32) ℝ) (Ts Td : Fin 4 → Matrix (Fin 32) (Fin 32) ℝ)
    (h0 : m ((c.tc : Thread nD τ).loc main_arg0) = emb2 X) (h1 : m ((c.tc : Thread nD τ).loc main_arg1) = emb2 Ws)
    (h2 : m ((c.tc : Thread nD τ).loc main_arg2) = emb2 Wp) (h3 : m ((c.tc : Thread nD τ).loc main_arg3) = emb3 Ts)
    (h4 : m ((c.tc : Thread nD τ).loc main_arg4) = emb3 Td) :
    W6 (F := Ideal) m ρ c main_v54 = emb2 (specK X Ws Wp Ts Td) := by
  -- after the first pallas_call: Y1 = Ws X in main_v0, the arguments as launched
  have a0_1 : W1 m ρ c main_arg0 = emb2 X := ((W1_in m ρ c 1 rfl).trans rfl).trans h0
  have a1_1 : W1 m ρ c main_arg1 = emb2 Ws := ((W1_in m ρ c 0 rfl).trans rfl).trans h1
  have a2_1 : W1 m ρ c main_arg2 = emb2 Wp := ((W1_of_ne m ρ c main_arg2 (by decide)).trans rfl).trans h2
  have a3_1 : W1 m ρ c main_arg3 = emb3 Ts := ((W1_of_ne m ρ c main_arg3 (by decide)).trans rfl).trans h3
  have a4_1 : W1 m ρ c main_arg4 = emb3 Td := ((W1_of_ne m ρ c main_arg4 (by decide)).trans rfl).trans h4
  have v0_1 : W1 m ρ c main_v0 = emb2 (Ws * X) :=
    (W1_arr m ρ c 2).trans (arrAt0_emb (V0 m ρ) c Ws X (show V0 m ρ c main_arg1 = emb2 Ws from h1) (show V0 m ρ c main_arg0 = emb2 X from h0))
  -- after the first stretch: main_v3 = X Ts₀, main_v7 = X Ts₀ + Y1 Ts₁
  obtain ⟨v3_2, v7_2⟩ := stretch1 X Ts (W1 m ρ c) (Ws * X) a0_1 a3_1 v0_1
  have a0_2 : W2 m ρ c main_arg0 = emb2 X := (W2_keep m ρ c main_arg0 (by decide)).trans a0_1
  have a1_2 : W2 m ρ c main_arg1 = emb2 Ws := (W2_keep m ρ c main_arg1 (by decide)).trans a1_1
  have a2_2 : W2 m ρ c main_arg2 = emb2 Wp := (W2_keep m ρ c main_arg2 (by decide)).trans a2_1
  have a3_2 : W2 m ρ c main_arg3 = emb3 Ts := (W2_keep m ρ c main_arg3 (by decide)).trans a3_1
  have a4_2 : W2 m ρ c main_arg4 = emb3 Td := (W2_keep m ρ c main_arg4 (by decide)).trans a4_1
  have v0_2 : W2 m ρ c main_v0 = emb2 (Ws * X) := (W2_keep m ρ c main_v0 (by decide)).trans v0_1
  -- after the second pallas_call: P = Ws Y1 in main_v8
  have v8_3 : W3 m ρ c main_v8 = emb2 (Ws * (Ws * X)) :=
    (W3_arr m ρ c 2).trans (arrAt1_emb (V2 m ρ) c Ws (Ws * X) a1_2 v0_2)
  have a0_3 : W3 m ρ c main_arg0 = emb2 X := (W3_of_ne m ρ c main_arg0 (by decide)).trans a0_2
  have a1_3 : W3 m ρ c main_arg1 = emb2 Ws := (W3_in m ρ c 0 rfl).trans a1_2
  have a2_3 : W3 m ρ c main_arg2 = emb2 Wp := (W3_of_ne m ρ c main_arg2 (by decide)).trans a2_2
  have a3_3 : W3 m ρ c main_arg3 = emb3 Ts := (W3_of_ne m ρ c main_arg3 (by decide)).trans a3_2
  have a4_3 : W3 m ρ c main_arg4 = emb3 Td := (W3_of_ne m ρ c main_arg4 (by decide)).trans a4_2
  have v0_3 : W3 m ρ c main_v0 = emb2 (Ws * X) := (W3_in m ρ c 1 rfl).trans v0_2
  have v3_3 : W3 m ρ c main_v3 = emb2 (X * Ts 0) := (W3_of_ne m ρ c main_v3 (by decide)).trans v3_2
  have v7_3 : W3 m ρ c main_v7 = emb2 (X * Ts 0 + Ws * X * Ts 1) := (W3_of_ne m ρ c main_v7 (by decide)).trans v7_2
  -- after the second stretch: Y2 = 2 P - X in main_v11, the static sum so far in main_v15
  obtain ⟨v11_4, v15_4⟩ := stretch2 X Ts (W3 m ρ c) (Ws * (Ws * X)) (X * Ts 0 + Ws * X * Ts 1) a0_3 a3_3 v8_3 v7_3
  have a0_4 : W4 m ρ c main_arg0 = emb2 X := (W4_keep m ρ c main_arg0 (by decide)).trans a0_3
  have a1_4 : W4 m ρ c main_arg1 = emb2 Ws := (W4_keep m ρ c main_arg1 (by decide)).trans a1_3
  have a2_4 : W4 m ρ c main_arg2 = emb2 Wp := (W4_keep m ρ c main_arg2 (by decide)).trans a2_3
  have a3_4 : W4 m ρ c main_arg3 = emb3 Ts := (W4_keep m ρ c main_arg3 (by decide)).trans a3_3
  have a4_4 : W4 m ρ c main_arg4 = emb3 Td := (W4_keep m ρ c main_arg4 (by decide)).trans a4_3
  have v0_4 : W4 m ρ c main_v0 = emb2 (Ws * X) := (W4_keep m ρ c main_v0 (by decide)).trans v0_3
  have v3_4 : W4 m ρ c main_v3 = emb2 (X * Ts 0) := (W4_keep m ρ c main_v3 (by decide)).trans v3_3
  -- after the third pallas_call: Q = Ws Y2 in main_v16
  have v16_5 : W5 m ρ c main_v16 = emb2 (Ws * ((2 : ℝ) • (Ws * (Ws * X)) - X)) :=
    (W5_arr m ρ c 2).trans (arrAt2_emb (V4 m ρ) c Ws ((2 : ℝ) • (Ws * (Ws * X)) - X) a1_4 v11_4)
  have a0_5 : W5 m ρ c main_arg0 = emb2 X := (W5_of_ne m ρ c main_arg0 (by decide)).trans a0_4
  have a2_5 : W5 m ρ c main_arg2 = emb2 Wp := (W5_of_ne m ρ c main_arg2 (by decide)).trans a2_4
  have a3_5 : W5 m ρ c main_arg3 = emb3 Ts := (W5_of_ne m ρ c main_arg3 (by decide)).trans a3_4
  have a4_5 : W5 m ρ c main_arg4 = emb3 Td := (W5_of_ne m ρ c main_arg4 (by decide)).trans a4_4
  have v0_5 : W5 m ρ c main_v0 = emb2 (Ws * X) := (W5_of_ne m ρ c main_v0 (by decide)).trans v0_4
  have v3_5 : W5 m ρ c main_v3 = emb2 (X * Ts 0) := (W5_of_ne m ρ c main_v3 (by decide)).trans v3_4
  have v15_5 : W5 m ρ c main_v15 = emb2 (X * Ts 0 + Ws * X * Ts 1 + ((2 : ℝ) • (Ws * (Ws * X)) - X) * Ts 2) :=
    (W5_of_ne m ρ c main_v15 (by decide)).trans v15_4
  -- the last stretch closes both branches and adds them
  have hres := stretch3 X Wp Ts Td (W5 m ρ c) (Ws * ((2 : ℝ) • (Ws * (Ws * X)) - X)) (Ws * X)
    (X * Ts 0 + Ws * X * Ts 1 + ((2 : ℝ) • (Ws * (Ws * X)) - X) * Ts 2) (X * Ts 0) a0_5 a2_5 a3_5 a4_5 v16_5 v0_5 v15_5 v3_5
  refine hres.trans ?_
  unfold specK outS outDK base y3 y2 y1
  rfl

end Cert.KernelIdeal.HandValue

end
-- ==== Proof.ReferenceValue.lean ====
/-
  The reference program's result, on real inputs, is a real-matrix expression read as extended reals.
  Every input is a real matrix (or a stack of real matrices) read entry by entry as an extended real. Each of the
  reference's operations maps such arrays to such arrays: a matrix product gives the product of the real matrices,
  a sum the sum, a difference the difference, the product with the broadcast literal 2.0 the scaling by 2, the
  transposition the transpose, a slice of a stack reshaped to rank 2 the corresponding matrix of the stack.
  Rewriting the result term from the inputs outwards therefore leaves one real-matrix expression read as extended
  reals, and that expression is, definition by definition, the expression specR.
-/
import proofs.«135434_j28647431864612_1_alg».proof.Proof.Gen.ReferenceIdeal.Read
import proofs.«135434_j28647431864612_1_alg».proof.Proof.RealMatrices

noncomputable section

namespace Cert.RefValue

open Idealize.ShloMosaic Idealize.ShloMosaic.TcCoe Cert.ReferenceIdeal Cert.RealMat

section Operations

open Cert.ReferenceIdeal.Gen

/-! ## The three matrix products of the reference are plain row-by-column products -/

theorem plain_sq_tall : PlainDot.IsPlain (R := 8192) (K := 8192) (C := 32) dot_S8192x8192_S8192x32_S8192x32_1_0_0_1_n_n :=
  ⟨rfl, rfl, rfl, rfl, rfl, rfl⟩

theorem plain_tall_small : PlainDot.IsPlain (R := 8192) (K := 32) (C := 32) dot_S8192x32_S32x32_S8192x32_1_0_0_1_n_n :=
  ⟨rfl, rfl, rfl, rfl, rfl, rfl⟩

theorem plain_tall_wide : PlainDot.IsPlain (R := 8192) (K := 32) (C := 8192) dot_S8192x32_S32x8192_S8192x8192_1_0_0_1_n_n :=
  ⟨rfl, rfl, rfl, rfl, rfl, rfl⟩

/-- An [8192, 8192] matrix times an [8192, 32] matrix. -/
theorem dot_sq_tall (A : Matrix (Fin 8192) (Fin 8192) ℝ) (B : Matrix (Fin 8192) (Fin 32) ℝ) :
    Host.dotGeneral (F := Ideal) dot_S8192x8192_S8192x32_S8192x32_1_0_0_1_n_n none (emb2 A) (emb2 B) = emb2 (A * B) :=
  dotGeneral_emb2 plain_sq_tall none A B

/-- An [8192, 32] matrix times a [32, 32] matrix. -/
theorem dot_tall_small (A : Matrix (Fin 8192) (Fin 32) ℝ) (B : Matrix (Fin 32) (Fin 32) ℝ) :
    Host.dotGeneral (F := Ideal) dot_S8192x32_S32x32_S8192x32_1_0_0_1_n_n none (emb2 A) (emb2 B) = emb2 (A * B) :=
  dotGeneral_emb2 plain_tall_small none A B

/-- An [8192, 32] matrix times a [32, 8192] matrix. -/
theorem dot_tall_wide (A : Matrix (Fin 8192) (Fin 32) ℝ) (B : Matrix (Fin 32) (Fin 8192) ℝ) :
    Host.dotGeneral (F := Ideal) dot_S8192x32_S32x8192_S8192x8192_1_0_0_1_n_n none (emb2 A) (emb2 B) = emb2 (A * B) :=
  dotGeneral_emb2 plain_tall_wide none A B

/-! ## The slices of a stack of four matrices -/

theorem slice0 (T : Fin 4 → Matrix (Fin 32) (Fin 32) ℝ) :
    shapeCast S32x32 (extractStridedSlice S1x32x32 ![0, 0, 0] (emb3 T) slices_S4x32x32_S1x32x32_0_0_0) shapeCasts_S1x32x32_S32x32
      = emb2 (T 0) :=
  slice_emb3 (0 : Fin 4) slices_S4x32x32_S1x32x32_0_0_0 shapeCasts_S1x32x32_S32x32 T

theorem slice1 (T : Fin 4 → Matrix (Fin 32) (Fin 32) ℝ) :
    shapeCast S32x32 (extractStridedSlice S1x32x32 ![1, 0, 0] (emb3 T) slices_S4x32x32_S1x32x32_1_0_0) shapeCasts_S1x32x32_S32x32
      = emb2 (T 1) :=
  slice_emb3 (1 : Fin 4) slices_S4x32x32_S1x32x32_1_0_0 shapeCasts_S1x32x32_S32x32 T

theorem slice2 (T : Fin 4 → Matrix (Fin 32) (Fin 32) ℝ) :
    shapeCast S32x32 (extractStridedSlice S1x32x32 ![2, 0, 0] (emb3 T) slices_S4x32x32_S1x32x32_2_0_0) shapeCasts_S1x32x32_S32x32
      = emb2 (T 2) :=
  slice_emb3 (2 : Fin 4) slices_S4x32x32_S1x32x32_2_0_0 shapeCasts_S1x32x32_S32x32 T

theorem slice3 (T : Fin 4 → Matrix (Fin 32) (Fin 32) ℝ) :
    shapeCast S32x32 (extractStridedSlice S1x32x32 ![3, 0, 0] (emb3 T) slices_S4x32x32_S1x32x32_3_0_0) shapeCasts_S1x32x32_S32x32
      = emb2 (T 3) :=
  slice_emb3 (3 : Fin 4) slices_S4x32x32_S1x32x32_3_0_0 shapeCasts_S1x32x32_S32x32 T

/-! ## Scaling by 2, sum, difference, transpose at the reference's shapes -/

/-- The product with the broadcast literal 2.0, the empty list of broadcast axes read as a function into Fin 2. -/
theorem two_mul_tall (A : Matrix (Fin 8192) (Fin 32) ℝ) :
    mulf (broadcastInDim S8192x32 (![] : Fin 0 → Fin 2) bcast_S_S8192x32 (constant (F := Ideal) S_ .f32 0x40000000#32)) (emb2 A)
      = emb2 ((2 : ℝ) • A) :=
  two_mulf_emb2 bcast_S_S8192x32 A

/-- The same, the empty list of broadcast axes read as a function into Fin (rank of the [8192, 32] shape). -/
theorem two_mul_tall_rank (A : Matrix (Fin 8192) (Fin 32) ℝ) :
    mulf (broadcastInDim S8192x32 ![] bcast_S_S8192x32 (constant (F := Ideal) S_ .f32 0x40000000#32)) (emb2 A)
      = emb2 ((2 : ℝ) • A) :=
  two_mulf_emb2 bcast_S_S8192x32 A

theorem transpose_tall (A : Matrix (Fin 8192) (Fin 32) ℝ) :
    transpose S32x8192 [1, 0] (emb2 A) transposes_S8192x32_S32x8192_1_0 = emb2 A.transpose :=
  transpose_emb2 transposes_S8192x32_S32x8192_1_0 A

end Operations

/-! ## The result -/

set_option maxRecDepth 8192 in
theorem res_eq (m : (ℓ : Loc nD τ sig) → Buf (Elt Ideal) ℓ) (c : Dev nD)
    (X : Matrix (Fin 8192) (Fin 32) ℝ) (Ws : Matrix (Fin 8192) (Fin 8192) ℝ) (Wp : Matrix (Fin 32) (Fin 32) ℝ) (Ts Td : Fin 4 → Matrix (Fin 32) (Fin 32) ℝ)
    (h0 : m ((c.tc : Thread nD τ).loc main_arg0) = emb2 X) (h1 : m ((c.tc : Thread nD τ).loc main_arg1) = emb2 Ws)
    (h2 : m ((c.tc : Thread nD τ).loc main_arg2) = emb2 Wp) (h3 : m ((c.tc : Thread nD τ).loc main_arg3) = emb3 Ts)
    (h4 : m ((c.tc : Thread nD τ).loc main_arg4) = emb3 Td) :
    Cert.ReferenceIdeal.Value.res_main_v48 (F := Ideal) m c = emb2 (specR X Ws Wp Ts Td) := by
  -- the transposed first input is the transpose of X
  have hT : transpose S32x8192 [1, 0] (m ((c.tc : Thread nD τ).loc main_arg0)) Gen.transposes_S8192x32_S32x8192_1_0
      = emb2 X.transpose := by
    rw [h0]; exact transpose_tall X
  unfold Cert.ReferenceIdeal.Value.res_main_v48
  rw [hT]
  -- every operation, innermost first, maps real matrices read as extended reals to such
  simp only [h0, h1, h2, h3, h4, slice0, slice1, slice2, slice3, dot_sq_tall, dot_tall_small, dot_tall_wide,
    two_mul_tall, two_mul_tall_rank, addf_emb2, subf_emb2]
  -- both sides are the same real-matrix expression: specR and its parts are abbreviations of it
  rfl

end Cert.RefValue

end
-- ==== Proof.FiniteInputs.lean ====
/-
  Under the precondition that every float input is finite, each of the five argument arrays is a real matrix (or a stack
  of real matrices) read entry by entry as an extended real. The precondition is a conjunction of five statements
  "every entry x of the array has |x| < +inf"; an extended real whose absolute value is below +inf is a real number.
-/
import Mathlib.Data.EReal.Basic
import Idealize.ShloMosaic.PureOps.Ideal.Laws
import Idealize.ShloMosaic.Lib.ValueIdx
import Idealize.ShloMosaic.Lib.ReduceAll
import proofs.«135434_j28647431864612_1_alg».proof.Pre_finite_inputs
import proofs.«135434_j28647431864612_1_alg».proof.Proof.RealMatrices

noncomputable section

namespace Cert.FiniteInputs

open Idealize.ShloMosaic Idealize.ShloMosaic.ValueIdx Cert.RealMat

/-- The word 0x7F800000 is +inf. -/
theorem ofBits_inf : Ideal.ofBits .f32 0x7F800000#32 = (⊤ : EReal) := by
  simp [Ideal.ofBits, Ideal.ieee]

/-- An extended real whose absolute value max x (-x) is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The scalar shape has one index. -/
instance : Subsingleton Cert.Pre_finite_inputs.S_.Idx := ⟨fun a b => funext fun d => d.elim0⟩

/-- One conjunct of the precondition: if the conjunction over all entries of "|v j| < +inf" is true then every entry of v is real. -/
theorem real_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf v) (broadcastInDim s ![] hb (constant (F := Ideal) Cert.Pre_finite_inputs.S_ .f32 0x7F800000#32)))
          init hr hu ix0 = 1#1) (j : s.Idx) : ∃ r : ℝ, v j = (r : EReal) := by
  have h1 := Host.reduce_andi_all _ init hr hu ix0 e j
  have h2 : Ideal.cmp .olt (max (v j) (-(v j))) (Ideal.ofBits .f32 0x7F800000#32) = 1#1 := h1
  rw [ofBits_inf] at h2
  refine real_of_abs_lt_top (v j) ?_
  by_contra hn
  simp [Ideal.cmp, hn] at h2

/-- An array all of whose entries are real numbers is a real matrix read as extended reals. -/
theorem exists_emb2 {a b : ℕ} (v : FVec Ideal ⟨2, ![a, b]⟩ .f32) (h : ∀ j, ∃ r : ℝ, v j = (r : EReal)) :
    ∃ M : Matrix (Fin a) (Fin b) ℝ, v = emb2 M := by
  choose f hf using h
  refine ⟨fun p q => f (ix2 p q), funext fun j => ?_⟩
  obtain ⟨p, q, rfl⟩ : ∃ (p : Fin a) (q : Fin b), j = ix2 p q := ⟨j 0, j 1, eq_ix2 j⟩
  exact hf (ix2 p q)

theorem exists_emb3 {n a b : ℕ} (v : FVec Ideal ⟨3, ![n, a, b]⟩ .f32) (h : ∀ j, ∃ r : ℝ, v j = (r : EReal)) :
    ∃ T : Fin n → Matrix (Fin a) (Fin b) ℝ, v = emb3 T := by
  choose f hf using h
  refine ⟨fun k p q => f (ix3 k p q), funext fun j => ?_⟩
  obtain ⟨k, p, q, rfl⟩ : ∃ (k : Fin n) (p : Fin a) (q : Fin b), j = ix3 k p q := ⟨j 0, j 1, j 2, eq_ix3 j⟩
  exact hf (ix3 k p q)

/-- Under the precondition every input array is real. -/
theorem real_of_pre [Cert.Pre_finite_inputs.Facts]
    (a0 : FVec Ideal ⟨2, ![8192, 32]⟩ .f32) (a1 : FVec Ideal ⟨2, ![8192, 8192]⟩ .f32) (a2 : FVec Ideal ⟨2, ![32, 32]⟩ .f32)
    (a3 a4 : FVec Ideal ⟨3, ![4, 32, 32]⟩ .f32)
    (h : Cert.Pre_finite_inputs.fn (F := Ideal) a0 a1 a2 a3 a4 = fun _ => 1#1) :
    ∃ (X : Matrix (Fin 8192) (Fin 32) ℝ) (Ws : Matrix (Fin 8192) (Fin 8192) ℝ) (Wp : Matrix (Fin 32) (Fin 32) ℝ) (Ts Td : Fin 4 → Matrix (Fin 32) (Fin 32) ℝ),
      a0 = emb2 X ∧ a1 = emb2 Ws ∧ a2 = emb2 Wp ∧ a3 = emb3 Ts ∧ a4 = emb3 Td := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  obtain ⟨X, hX⟩ := exists_emb2 a0 (real_of_all a0 _ _ _ _ e0)
  obtain ⟨Ws, hWs⟩ := exists_emb2 a1 (real_of_all a1 _ _ _ _ e1)
  obtain ⟨Wp, hWp⟩ := exists_emb2 a2 (real_of_all a2 _ _ _ _ e2)
  obtain ⟨Ts, hTs⟩ := exists_emb3 a3 (real_of_all a3 _ _ _ _ e3)
  obtain ⟨Td, hTd⟩ := exists_emb3 a4 (real_of_all a4 _ _ _ _ e4)
  exact ⟨X, Ws, Wp, Ts, Td, hX, hWs, hWp, hTs, hTd⟩

end Cert.FiniteInputs

end
-- ==== Proof.lean ====
/-
  The certificate of a Chebyshev graph-convolution layer.

  Both programs compute, from node features X (8192 × 32), a static operator Ws (8192 × 8192), a projection Wp (32 × 32)
  and two stacks of four 32 × 32 weight matrices Ts, Td, the sum of a static and a dynamic branch. The static branch is
  the Chebyshev recurrence y₁ = Ws X, y_k = 2 Ws y_{k-1} - y_{k-2}, summed against the weights Ts; the kernel's program
  forms each product Ws · y in a pallas_call (a matrix product tiled 8 × 4, accumulated over the four reduction tiles in
  a scratch buffer), the reference by one host product. The dynamic branch runs the same recurrence with the operator
  Wd = X Wp Xᵀ; the reference applies it as ((X Wp) Xᵀ) v, forming the 8192 × 8192 matrix, while the kernel's program
  applies it as X (Wp (Xᵀ v)). The two agree because matrix multiplication is associative — on real numbers: the
  precondition (every input finite) is what makes every array a real matrix, on which the extended reals' arithmetic is
  the reals' and the law holds.

  The frames of the kernel's program at both instances come from one run of its six items (three pallas_calls, each
  followed by host operations), which also names every buffer's final contents; the reference's frame and value are its
  host run.
-/
import proofs.«135434_j28647431864612_1_alg».proof.Defs
import proofs.«135434_j28647431864612_1_alg».proof.Proof.Gen.Kernel
import proofs.«135434_j28647431864612_1_alg».proof.Proof.Gen.KernelIdeal
import proofs.«135434_j28647431864612_1_alg».proof.Proof.Gen.ReferenceIdeal
import proofs.«135434_j28647431864612_1_alg».proof.Proof.Gen.ReferenceIdeal.Run
import proofs.«135434_j28647431864612_1_alg».proof.Proof.Gen.ReferenceIdeal.Read
import proofs.«135434_j28647431864612_1_alg».proof.Proof.Gen.Pre_finite_inputs
import proofs.«135434_j28647431864612_1_alg».proof.Proof.Kernel.Run
import proofs.«135434_j28647431864612_1_alg».proof.Proof.KernelIdeal.Run
import proofs.«135434_j28647431864612_1_alg».proof.Proof.KernelValue
import proofs.«135434_j28647431864612_1_alg».proof.Proof.ReferenceValue
import proofs.«135434_j28647431864612_1_alg».proof.Proof.FiniteInputs
import Idealize.ShloMosaic.Adequacy
import Idealize.ShloMosaic.Init

noncomputable section

namespace Cert.Proof

open Idealize.ShloMosaic Idealize.ShloMosaic.TcCoe Idealize.SL.Sem Cert.RealMat

/-- The kernel's program as printed runs to the end and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On finite inputs both programs end with the same result: each is a real-matrix expression read as extended reals, and
    the two expressions differ only in the bracketing of the dynamic operator's products. -/
theorem algebraic : Cert.algebraic_KernelIdeal_ReferenceIdeal := by
  intro m ρ m' ρ' hpre hagree
  refine ⟨fun c => Cert.KernelIdeal.Hand.W6 (F := Ideal) m ρ c Cert.KernelIdeal.main_v54, ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v54 (by decide)),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c)⟩
  · refine (θ_run Cert.ReferenceIdeal.defs _ _).mono (fun r h c => ⟨(h c).1.trans ?_, (h c).2⟩)
      (Cert.ReferenceIdeal.Value.run (F := Ideal) m' ρ')
    obtain ⟨X, Ws, Wp, Ts, Td, e0, e1, e2, e3, e4⟩ := Cert.FiniteInputs.real_of_pre _ _ _ _ _ (hpre c)
    obtain ⟨g0, g1, g2, g3, g4⟩ := hagree c
    have hk : Cert.KernelIdeal.Hand.W6 (F := Ideal) m ρ c Cert.KernelIdeal.main_v54 = emb2 (specK X Ws Wp Ts Td) :=
      Cert.KernelIdeal.HandValue.result_value m ρ c X Ws Wp Ts Td e0 e1 e2 e3 e4
    exact (Cert.RefValue.res_eq m' c X Ws Wp Ts Td (g0.trans e0) (g1.trans e1) (g2.trans e2) (g3.trans e3) (g4.trans e4)).trans
      ((congrArg emb2 (specK_eq_specR X Ws Wp Ts Td)).symm.trans hk.symm)

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
